-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2097152x3 : Shape := ⟨2, ![2097152, 3]⟩
abbrev S2097152x16 : Shape := ⟨2, ![2097152, 16]⟩
abbrev S3 : Shape := ⟨1, ![3]⟩
abbrev S18x64 : Shape := ⟨2, ![18, 64]⟩
abbrev S64 : Shape := ⟨1, ![64]⟩
abbrev S64x10 : Shape := ⟨2, ![64, 10]⟩
abbrev S10 : Shape := ⟨1, ![10]⟩
abbrev S_ : Shape := ⟨0, ![]⟩

class Facts : Prop where
  bcast_S_S2097152x3 : S_.BroadcastsInDim S2097152x3 (![] : Fin 0 → Fin S2097152x3.rank)
  reducesTo_S2097152x3_S_d0_1 : S2097152x3.ReducesTo [0, 1] S_
  h_S_ : 0 < S_.numel
  bcast_S_S2097152x16 : S_.BroadcastsInDim S2097152x16 (![] : Fin 0 → Fin S2097152x16.rank)
  reducesTo_S2097152x16_S_d0_1 : S2097152x16.ReducesTo [0, 1] S_
  bcast_S_S3 : S_.BroadcastsInDim S3 (![] : Fin 0 → Fin S3.rank)
  reducesTo_S3_S_d0 : S3.ReducesTo [0] S_
  bcast_S_S18x64 : S_.BroadcastsInDim S18x64 (![] : Fin 0 → Fin S18x64.rank)
  reducesTo_S18x64_S_d0_1 : S18x64.ReducesTo [0, 1] S_
  bcast_S_S64 : S_.BroadcastsInDim S64 (![] : Fin 0 → Fin S64.rank)
  reducesTo_S64_S_d0 : S64.ReducesTo [0] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg4 : FVec F S64 .f32) (main_arg5 : FVec F S64x10 .f32) (main_arg6 : FVec F S10 .f32) (main_v13 : IVec S_ 1) (main_v16 : IVec S18x64 1) : IVec S_ 1 :=
  let main_c_5 : IVec S_ 1 := constantI S_ 1 1#1
  let main_v17 : IVec S_ 1 := (fun x v => Host.reduce IntOp.andi x v reducesTo_S18x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x10 .f32 := Host.absf main_arg5
  let main_cst_8 : FVec F S_ .f32 := constant S_ .f32 0x7F800000#32
  let main_v25 : FVec F S64x10 .f32 := broadcastInDim S64x10 ![] bcast_S_S64x10 main_cst_8
  let main_v26 : IVec S64x10 1 := cmpf .olt main_v24 main_v25
  let main_c_9 : IVec S_ 1 := constantI S_ 1 1#1
  let main_v27 : IVec S_ 1 := (fun x v => Host.reduce IntOp.andi x v reducesTo_S64x10_S_d0_1 h_S_) main_v26 main_c_9
  let main_v28 : IVec S_ 1 := andi main_v23 main_v27
  let main_v29 : FVec F S10 .f32 := Host.absf main_arg6
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  main_v33

def fn {F : FTy → Type} [FloatOps F] (main_arg0 : FVec F S2097152x3 .f32) (main_arg1 : FVec F S2097152x16 .f32) (main_arg2 : FVec F S3 .f32) (main_arg3 : FVec F S18x64 .f32) (main_arg4 : FVec F S64 .f32) (main_arg5 : FVec F S64x10 .f32) (main_arg6 : FVec F S10 .f32) : IVec S_ 1 :=
  let main_v0 : FVec F S2097152x3 .f32 := Host.absf main_arg0
  let main_cst : FVec F S_ .f32 := constant S_ .f32 0x7F800000#32
  let main_v1 : FVec F S2097152x3 .f32 := broadcastInDim S2097152x3 ![] bcast_S_S2097152x3 main_cst
  let main_v2 : IVec S2097152x3 1 := cmpf .olt main_v0 main_v1
  let main_c : IVec S_ 1 := constantI S_ 1 1#1
  let main_v3 : IVec S_ 1 := (fun x v => Host.reduce IntOp.andi x v reducesTo_S2097152x3_S_d0_1 h_S_) main_v2 main_c
  let main_v4 : FVec F S2097152x16 .f32 := Host.absf main_arg1
  let main_cst_0 : FVec F S_ .f32 := constant S_ .f32 0x7F800000#32
  let main_v5 : FVec F S2097152x16 .f32 := broadcastInDim S2097152x16 ![] bcast_S_S2097152x16 main_cst_0
  let main_v6 : IVec S2097152x16 1 := cmpf .olt main_v4 main_v5
  let main_c_1 : IVec S_ 1 := constantI S_ 1 1#1
  let main_v7 : IVec S_ 1 := (fun x v => Host.reduce IntOp.andi x v reducesTo_S2097152x16_S_d0_1 h_S_) main_v6 main_c_1
  let main_v8 : IVec S_ 1 := andi main_v3 main_v7
  let main_v9 : FVec F S3 .f32 := Host.absf main_arg2
  let main_cst_2 : FVec F S_ .f32 := constant S_ .f32 0x7F800000#32
  let main_v10 : FVec F S3 .f32 := broadcastInDim S3 ![] bcast_S_S3 main_cst_2
  let main_v11 : IVec S3 1 := cmpf .olt main_v9 main_v10
  let main_c_3 : IVec S_ 1 := constantI S_ 1 1#1
  let main_v12 : IVec S_ 1 := (fun x v => Host.reduce IntOp.andi x v reducesTo_S3_S_d0 h_S_) main_v11 main_c_3
  let main_v13 : IVec S_ 1 := andi main_v8 main_v12
  let main_v14 : FVec F S18x64 .f32 := Host.absf main_arg3
  let main_cst_4 : FVec F S_ .f32 := constant S_ .f32 0x7F800000#32
  let main_v15 : FVec F S18x64 .f32 := broadcastInDim S18x64 ![] bcast_S_S18x64 main_cst_4
  let main_v16 : IVec S18x64 1 := cmpf .olt main_v14 main_v15
  fn_part1 (F := F) main_arg4 main_arg5 main_arg6 main_v13 main_v16
-- ==== Kernel.lean ====
abbrev S2097152x3 : Shape := ⟨2, ![2097152, 3]⟩
abbrev S2097152x16 : Shape := ⟨2, ![2097152, 16]⟩
abbrev S3 : Shape := ⟨1, ![3]⟩
abbrev S18x64 : Shape := ⟨2, ![18, 64]⟩
abbrev S64 : Shape := ⟨1, ![64]⟩
abbrev S64x10 : Shape := ⟨2, ![64, 10]⟩
abbrev S10 : Shape := ⟨1, ![10]⟩
abbrev S3x2097152 : Shape := ⟨2, ![3, 2097152]⟩
abbrev S16x2097152 : Shape := ⟨2, ![16, 2097152]⟩
abbrev S64x18 : Shape := ⟨2, ![64, 18]⟩
abbrev S10x64 : Shape := ⟨2, ![10, 64]⟩
abbrev S3x16384 : Shape := ⟨2, ![3, 16384]⟩
abbrev S16x16384 : Shape := ⟨2, ![16, 16384]⟩
abbrev S2x16384 : Shape := ⟨2, ![2, 16384]⟩
abbrev S18x16384 : Shape := ⟨2, ![18, 16384]⟩
abbrev S64x16384 : Shape := ⟨2, ![64, 16384]⟩
abbrev S64x1 : Shape := ⟨2, ![64, 1]⟩
abbrev S10x16384 : Shape := ⟨2, ![10, 16384]⟩
abbrev S10x1 : Shape := ⟨2, ![10, 1]⟩
abbrev S1x16384 : Shape := ⟨2, ![1, 16384]⟩
abbrev S6x16384 : Shape := ⟨2, ![6, 16384]⟩
abbrev S5x16384 : Shape := ⟨2, ![5, 16384]⟩
abbrev S16384 : Shape := ⟨1, ![16384]⟩
abbrev S2 : Shape := ⟨1, ![2]⟩
abbrev S2x1 : Shape := ⟨2, ![2, 1]⟩

abbrev nBuf : Space → Nat
  | .hbm => 13
  | .vmem => 11
  | .smem => 0
  | _ => 0

abbrev bufTy : (tb : Table) → Fin (tcTables nBuf tb) → BufTy
  | .hbm, ⟨0, _⟩ => ⟨S2097152x3, .f32⟩
  | .hbm, ⟨1, _⟩ => ⟨S2097152x16, .f32⟩
  | .hbm, ⟨2, _⟩ => ⟨S3, .f32⟩
  | .hbm, ⟨3, _⟩ => ⟨S18x64, .f32⟩
  | .hbm, ⟨4, _⟩ => ⟨S64, .f32⟩
  | .hbm, ⟨5, _⟩ => ⟨S64x10, .f32⟩
  | .hbm, ⟨6, _⟩ => ⟨S10, .f32⟩
  | .hbm, ⟨7, _⟩ => ⟨S3x2097152, .f32⟩
  | .hbm, ⟨8, _⟩ => ⟨S16x2097152, .f32⟩
  | .hbm, ⟨9, _⟩ => ⟨S64x18, .f32⟩
  | .hbm, ⟨10, _⟩ => ⟨S10x64, .f32⟩
  | .hbm, ⟨11, _⟩ => ⟨S3x2097152, .f32⟩
  | .hbm, ⟨12, _⟩ => ⟨S2097152x3, .f32⟩
  | .local _ .vmem, ⟨0, _⟩ => ⟨S3x16384, .f32⟩
  | .local _ .vmem, ⟨1, _⟩ => ⟨S3x16384, .f32⟩
  | .local _ .vmem, ⟨2, _⟩ => ⟨S16x16384, .f32⟩
  | .local _ .vmem, ⟨3, _⟩ => ⟨S16x16384, .f32⟩
  | .local _ .vmem, ⟨4, _⟩ => ⟨S3, .f32⟩
  | .local _ .vmem, ⟨5, _⟩ => ⟨S64x18, .f32⟩
  | .local _ .vmem, ⟨6, _⟩ => ⟨S64, .f32⟩
  | .local _ .vmem, ⟨7, _⟩ => ⟨S10x64, .f32⟩
  | .local _ .vmem, ⟨8, _⟩ => ⟨S10, .f32⟩
  | .local _ .vmem, ⟨9, _⟩ => ⟨S3x16384, .f32⟩
  | .local _ .vmem, ⟨10, _⟩ => ⟨S3x16384, .f32⟩
  | _, _ => ⟨S2097152x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S3x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x18 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S10x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S10 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S3x16384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S2097152x3_S3x2097152_1_0 : S2097152x3.Transposes [1, 0] S3x2097152
  transposes_S2097152x16_S16x2097152_1_0 : S2097152x16.Transposes [1, 0] S16x2097152
  transposes_S18x64_S64x18_1_0 : S18x64.Transposes [1, 0] S64x18
  transposes_S64x10_S10x64_1_0 : S64x10.Transposes [1, 0] S10x64
  inb_S3x16384_S3x16384_0_0 : ∀ a, (![0, 0] : Fin 2 → Nat) a + S3x16384.size a ≤ S3x16384.size a
  h_S3x16384 : 0 < S3x16384.numel
  shapeCasts_S3x16384_S3x16384 : S3x16384.ShapeCasts S3x16384
  inb_S16x16384_S16x16384_0_0 : ∀ a, (![0, 0] : Fin 2 → Nat) a + S16x16384.size a ≤ S16x16384.size a
  h_S16x16384 : 0 < S16x16384.numel
  shapeCasts_S16x16384_S16x16384 : S16x16384.ShapeCasts S16x16384
  inb_S3_S3_0 : ∀ a, (![0] : Fin 1 → Nat) a + S3.size a ≤ S3.size a
  h_S3 : 0 < S3.numel
  inb_S64x18_S64x18_0_0 : ∀ a, (![0, 0] : Fin 2 → Nat) a + S64x18.size a ≤ S64x18.size a
  h_S64x18 : 0 < S64x18.numel
  shapeCasts_S64x18_S64x18 : S64x18.ShapeCasts S64x18
  inb_S64_S64_0 : ∀ a, (![0] : Fin 1 → Nat) a + S64.size a ≤ S64.size a
  h_S64 : 0 < S64.numel
  inb_S10x64_S10x64_0_0 : ∀ a, (![0, 0] : Fin 2 → Nat) a + S10x64.size a ≤ S10x64.size a
  h_S10x64 : 0 < S10x64.numel
  shapeCasts_S10x64_S10x64 : S10x64.ShapeCasts S10x64
  inb_S10_S10_0 : ∀ a, (![0] : Fin 1 → Nat) a + S10.size a ≤ S10.size a
  h_S10 : 0 < S10.numel
  slices_S3x16384_o0_0_S2x16384 : S3x16384.Slices ![0, 0] S2x16384
  concatenates_S2x16384_S16x16384_S18x16384_d0 : Shape.Concatenates [S2x16384, S16x16384] S18x16384 0
  bitsLt_bf16_f32 : FTy.bits .bf16 < FTy.bits .f32
  shapeCasts_S64_S64x1 : S64.ShapeCasts S64x1
  broadcasts_S64x1_S64x16384 : S64x1.Broadcasts S64x16384
  shapeCasts_S10_S10x1 : S10.ShapeCasts S10x1
  broadcasts_S10x1_S10x16384 : S10x1.Broadcasts S10x16384
  slices_S10x16384_o0_0_S1x16384 : S10x16384.Slices ![0, 0] S1x16384
  slices_S10x16384_o1_0_S1x16384 : S10x16384.Slices ![1, 0] S1x16384
  slices_S10x16384_o2_0_S1x16384 : S10x16384.Slices ![2, 0] S1x16384
  slices_S10x16384_o3_0_S1x16384 : S10x16384.Slices ![3, 0] S1x16384
  slices_S10x16384_o4_0_S1x16384 : S10x16384.Slices ![4, 0] S1x16384
  slices_S10x16384_o5_0_S1x16384 : S10x16384.Slices ![5, 0] S1x16384
  slices_S10x16384_o6_0_S1x16384 : S10x16384.Slices ![6, 0] S1x16384
  slices_S10x16384_o7_0_S1x16384 : S10x16384.Slices ![7, 0] S1x16384
  slices_S10x16384_o8_0_S1x16384 : S10x16384.Slices ![8, 0] S1x16384
  slices_S10x16384_o9_0_S1x16384 : S10x16384.Slices ![9, 0] S1x16384
  concatenates_S1x16384_S1x16384_S1x16384_S1x16384_S1x16384_S1x16384_S6x16384_d0 : Shape.Concatenates [S1x16384, S1x16384, S1x16384, S1x16384, S1x16384, S1x16384] S6x16384 0
  slices_S6x16384_o0_0_S5x16384 : S6x16384.Slices ![0, 0] S5x16384
  slices_S6x16384_o1_0_S5x16384 : S6x16384.Slices ![1, 0] S5x16384
  slices_S3x16384_o2_0_S1x16384 : S3x16384.Slices ![2, 0] S1x16384
  slices_S5x16384_o0_0_S1x16384 : S5x16384.Slices ![0, 0] S1x16384
  slices_S5x16384_o4_0_S1x16384 : S5x16384.Slices ![4, 0] S1x16384
  shapeCasts_S1x16384_S1x16384 : S1x16384.ShapeCasts S1x16384
  broadcasts_S1x16384_S5x16384 : S1x16384.Broadcasts S5x16384
  reduces_S5x16384_S16384 : S5x16384.Reduces [0] S16384
  shapeCasts_S16384_S1x16384 : S16384.ShapeCasts S1x16384
  slices_S3_o0_S2 : S3.Slices ![0] S2
  shapeCasts_S2_S2x1 : S2.ShapeCasts S2x1
  broadcasts_S2x1_S2x16384 : S2x1.Broadcasts S2x16384
  concatenates_S2x16384_S1x16384_S3x16384_d0 : Shape.Concatenates [S2x16384, S1x16384] S3x16384 0
  transposes_S3x2097152_S2097152x3_1_0 : S3x2097152.Transposes [1, 0] S2097152x3
  dot_S64x18_S18x16384_S64x16384_1_0_0_1_n_n_wf : DotDims.WF S64x18 S18x16384 S64x16384 [1] [0] [0] [1] [] []
  dot_S10x64_S64x16384_S10x16384_1_0_0_1_n_n_wf : DotDims.WF S10x64 S64x16384 S10x16384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x16384.size a ≤ S3x2097152.size a
  hwx0_0 : ∀ i : grid0.Coords, EltTy.bits .f32 = 32 ∨ (Rect.block (s := S3x2097152) S3x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x16384.size a ≤ S16x2097152.size a
  hwx0_1 : ∀ i : grid0.Coords, EltTy.bits .f32 = 32 ∨ (Rect.block (s := S16x2097152) S16x16384.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3.size a ≤ S3.size a
  hwx0_2 : ∀ i : grid0.Coords, EltTy.bits .f32 = 32 ∨ (Rect.block (s := S3) S3.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x18.size a ≤ S64x18.size a
  hwx0_3 : ∀ i : grid0.Coords, EltTy.bits .f32 = 32 ∨ (Rect.block (s := S64x18) S64x18.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S10x64.size a ≤ S10x64.size a
  hwx0_5 : ∀ i : grid0.Coords, EltTy.bits .f32 = 32 ∨ (Rect.block (s := S10x64) S10x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S10.size a ≤ S10.size a
  hwx0_6 : ∀ i : grid0.Coords, EltTy.bits .f32 = 32 ∨ (Rect.block (s := S10) S10.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S3x16384.size a ≤ S3x2097152.size a
  hwx0_7 : ∀ i : grid0.Coords, EltTy.bits .f32 = 32 ∨ (Rect.block (s := S3x2097152) S3x16384.size (cc0_transform_7 i) (hinb0_7 i)).WholeWords (EltTy.packing .f32)

variable [Facts₀]

def dot_S64x18_S18x16384_S64x16384_1_0_0_1_n_n : DotDims S64x18 S18x16384 S64x16384 where
  lhsContracting := [1]
  rhsContracting := [0]
  lhsNonContracting := [0]
  rhsNonContracting := [1]
  lhsBatch := []
  rhsBatch := []
  wf := dot_S64x18_S18x16384_S64x16384_1_0_0_1_n_n_wf
def dot_S10x64_S64x16384_S10x16384_1_0_0_1_n_n : DotDims S10x64 S64x16384 S10x16384 where
  lhsContracting := [1]
  rhsContracting := [0]
  lhsNonContracting := [0]
  rhsNonContracting := [1]
  lhsBatch := []
  rhsBatch := []
  wf := dot_S10x64_S64x16384_S10x16384_1_0_0_1_n_n_wf

abbrev win0_0 : Pipeline.Window sig grid0 :=
  Pipeline.Window.ofSpec (Memref.whole main_v0) S3x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S16x16384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S3.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S64x18.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S10x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S10.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S3x16384.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S2097152x3 : Shape := ⟨2, ![2097152, 3]⟩
abbrev S2097152x16 : Shape := ⟨2, ![2097152, 16]⟩
abbrev S3 : Shape := ⟨1, ![3]⟩
abbrev S18x64 : Shape := ⟨2, ![18, 64]⟩
abbrev S64 : Shape := ⟨1, ![64]⟩
abbrev S64x10 : Shape := ⟨2, ![64, 10]⟩
abbrev S10 : Shape := ⟨1, ![10]⟩
abbrev S1x3 : Shape := ⟨2, ![1, 3]⟩
abbrev S2097152x2 : Shape := ⟨2, ![2097152, 2]⟩
abbrev S2097152x18 : Shape := ⟨2, ![2097152, 18]⟩
abbrev S2097152x64 : Shape := ⟨2, ![2097152, 64]⟩
abbrev S1x64 : Shape := ⟨2, ![1, 64]⟩
abbrev S_ : Shape := ⟨0, ![]⟩
abbrev S2097152x10 : Shape := ⟨2, ![2097152, 10]⟩
abbrev S1x10 : Shape := ⟨2, ![1, 10]⟩
abbrev S2097152x1 : Shape := ⟨2, ![2097152, 1]⟩
abbrev S2097152 : Shape := ⟨1, ![2097152]⟩
abbrev S2097152x6 : Shape := ⟨2, ![2097152, 6]⟩
abbrev S2097152x5 : Shape := ⟨2, ![2097152, 5]⟩

abbrev nBuf : Space → Nat
  | .hbm => 143
  | .vmem => 0
  | .smem => 0
  | _ => 0

abbrev hbmTy0_0 (i : Nat) : BufTy := match i % 128 with
  | 0 => ⟨S2097152x3, .f32⟩
  | 1 => ⟨S2097152x16, .f32⟩
  | 2 => ⟨S3, .f32⟩
  | 3 => ⟨S18x64, .f32⟩
  | 4 => ⟨S64, .f32⟩
  | 5 => ⟨S64x10, .f32⟩
  | 6 => ⟨S10, .f32⟩
  | 7 => ⟨S1x3, .f32⟩
  | 8 => ⟨S2097152x3, .f32⟩
  | 9 => ⟨S2097152x3, .f32⟩
  | 10 => ⟨S2097152x2, .f32⟩
  | 11 => ⟨S2097152x2, .f32⟩
  | 12 => ⟨S2097152x18, .f32⟩
  | 13 => ⟨S2097152x64, .f32⟩
  | 14 => ⟨S1x64, .f32⟩
  | 15 => ⟨S2097152x64, .f32⟩
  | 16 => ⟨S2097152x64, .f32⟩
  | 17 => ⟨S_, .f32⟩
  | 18 => ⟨S2097152x64, .f32⟩
  | 19 => ⟨S2097152x64, .f32⟩
  | 20 => ⟨S2097152x10, .f32⟩
  | 21 => ⟨S1x10, .f32⟩
  | 22 => ⟨S2097152x10, .f32⟩
  | 23 => ⟨S2097152x10, .f32⟩
  | 24 => ⟨S_, .f32⟩
  | 25 => ⟨S2097152x10, .f32⟩
  | 26 => ⟨S2097152x10, .f32⟩
  | 27 => ⟨S2097152x10, .f32⟩
  | 28 => ⟨S2097152x10, .f32⟩
  | 29 => ⟨S2097152x10, .i1⟩
  | 30 => ⟨S2097152x10, .f32⟩
  | 31 => ⟨S2097152x10, .f32⟩
  | 32 => ⟨S2097152x10, .f32⟩
  | 33 => ⟨S2097152x10, .f32⟩
  | 34 => ⟨S2097152x10, .f32⟩
  | 35 => ⟨S2097152x10, .f32⟩
  | 36 => ⟨S2097152x10, .f32⟩
  | 37 => ⟨S2097152x10, .f32⟩
  | 38 => ⟨S_, .f32⟩
  | 39 => ⟨S2097152x10, .f32⟩
  | 40 => ⟨S2097152x10, .f32⟩
  | 41 => ⟨S2097152x1, .f32⟩
  | 42 => ⟨S2097152, .f32⟩
  | 43 => ⟨S2097152x1, .f32⟩
  | 44 => ⟨S2097152, .f32⟩
  | 45 => ⟨S2097152x1, .f32⟩
  | 46 => ⟨S2097152, .f32⟩
  | 47 => ⟨S2097152x1, .f32⟩
  | 48 => ⟨S2097152, .f32⟩
  | 49 => ⟨S2097152x1, .f32⟩
  | 50 => ⟨S2097152, .f32⟩
  | 51 => ⟨S2097152x1, .f32⟩
  | 52 => ⟨S2097152, .f32⟩
  | 53 => ⟨S2097152x1, .f32⟩
  | 54 => ⟨S2097152, .f32⟩
  | 55 => ⟨S2097152x1, .f32⟩
  | 56 => ⟨S2097152, .f32⟩
  | 57 => ⟨S2097152x1, .f32⟩
  | 58 => ⟨S2097152, .f32⟩
  | 59 => ⟨S_, .f32⟩
  | 60 => ⟨S2097152, .f32⟩
  | 61 => ⟨S2097152, .f32⟩
  | 62 => ⟨S2097152x1, .f32⟩
  | 63 => ⟨S2097152, .f32⟩
  | 64 => ⟨S_, .f32⟩
  | 65 => ⟨S2097152, .f32⟩
  | 66 => ⟨S2097152, .f32⟩
  | 67 => ⟨S2097152, .f32⟩
  | 68 => ⟨S2097152, .f32⟩
  | 69 => ⟨S2097152, .f32⟩
  | 70 => ⟨S2097152, .f32⟩
  | 71 => ⟨S2097152, .f32⟩
  | 72 => ⟨S2097152, .f32⟩
  | 73 => ⟨S2097152, .f32⟩
  | 74 => ⟨S2097152, .f32⟩
  | 75 => ⟨S_, .f32⟩
  | 76 => ⟨S2097152, .f32⟩
  | 77 => ⟨S2097152, .f32⟩
  | 78 => ⟨S_, .f32⟩
  | 79 => ⟨S2097152, .f32⟩
  | 80 => ⟨S2097152, .f32⟩
  | 81 => ⟨S2097152, .f32⟩
  | 82 => ⟨S_, .f32⟩
  | 83 => ⟨S2097152, .f32⟩
  | 84 => ⟨S2097152, .f32⟩
  | 85 => ⟨S_, .f32⟩
  | 86 => ⟨S2097152, .f32⟩
  | 87 => ⟨S2097152, .f32⟩
  | 88 => ⟨S2097152, .f32⟩
  | 89 => ⟨S2097152x1, .f32⟩
  | 90 => ⟨S2097152x1, .f32⟩
  | 91 => ⟨S2097152x1, .f32⟩
  | 92 => ⟨S2097152x1, .f32⟩
  | 93 => ⟨S2097152x1, .f32⟩
  | 94 => ⟨S2097152x1, .f32⟩
  | 95 => ⟨S2097152x6, .f32⟩
  | 96 => ⟨S2097152x1, .f32⟩
  | 97 => ⟨S2097152x1, .f32⟩
  | 98 => ⟨S2097152x1, .f32⟩
  | 99 => ⟨S2097152x1, .f32⟩
  | 100 => ⟨S2097152x1, .f32⟩
  | 101 => ⟨S2097152x1, .f32⟩
  | 102 => ⟨S2097152x6, .f32⟩
  | 103 => ⟨S2097152x1, .f32⟩
  | 104 => ⟨S2097152, .f32⟩
  | 105 => ⟨S2097152x5, .f32⟩
  | 106 => ⟨S2097152x5, .f32⟩
  | 107 => ⟨S2097152x5, .f32⟩
  | 108 => ⟨S2097152x5, .f32⟩
  | 109 => ⟨S2097152x1, .f32⟩
  | 110 => ⟨S2097152, .f32⟩
  | 111 => ⟨S_, .f32⟩
  | 112 => ⟨S2097152, .f32⟩
  | 113 => ⟨S2097152, .f32⟩
  | 114 => ⟨S2097152x1, .f32⟩
  | 115 => ⟨S2097152, .f32⟩
  | 116 => ⟨S_, .f32⟩
  | 117 => ⟨S2097152, .f32⟩
  | 118 => ⟨S2097152, .f32⟩
  | 119 => ⟨S2097152, .f32⟩
  | 120 => ⟨S2097152, .f32⟩
  | 121 => ⟨S2097152x1, .f32⟩
  | 122 => ⟨S2097152x5, .f32⟩
  | 123 => ⟨S2097152x5, .i1⟩
  | 124 => ⟨S2097152x5, .f32⟩
  | 125 => ⟨S2097152x5, .i1⟩
  | 126 => ⟨S2097152x5, .i1⟩
  | 127 => ⟨S2097152x5, .f32⟩
  | _ => ⟨S2097152x3, .f32⟩

abbrev hbmTy0_1 (i : Nat) : BufTy := match i % 128 with
  | 0 => ⟨S2097152x5, .f32⟩
  | 1 => ⟨S2097152x5, .f32⟩
  | 2 => ⟨S2097152x5, .f32⟩
  | 3 => ⟨S2097152x5, .f32⟩
  | 4 => ⟨S2097152x5, .f32⟩
  | 5 => ⟨S2097152x5, .f32⟩
  | 6 => ⟨S_, .f32⟩
  | 7 => ⟨S_, .f32⟩
  | 8 => ⟨S2097152x5, .f32⟩
  | 9 => ⟨S2097152x5, .f32⟩
  | 10 => ⟨S_, .f32⟩
  | 11 => ⟨S2097152, .f32⟩
  | 12 => ⟨S2097152x2, .f32⟩
  | 13 => ⟨S2097152x1, .f32⟩
  | 14 => ⟨S2097152x3, .f32⟩
  | _ => ⟨S2097152x3, .f32⟩

abbrev hbmTy (i : Nat) : BufTy := match i / 128 with
  | 0 => hbmTy0_0 i
  | 1 => hbmTy0_1 i
  | _ => ⟨S2097152x3, .f32⟩

abbrev bufTy : (tb : Table) → Fin (tcTables nBuf tb) → BufTy
  | .hbm, ⟨i, _⟩ => hbmTy i
  | _, _ => ⟨S2097152x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_call0_cst : Ref sig .tc := ⟨.hbm, 17, rfl⟩
abbrev main_call0_v0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call1_cst : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_call1_v5 : Ref sig .tc := ⟨.hbm, 30, rfl⟩
abbrev main_call1_v6 : Ref sig .tc := ⟨.hbm, 31, rfl⟩
abbrev main_call1_v7 : Ref sig .tc := ⟨.hbm, 32, rfl⟩
abbrev main_call1_v8 : Ref sig .tc := ⟨.hbm, 33, rfl⟩
abbrev main_call1_v9 : Ref sig .tc := ⟨.hbm, 34, rfl⟩
abbrev main_call1_v10 : Ref sig .tc := ⟨.hbm, 35, rfl⟩
abbrev main_call1_v11 : Ref sig .tc := ⟨.hbm, 36, rfl⟩
abbrev main_v15 : Ref sig .tc := ⟨.hbm, 37, rfl⟩
abbrev main_cst : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_0 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_1 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_2 : Ref sig .tc := ⟨.hbm, 75, rfl⟩
abbrev main_v50 : Ref sig .tc := ⟨.hbm, 76, rfl⟩
abbrev main_v51 : Ref sig .tc := ⟨.hbm, 77, rfl⟩
abbrev main_cst_3 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_4 : Ref sig .tc := ⟨.hbm, 82, rfl⟩
abbrev main_v55 : Ref sig .tc := ⟨.hbm, 83, rfl⟩
abbrev main_v56 : Ref sig .tc := ⟨.hbm, 84, rfl⟩
abbrev main_cst_5 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_cst_6 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_cst_7 : Ref sig .tc := ⟨.hbm, 116, rfl⟩
abbrev main_v86 : Ref sig .tc := ⟨.hbm, 117, rfl⟩
abbrev main_v87 : Ref sig .tc := ⟨.hbm, 118, rfl⟩
abbrev main_call2_v0 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_cst_8 : Ref sig .tc := ⟨.hbm, 134, rfl⟩
abbrev main_call3_v0 : Ref sig .tc := ⟨.hbm, 135, rfl⟩
abbrev main_call3_v1 : Ref sig .tc := ⟨.hbm, 136, rfl⟩
abbrev main_v102 : Ref sig .tc := ⟨.hbm, 137, rfl⟩
abbrev main_cst_9 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩

abbrev nD : Nat := 1
abbrev τ : Topo := Topo.v7x

variable {F : FTy → Type} [FloatOps F]

class Facts₀ : Prop where
  bcast_S3_S1x3_1 : S3.BroadcastsInDim S1x3 (![1] : Fin 1 → Fin S1x3.rank)
  bcast_S1x3_S2097152x3_0_1 : S1x3.BroadcastsInDim S2097152x3 (![0, 1] : Fin 2 → Fin S2097152x3.rank)
  slices_S2097152x3_S2097152x2_0_0 : S2097152x3.Slices ![0, 0] S2097152x2
  concatenates_S2097152x2_S2097152x16_S2097152x18_d1 : Shape.Concatenates [S2097152x2, S2097152x16] S2097152x18 1
  bcast_S64_S1x64_1 : S64.BroadcastsInDim S1x64 (![1] : Fin 1 → Fin S1x64.rank)
  bcast_S1x64_S2097152x64_0_1 : S1x64.BroadcastsInDim S2097152x64 (![0, 1] : Fin 2 → Fin S2097152x64.rank)
  bcast_S_S2097152x64 : S_.BroadcastsInDim S2097152x64 (![] : Fin 0 → Fin S2097152x64.rank)
  bcast_S10_S1x10_1 : S10.BroadcastsInDim S1x10 (![1] : Fin 1 → Fin S1x10.rank)
  bcast_S1x10_S2097152x10_0_1 : S1x10.BroadcastsInDim S2097152x10 (![0, 1] : Fin 2 → Fin S2097152x10.rank)
  bcast_S_S2097152x10 : S_.BroadcastsInDim S2097152x10 (![] : Fin 0 → Fin S2097152x10.rank)
  slices_S2097152x10_S2097152x1_0_0 : S2097152x10.Slices ![0, 0] S2097152x1
  shapeCasts_S2097152x1_S2097152 : S2097152x1.ShapeCasts S2097152
  slices_S2097152x10_S2097152x1_0_1 : S2097152x10.Slices ![0, 1] S2097152x1
  slices_S2097152x10_S2097152x1_0_2 : S2097152x10.Slices ![0, 2] S2097152x1
  slices_S2097152x10_S2097152x1_0_3 : S2097152x10.Slices ![0, 3] S2097152x1
  slices_S2097152x10_S2097152x1_0_4 : S2097152x10.Slices ![0, 4] S2097152x1
  slices_S2097152x10_S2097152x1_0_5 : S2097152x10.Slices ![0, 5] S2097152x1
  slices_S2097152x10_S2097152x1_0_6 : S2097152x10.Slices ![0, 6] S2097152x1
  slices_S2097152x10_S2097152x1_0_7 : S2097152x10.Slices ![0, 7] S2097152x1
  slices_S2097152x10_S2097152x1_0_8 : S2097152x10.Slices ![0, 8] S2097152x1
  bcast_S_S2097152 : S_.BroadcastsInDim S2097152 (![] : Fin 0 → Fin S2097152.rank)
  slices_S2097152x10_S2097152x1_0_9 : S2097152x10.Slices ![0, 9] S2097152x1
  bcast_S2097152_S2097152x1_0 : S2097152.BroadcastsInDim S2097152x1 (![0] : Fin 1 → Fin S2097152x1.rank)
  concatenates_S2097152x1_S2097152x1_S2097152x1_S2097152x1_S2097152x1_S2097152x1_S2097152x6_d1 : Shape.Concatenates [S2097152x1, S2097152x1, S2097152x1, S2097152x1, S2097152x1, S2097152x1] S2097152x6 1
  slices_S2097152x3_S2097152x1_0_2 : S2097152x3.Slices ![0, 2] S2097152x1
  slices_S2097152x6_S2097152x5_0_0 : S2097152x6.Slices ![0, 0] S2097152x5
  slices_S2097152x6_S2097152x5_0_1 : S2097152x6.Slices ![0, 1] S2097152x5
  slices_S2097152x5_S2097152x1_0_0 : S2097152x5.Slices ![0, 0] S2097152x1
  slices_S2097152x5_S2097152x1_0_4 : S2097152x5.Slices ![0, 4] S2097152x1
  bcast_S2097152x1_S2097152x5_0_1 : S2097152x1.BroadcastsInDim S2097152x5 (![0, 1] : Fin 2 → Fin S2097152x5.rank)
  bcast_S_S2097152x5 : S_.BroadcastsInDim S2097152x5 (![] : Fin 0 → Fin S2097152x5.rank)
  reducesTo_S2097152x5_S2097152_d1 : S2097152x5.ReducesTo [1] S2097152
  h_S_ : 0 < S_.numel
  concatenates_S2097152x2_S2097152x1_S2097152x3_d1 : Shape.Concatenates [S2097152x2, S2097152x1] S2097152x3 1
  dot_S2097152x18_S18x64_S2097152x64_1_0_0_1_n_n_wf : DotDims.WF S2097152x18 S18x64 S2097152x64 [1] [0] [0] [1] [] []
  dot_S2097152x64_S64x10_S2097152x10_1_0_0_1_n_n_wf : DotDims.WF S2097152x64 S64x10 S2097152x10 [1] [0] [0] [1] [] []

variable [Facts₀]

def dot_S2097152x18_S18x64_S2097152x64_1_0_0_1_n_n : DotDims S2097152x18 S18x64 S2097152x64 where
  lhsContracting := [1]
  rhsContracting := [0]
  lhsNonContracting := [0]
  rhsNonContracting := [1]
  lhsBatch := []
  rhsBatch := []
  wf := dot_S2097152x18_S18x64_S2097152x64_1_0_0_1_n_n_wf
def dot_S2097152x64_S64x10_S2097152x10_1_0_0_1_n_n : DotDims S2097152x64 S64x10 S2097152x10 where
  lhsContracting := [1]
  rhsContracting := [0]
  lhsNonContracting := [0]
  rhsNonContracting := [1]
  lhsBatch := []
  rhsBatch := []
  wf := dot_S2097152x64_S64x10_S2097152x10_1_0_0_1_n_n_wf

class Facts : Prop extends Facts₀ where

variable [Facts]
-- ==== Proof.Spline.lean ====
/-
  One row of the map both programs compute, on the extended reals.

  A row has three channels x₀ x₁ x₂ and sixteen time features. The first two channels pass through, each times its
  mask entry. The third is sent through a piecewise-linear monotone spline whose six knots are built from ten
  positive parameters; the parameters come from a two-layer perceptron (18 → 64 → 10, a rectifier after the first
  layer, a softplus plus a small constant after the second) applied to tanh x₀, tanh x₁ and the time features.
  The query x₂ is first clamped between 0.99 times the outermost knots; the result is the sum over the five bins of
  the bin's chord evaluated at the query, each term kept only when the query lies in that bin.

  Everything is stated over the extended reals with the float literals kept as the words both programs carry, so that
  no literal is ever evaluated except the zero word.
-/
import Idealize.ShloMosaic.PureOps.Ideal
import Idealize.ShloMosaic.PureOps.Ideal.Laws
import Idealize.ShloMosaic.Lib.ValueIdx

noncomputable section

open scoped BigOperators
open Idealize.ShloMosaic Idealize.ShloMosaic.ValueIdx

namespace Cert.Spline

/-- The zero word. -/
abbrev zero : EReal := Ideal.ofBits .f32 0x00000000#32
/-- The small constant added to the softplus, the f32 nearest 1e-4. -/
abbrev eps : EReal := Ideal.ofBits .f32 0x38D1B717#32
/-- Two. -/
abbrev two : EReal := Ideal.ofBits .f32 0x40000000#32
/-- The width of the two outer bins, ten thousand. -/
abbrev big : EReal := Ideal.ofBits .f32 0x461C4000#32
/-- The factor that pulls the clamp inside the outermost knots, the f32 nearest 0.99. -/
abbrev shrink : EReal := Ideal.ofBits .f32 0x3F7D70A4#32

/-- The softplus as both programs spell it once the test for an undefined difference is decided: the larger of the
    argument and zero, plus log (1 + exp (−|s − 0|)). -/
def softplus (s : EReal) : EReal :=
  max s zero + Ideal.log1p (Ideal.exp (-(max (s - zero) (-(s - zero)))))

/-- The six abscissae of the knots from the ten parameters: two steps to the left of the origin, two to the right, and
    one outer knot further out on each side. -/
def knotX (d : Fin 10 → EReal) : Fin 6 → EReal :=
  ![(-(d 1) - d 0) - big, -(d 1) - d 0, -(d 1), d 2, d 2 + d 3, (d 2 + d 3) + big]

/-- The six ordinates: the same steps with the y parameters, the outer knots continued with the slopes 2·d₈ and 2·d₉. -/
def knotY (d : Fin 10 → EReal) : Fin 6 → EReal :=
  ![(-(d 5) - d 4) - (d 8 * two) * big, -(d 5) - d 4, -(d 5), d 6, d 6 + d 7, (d 6 + d 7) + (d 9 * two) * big]

/-- The query clamped between 0.99 times the first and the last abscissa. -/
def clampQ (X : Fin 6 → EReal) (q : EReal) : EReal :=
  min (X 5 * shrink) (max (X 0 * shrink) q)

/-- One bin's contribution: the chord through the bin's two knots evaluated at the query if the query lies in the
    half-open bin, else zero. -/
def bin (X Y : Fin 6 → EReal) (q : EReal) (b : Fin 5) : EReal :=
  Scalar.select (IntOp.andi (Ideal.cmp .oge q (X b.castSucc)) (Ideal.cmp .olt q (X b.succ)))
    (Ideal.div (Y b.succ - Y b.castSucc) (X b.succ - X b.castSucc) * (q - X b.castSucc) + Y b.castSucc) zero

/-- The spline's value: zero plus the five bins' contributions. -/
def interp (X Y : Fin 6 → EReal) (q : EReal) : EReal :=
  zero + ∑ b : Fin 5, bin X Y q b

section Row

variable (xr : Fin 3 → EReal) (tr : Fin 16 → EReal) (mk : Fin 3 → EReal)
  (w1 : Fin 18 → Fin 64 → EReal) (c1 : Fin 64 → EReal) (w2 : Fin 64 → Fin 10 → EReal) (c2 : Fin 10 → EReal)

/-- The eighteen inputs of the perceptron: tanh of the two conditioning channels, then the time features. -/
def feat (k : Fin 18) : EReal :=
  if h : k.val < 2 then Ideal.tanh (xr ⟨k.val, by omega⟩) else tr ⟨k.val - 2, by omega⟩

/-- The hidden layer: the rectified affine image of the inputs. -/
def hidden (j : Fin 64) : EReal :=
  max ((∑ k : Fin 18, feat xr tr k * w1 k j) + c1 j) zero

/-- The second layer before its softplus. -/
def pre (i : Fin 10) : EReal :=
  (∑ j : Fin 64, hidden xr tr w1 c1 j * w2 j i) + c2 i

/-- The ten positive parameters of the row's spline. -/
def param (i : Fin 10) : EReal :=
  softplus (pre xr tr w1 c1 w2 c2 i) + eps

/-- The row's transformed third channel. -/
def spline : EReal :=
  interp (knotX (param xr tr w1 c1 w2 c2)) (knotY (param xr tr w1 c1 w2 c2))
    (clampQ (knotX (param xr tr w1 c1 w2 c2)) (xr 2))

/-- The row's three outputs. -/
def rowOut (c : Fin 3) : EReal :=
  if c.val < 2 then xr c * mk c else spline xr tr w1 c1 w2 c2

end Row

/-- The whole result array as a function of the seven argument arrays: row n, channel c is `rowOut` of row n of the
    two per-row arrays and of the weights. -/
def G (x : (⟨2, ![2097152, 3]⟩ : Shape).Idx → EReal) (t : (⟨2, ![2097152, 16]⟩ : Shape).Idx → EReal)
    (mask : (⟨1, ![3]⟩ : Shape).Idx → EReal) (W1 : (⟨2, ![18, 64]⟩ : Shape).Idx → EReal)
    (b1 : (⟨1, ![64]⟩ : Shape).Idx → EReal) (W2 : (⟨2, ![64, 10]⟩ : Shape).Idx → EReal)
    (b2 : (⟨1, ![10]⟩ : Shape).Idx → EReal) : (⟨2, ![2097152, 3]⟩ : Shape).Idx → EReal :=
  fun i => rowOut (fun c => x (ix2 (i 0) c)) (fun k => t (ix2 (i 0) k)) (fun c => mask (ix1 c))
    (fun k j => W1 (ix2 k j)) (fun j => b1 (ix1 j)) (fun j r => W2 (ix2 j r)) (fun r => b2 (ix1 r)) (i 1)

/-- A float compared unequal with itself: never, on the extended reals (either spelling of the test). -/
theorem cmp_one_self (a : EReal) : Ideal.cmp .one a a = 0#1 := by
  simp [Ideal.cmp]
theorem cmp_une_self (a : EReal) : Ideal.cmp .une a a = 0#1 := by
  simp [Ideal.cmp]

/-- Zero minus a value is its negation. -/
theorem zero_sub' (a : EReal) : zero - a = -a := by
  rw [show zero = (0 : EReal) from Ideal.ofBits_zero_f32, zero_sub]

end Cert.Spline

end
-- ==== Proof.LibKeepdims.lean ====
/-
  Column layouts of a keepdims reduction, read at an index: a length-a vector recast as an [a, 1] column, and an [a, 1]
  column broadcast along the rows of an [a, b] array. (The row forms, [a] → [1, a] and [1, b] → [a, b], are the library's.)
-/
import Idealize.ShloMosaic.Lib.Pipeline.Value
import Idealize.ShloMosaic.Lib.ValueIdx

noncomputable section

namespace Idealize.ShloMosaic.Keepdims

open Idealize.ShloMosaic Idealize.ShloMosaic.ValueIdx

variable {α : Type}

/-- An `[a]` array cast to an `[a, 1]` column reads, at `(i, u)`, the operand at `i`, whatever the unit coordinate `u`:
    both positions are the i-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Keepdims

end
-- ==== Proof.LibPlainDot.lean ====
/-
  A plain matrix product read at coordinates.

  `DotDims.plain M K N` are the dimension numbers of an `M×K` by `K×N` product: the left operand is contracted on its
  second axis, the right on its first, no batch axis. At the ideal instance such a product, whether it is the kernel's
  `tpu.matmul` into a zero accumulator or the host's `dot_general`, is at the output index `(r, c)` the sum over
  `k : Fin K` of `A (r, k) * B (k, c)` on the extended reals: the same sum in the same order on both sides, so the two
  agree wherever their operands do.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable (M K N : Nat)

/-- The left operand's index at output index `j` and contraction position `k` is `(j 0, k)`. -/
theorem lhsIdx_eq (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl j _).trans hk

/-- The right operand's index at output index `j` and contraction position `k` is `(k, j 1)`. -/
theorem rhsIdx_eq (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single (cr := 0) rfl j _).trans hk
  | ⟨1, _⟩ => rfl

/-- The kernel's product into a zero accumulator, at an output index: the sum over the shared axis. -/
theorem matmul_zero_apply (prec : Option ContractPrecision) (A : FVec Ideal ⟨2, ![M, K]⟩ .f32) (B : FVec Ideal ⟨2, ![K, N]⟩ .f32)
    (j : (⟨2, ![M, N]⟩ : Shape).Idx) :
    FloatOps.matmul (DotDims.plain M K N) prec A B (constant ⟨2, ![M, N]⟩ .f32 0x00000000#32) j
      = ∑ k : Fin K, A (ix2 (j 0) k) * B (ix2 k (j 1)) := by
  rw [Ideal.matmul_constant_zero_apply, ← Equiv.sum_comp (contrEquiv1 (DotDims.plain M K N) K rfl rfl).symm]
  refine Finset.sum_congr rfl fun k _ => ?_
  rw [lhsIdx_eq, rhsIdx_eq]
  rfl

/-- The host's product, at an output index: the same sum. -/
theorem dotGeneral_apply (prec : Option ContractPrecision) (sched : HostSchedule) (A : FVec Ideal ⟨2, ![M, K]⟩ .f32)
    (B : FVec Ideal ⟨2, ![K, N]⟩ .f32) (j : (⟨2, ![M, N]⟩ : Shape).Idx) :
    FloatOps.dotGeneral (DotDims.plain M K N) prec sched A B j = ∑ k : Fin K, A (ix2 (j 0) k) * B (ix2 k (j 1)) := by
  rw [Ideal.dotGeneral_apply, ← Equiv.sum_comp (contrEquiv1 (DotDims.plain M K N) K rfl rfl).symm]
  refine Finset.sum_congr rfl fun k _ => ?_
  rw [lhsIdx_eq, rhsIdx_eq]
  rfl

end Idealize.ShloMosaic.PlainDot

end
-- ==== Proof.LibPlainDotAny.lean ====
/-
  A plain matrix product read at coordinates, at any two operand formats.

  At the ideal instance every float format is the extended reals, so an `M×K` by `K×N` product whose operands were
  first narrowed to another format (a kernel that feeds its matrix unit bf16) is still, at the output index `(r, c)`, the
  sum over `k : Fin K` of `A (r, k) * B (k, c)`: for the kernel's product into a zero accumulator and for the host's
  `dot_general` alike, over any dimension record equal to `DotDims.plain M K N`.
-/
import proofs.«130953_j79164837200472_1_alg».proof.Proof.LibPlainDot

noncomputable section

open scoped BigOperators

namespace Idealize.ShloMosaic.PlainDot

open Idealize.ShloMosaic Idealize.ShloMosaic.ValueIdx

variable (M K N : Nat)

/-- The kernel's product into a zero accumulator, at an output index, whatever the operands' formats. -/
theorem matmul_zero_apply_any {φ₁ φ₂ : FTy} (prec : Option ContractPrecision) (A : FVec Ideal ⟨2, ![M, K]⟩ φ₁)
    (B : FVec Ideal ⟨2, ![K, N]⟩ φ₂) (j : (⟨2, ![M, N]⟩ : Shape).Idx) :
    FloatOps.matmul (DotDims.plain M K N) prec A B (constant ⟨2, ![M, N]⟩ .f32 0x00000000#32) j
      = ∑ k : Fin K, A (ix2 (j 0) k) * B (ix2 k (j 1)) := by
  rw [Ideal.matmul_constant_zero_apply, ← Equiv.sum_comp (contrEquiv1 (DotDims.plain M K N) K rfl rfl).symm]
  refine Finset.sum_congr rfl fun k _ => ?_
  rw [lhsIdx_eq, rhsIdx_eq]
  rfl

/-- The host's product, at an output index, whatever the operands' formats. -/
theorem dotGeneral_apply_any {φ₁ φ₂ : FTy} (prec : Option ContractPrecision) (sched : HostSchedule)
    (A : FVec Ideal ⟨2, ![M, K]⟩ φ₁) (B : FVec Ideal ⟨2, ![K, N]⟩ φ₂) (j : (⟨2, ![M, N]⟩ : Shape).Idx) :
    FloatOps.dotGeneral (DotDims.plain M K N) prec sched A B j = ∑ k : Fin K, A (ix2 (j 0) k) * B (ix2 k (j 1)) := by
  rw [Ideal.dotGeneral_apply, ← Equiv.sum_comp (contrEquiv1 (DotDims.plain M K N) K rfl rfl).symm]
  refine Finset.sum_congr rfl fun k _ => ?_
  rw [lhsIdx_eq, rhsIdx_eq]
  rfl

end Idealize.ShloMosaic.PlainDot

end
-- ==== Proof.KernelMlp.lean ====
/-
  The kernel's perceptron at one lane: entry (i, l) of the block of ten parameter rows depends only on lane l of the
  two data blocks and on the weights, and is the row map's parameter i.
-/
import proofs.«130953_j79164837200472_1_alg».proof.Proof.Gen.KernelIdeal.Skeleton
import proofs.«130953_j79164837200472_1_alg».proof.Proof.Spline
import proofs.«130953_j79164837200472_1_alg».proof.Proof.LibKeepdims
import proofs.«130953_j79164837200472_1_alg».proof.Proof.LibPlainDotAny
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.ValueIdx Cert.KernelIdeal Cert.KernelIdeal.Gen

namespace Cert.KernelIdeal.Row

/-- The matrix units' dimension records are the plain M×K by K×N ones. -/
theorem mlp_dims1_eq : dot_S64x18_S18x16384_S64x16384_1_0_0_1_n_n = DotDims.plain 64 18 16384 := rfl
theorem mlp_dims2_eq : dot_S10x64_S64x16384_S10x16384_1_0_0_1_n_n = DotDims.plain 10 64 16384 := rfl

/-- Rows 0 and 1 of the three-row block, read at (c, l). -/
theorem mlp_slice_apply (x : FVec Ideal S3x16384 .f32) (c : Fin 2) (l : Fin 16384) :
    extractStridedSlice S2x16384 ![0, 0] x slices_S3x16384_o0_0_S2x16384 (ix2 c l)
      = x (ix2 (⟨c.val, Nat.lt_trans c.isLt (by decide)⟩ : Fin 3) l) :=
  extractStridedSlice_apply ![0, 0] x slices_S3x16384_o0_0_S2x16384 (ix2 c l) (ix2 (⟨c.val, Nat.lt_trans c.isLt (by decide)⟩ : Fin 3) l)
    (fun a => match a with
      | ⟨0, _⟩ => by show c.val = 0 + c.val; omega
      | ⟨1, _⟩ => by show l.val = 0 + l.val; omega)

/-- The two rows stacked on the sixteen, read at a row below two: the first piece. -/
theorem mlp_concat_lo (x₁ : FVec Ideal S2x16384 .f32) (x₂ : FVec Ideal S16x16384 .f32) (k : Fin 18) (hk : k.val < 2) (l : Fin 16384) :
    concatenate S18x16384 0 [⟨S2x16384, x₁⟩, ⟨S16x16384, x₂⟩] concatenates_S2x16384_S16x16384_S18x16384_d0 (ix2 k l)
      = x₁ (ix2 (⟨k.val, hk⟩ : Fin 2) l) :=
  concatenate_pair_apply_left (t := S18x16384) (s₁ := S2x16384) (s₂ := S16x16384) (0 : Fin 2) x₁ x₂
    concatenates_S2x16384_S16x16384_S18x16384_d0 (ix2 k l) rfl (ix2 (⟨k.val, hk⟩ : Fin 2) l)
    (fun b => match b with
      | ⟨0, _⟩ => rfl
      | ⟨1, _⟩ => rfl)

/-- The same read at a row from two on: the second piece, two rows up. -/
theorem mlp_concat_hi (x₁ : FVec Ideal S2x16384 .f32) (x₂ : FVec Ideal S16x16384 .f32) (k : Fin 18) (hk : ¬ k.val < 2) (l : Fin 16384) :
    concatenate S18x16384 0 [⟨S2x16384, x₁⟩, ⟨S16x16384, x₂⟩] concatenates_S2x16384_S16x16384_S18x16384_d0 (ix2 k l)
      = x₂ (ix2 (⟨k.val - 2, by have := k.isLt; omega⟩ : Fin 16) l) :=
  concatenate_pair_apply_right (t := S18x16384) (s₁ := S2x16384) (s₂ := S16x16384) (0 : Fin 2) x₁ x₂
    concatenates_S2x16384_S16x16384_S18x16384_d0 (ix2 k l) rfl rfl (ix2 (⟨k.val - 2, by have := k.isLt; omega⟩ : Fin 16) l)
    (fun b hb => match b, hb with
      | ⟨0, _⟩, hb => absurd rfl hb
      | ⟨1, _⟩, _ => rfl)
    (by show (k.val - 2) + 2 = k.val; omega)

/-- The eighteen feature rows: tanh of the first two channel rows stacked on the sixteen time rows. -/
def mlpFeat (v0 : Vec Ideal S3x16384 .f32) (v2 : Vec Ideal S16x16384 .f32) : FVec Ideal S18x16384 .f32 :=
  concatenate S18x16384 0
    [⟨S2x16384, tanh (extractStridedSlice S2x16384 ![0, 0] (k0_pay2 v0) slices_S3x16384_o0_0_S2x16384)⟩,
     ⟨S16x16384, shapeCast S16x16384 v2 shapeCasts_S16x16384_S16x16384⟩]
    concatenates_S2x16384_S16x16384_S18x16384_d0

/-- Feature row k at lane l is the row map's input k of that lane. -/
theorem mlpFeat_apply (v0 : Vec Ideal S3x16384 .f32) (v2 : Vec Ideal S16x16384 .f32) (k : Fin 18) (l : Fin 16384) :
    mlpFeat v0 v2 (ix2 k l) = Cert.Spline.feat (fun c => v0 (ix2 c l)) (fun k => v2 (ix2 k l)) k := by
  unfold mlpFeat Cert.Spline.feat
  by_cases hk : k.val < 2
  · rw [dif_pos hk, mlp_concat_lo _ _ k hk l]
    show FloatOps.tanh (extractStridedSlice S2x16384 ![0, 0] (k0_pay2 v0) slices_S3x16384_o0_0_S2x16384 (ix2 (⟨k.val, hk⟩ : Fin 2) l)) = _
    rw [Ideal.tanh_def, mlp_slice_apply]
    unfold k0_pay2
    rw [shapeCast_self]
  · rw [dif_neg hk, mlp_concat_hi _ _ k hk l, shapeCast_self]

/-- The first layer's product read at (j, l): the sum over the eighteen features of weight times feature. -/
theorem mlp_mm1_apply (W : FVec Ideal S64x18 .bf16) (z : FVec Ideal S18x16384 .bf16) (j : Fin 64) (l : Fin 16384) :
    matmul dot_S64x18_S18x16384_S64x16384_1_0_0_1_n_n none W z (constant S64x16384 .f32 0x00000000#32) (ix2 j l)
      = ∑ k : Fin 18, W (ix2 j k) * z (ix2 k l) := by
  rw [mlp_dims1_eq]
  exact PlainDot.matmul_zero_apply_any 64 18 16384 none W z (ix2 j l)

/-- A length-64 bias recast as a column and spread along the lanes, read at (j, l). -/
theorem mlp_bias1_apply (b : FVec Ideal S64 .f32) (j : Fin 64) (l : Fin 16384) :
    broadcastTo S64x16384 (shapeCast S64x1 b shapeCasts_S64_S64x1) broadcasts_S64x1_S64x16384 (ix2 j l) = b (ix1 j) := by
  rw [Keepdims.broadcastTo_a1_ab_apply, Keepdims.shapeCast_a_a1_apply]

/-- The hidden block: the rectified affine image of the feature block. -/
def mlpHidden (v0 : Vec Ideal S3x16384 .f32) (v2 : Vec Ideal S16x16384 .f32) (v5 : Vec Ideal S64x18 .f32)
    (v7 : Vec Ideal S64 .f32) : FVec Ideal S64x16384 .f32 :=
  maximumf
    (addf
      (matmul dot_S64x18_S18x16384_S64x16384_1_0_0_1_n_n none
        (truncf .bf16 (shapeCast S64x18 v5 shapeCasts_S64x18_S64x18) bitsLt_bf16_f32)
        (truncf .bf16 (mlpFeat v0 v2) bitsLt_bf16_f32)
        (constant S64x16384 .f32 0x00000000#32))
      (broadcastTo S64x16384 (shapeCast S64x1 v7 shapeCasts_S64_S64x1) broadcasts_S64x1_S64x16384))
    (broadcast S64x16384 (Scalar.ofBits .f32 0x00000000#32))

/-- Hidden row j at lane l is the row map's hidden unit j of that lane. -/
theorem mlpHidden_apply (v0 : Vec Ideal S3x16384 .f32) (v2 : Vec Ideal S16x16384 .f32) (v5 : Vec Ideal S64x18 .f32)
    (v7 : Vec Ideal S64 .f32) (j : Fin 64) (l : Fin 16384) :
    mlpHidden v0 v2 v5 v7 (ix2 j l)
      = Cert.Spline.hidden (fun c => v0 (ix2 c l)) (fun k => v2 (ix2 k l)) (fun k j => v5 (ix2 j k)) (fun j => v7 (ix1 j)) j := by
  unfold mlpHidden Cert.Spline.hidden
  rw [maximumf_apply, addf_apply, mlp_mm1_apply, mlp_bias1_apply, broadcast_apply]
  refine congrArg₂ max (congrArg₂ (· + ·) (Finset.sum_congr rfl fun k _ => ?_) rfl) rfl
  rw [truncf_apply, truncf_apply, shapeCast_self, mlpFeat_apply, mul_comm]

/-- The second layer's product read at (i, l): the sum over the sixty-four hidden units of weight times unit. -/
theorem mlp_mm2_apply (W : FVec Ideal S10x64 .bf16) (h : FVec Ideal S64x16384 .bf16) (i : Fin 10) (l : Fin 16384) :
    matmul dot_S10x64_S64x16384_S10x16384_1_0_0_1_n_n none W h (constant S10x16384 .f32 0x00000000#32) (ix2 i l)
      = ∑ j : Fin 64, W (ix2 i j) * h (ix2 j l) := by
  rw [mlp_dims2_eq]
  exact PlainDot.matmul_zero_apply_any 10 64 16384 none W h (ix2 i l)

/-- A length-10 bias recast as a column and spread along the lanes, read at (i, l). -/
theorem mlp_bias2_apply (b : FVec Ideal S10 .f32) (i : Fin 10) (l : Fin 16384) :
    broadcastTo S10x16384 (shapeCast S10x1 b shapeCasts_S10_S10x1) broadcasts_S10x1_S10x16384 (ix2 i l) = b (ix1 i) := by
  rw [Keepdims.broadcastTo_a1_ab_apply, Keepdims.shapeCast_a_a1_apply]

/-- The second layer's block before its softplus. -/
def mlpPre (v0 : Vec Ideal S3x16384 .f32) (v2 : Vec Ideal S16x16384 .f32) (v5 : Vec Ideal S64x18 .f32)
    (v7 : Vec Ideal S64 .f32) (v8 : Vec Ideal S10x64 .f32) (v10 : Vec Ideal S10 .f32) : FVec Ideal S10x16384 .f32 :=
  addf
    (matmul dot_S10x64_S64x16384_S10x16384_1_0_0_1_n_n none
      (truncf .bf16 (shapeCast S10x64 v8 shapeCasts_S10x64_S10x64) bitsLt_bf16_f32)
      (truncf .bf16 (mlpHidden v0 v2 v5 v7) bitsLt_bf16_f32)
      (constant S10x16384 .f32 0x00000000#32))
    (broadcastTo S10x16384 (shapeCast S10x1 v10 shapeCasts_S10_S10x1) broadcasts_S10x1_S10x16384)

/-- Row i at lane l of that block is the row map's pre-activation i of that lane. -/
theorem mlpPre_apply (v0 : Vec Ideal S3x16384 .f32) (v2 : Vec Ideal S16x16384 .f32) (v5 : Vec Ideal S64x18 .f32)
    (v7 : Vec Ideal S64 .f32) (v8 : Vec Ideal S10x64 .f32) (v10 : Vec Ideal S10 .f32) (i : Fin 10) (l : Fin 16384) :
    mlpPre v0 v2 v5 v7 v8 v10 (ix2 i l)
      = Cert.Spline.pre (fun c => v0 (ix2 c l)) (fun k => v2 (ix2 k l)) (fun k j => v5 (ix2 j k)) (fun j => v7 (ix1 j))
          (fun j r => v8 (ix2 r j)) (fun r => v10 (ix1 r)) i := by
  unfold mlpPre Cert.Spline.pre
  rw [addf_apply, mlp_mm2_apply, mlp_bias2_apply]
  refine congrArg₂ (· + ·) (Finset.sum_congr rfl fun j _ => ?_) rfl
  rw [truncf_apply, truncf_apply, shapeCast_self, mlpHidden_apply, mul_comm]

/-- The softplus as the body spells it, on a whole block. -/
def mlpSoftplus (s : FVec Ideal S10x16384 .f32) : FVec Ideal S10x16384 .f32 :=
  select (cmpf .one (subf s (broadcast S10x16384 (Scalar.ofBits .f32 0x00000000#32)))
                    (subf s (broadcast S10x16384 (Scalar.ofBits .f32 0x00000000#32))))
    (addf s (broadcast S10x16384 (Scalar.ofBits .f32 0x00000000#32)))
    (addf (maximumf s (broadcast S10x16384 (Scalar.ofBits .f32 0x00000000#32)))
      (log1p (exp (subf (broadcast S10x16384 (Scalar.ofBits .f32 0x00000000#32))
        (absf (subf s (broadcast S10x16384 (Scalar.ofBits .f32 0x00000000#32))))))))

/-- The body's select is the row map's softplus: a value is never unequal to itself, so the second arm is taken. -/
theorem mlpSoftplus_apply (s : FVec Ideal S10x16384 .f32) (i : Fin 10) (l : Fin 16384) :
    mlpSoftplus s (ix2 i l) = Cert.Spline.softplus (s (ix2 i l)) := by
  unfold mlpSoftplus Cert.Spline.softplus
  rw [select_apply, cmpf_apply, Ideal.cmpf_def, Cert.Spline.cmp_one_self, select_zero, addf_apply, maximumf_apply,
    broadcast_apply]
  refine congrArg₂ (· + ·) rfl ?_
  show Ideal.log1p (Ideal.exp (Cert.Spline.zero - max (s (ix2 i l) - Cert.Spline.zero) (-(s (ix2 i l) - Cert.Spline.zero)))) = _
  rw [Cert.Spline.zero_sub']

/-- The body's select payload is the softplus of the second layer's block. -/
theorem mlp_k0_pay3_eq (v0 : Vec Ideal S3x16384 .f32) (v2 : Vec Ideal S16x16384 .f32) (v5 : Vec Ideal S64x18 .f32)
    (v7 : Vec Ideal S64 .f32) (v8 : Vec Ideal S10x64 .f32) (v10 : Vec Ideal S10 .f32) :
    k0_pay3 (F := Ideal) v0 v2 v5 v7 v8 v10 = mlpSoftplus (mlpPre v0 v2 v5 v7 v8 v10) := rfl

/-- Parameter row i at lane l of the body's parameter block (the second layer's softplus plus the small constant) is
    the row map's parameter i of lane l's three channels and sixteen time features, the weights read transposed as the
    kernel holds them. -/
theorem param_apply (v0 : Vec Ideal S3x16384 .f32) (v2 : Vec Ideal S16x16384 .f32) (v5 : Vec Ideal S64x18 .f32)
    (v7 : Vec Ideal S64 .f32) (v8 : Vec Ideal S10x64 .f32) (v10 : Vec Ideal S10 .f32) (i : Fin 10) (l : Fin 16384) :
    k0_pay4 (F := Ideal) (k0_pay3 v0 v2 v5 v7 v8 v10) (Scalar.ofBits .f32 0x38D1B717#32) (ix2 i l)
      = Cert.Spline.param (fun c => v0 (ix2 c l)) (fun k => v2 (ix2 k l)) (fun k j => v5 (ix2 j k)) (fun j => v7 (ix1 j))
          (fun j r => v8 (ix2 r j)) (fun r => v10 (ix1 r)) i := by
  unfold k0_pay4 Cert.Spline.param
  rw [addf_apply, broadcast_apply, mlp_k0_pay3_eq, mlpSoftplus_apply, mlpPre_apply]
  rfl

end Cert.KernelIdeal.Row

end
-- ==== Proof.KernelSpline.lean ====
/-
  The kernel's spline at one lane, over any block of parameter rows: the stored block's entry (c, l) is the masked
  channel for c < 2 and, for c = 2, the interpolation over the six knots built from lane l of the parameter rows.
-/
import proofs.«130953_j79164837200472_1_alg».proof.Proof.Gen.KernelIdeal.Skeleton
import proofs.«130953_j79164837200472_1_alg».proof.Proof.Spline
import proofs.«130953_j79164837200472_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.ValueIdx Cert.KernelIdeal Cert.KernelIdeal.Gen

namespace Cert.KernelIdeal.Row

/-- The parameter rows after the small constant is added, read at lane l. -/
abbrev lane (P : FVec Ideal S10x16384 .f32) (e : Ideal .f32) (l : Fin 16384) : Fin 10 → EReal :=
  fun i => k0_pay4 (F := Ideal) P e (ix2 i l)

section Layout
variable {α : Type}

/-- A block of m rows cut at row offset o from an array of n rows of 16384 lanes reads, at (b, l), the array at
    (o + b, l). -/
theorem slice_rows {n m : Nat} (o : Nat) (x : (⟨2, ![n, 16384]⟩ : Shape).Idx → α)
    (h : (⟨2, ![n, 16384]⟩ : Shape).Slices ![o, 0] ⟨2, ![m, 16384]⟩) (b : Fin m) (l : Fin 16384) (hb : o + b.val < n) :
    extractStridedSlice ⟨2, ![m, 16384]⟩ ![o, 0] x h (ix2 b l) = x (ix2 ⟨o + b.val, hb⟩ l) := by
  refine extractStridedSlice_apply _ x h _ _ fun a => ?_
  match a with
  | ⟨0, _⟩ => rfl
  | ⟨1, _⟩ => show l.val = 0 + l.val; omega

end Layout

section Concat
variable {α : Type}

/-- Six one-row pieces stacked along the rows read, at (b, l), piece b at (0, l). -/
theorem concat6_apply (x0 x1 x2 x3 x4 x5 : S1x16384.Idx → α)
    (h : Shape.Concatenates ([(⟨S1x16384, x0⟩ : (s : Shape) × (s.Idx → α)), ⟨S1x16384, x1⟩, ⟨S1x16384, x2⟩,
      ⟨S1x16384, x3⟩, ⟨S1x16384, x4⟩, ⟨S1x16384, x5⟩].map (·.1)) S6x16384 0) (b : Fin 6) (l : Fin 16384) :
    concatenate S6x16384 0 [⟨S1x16384, x0⟩, ⟨S1x16384, x1⟩, ⟨S1x16384, x2⟩, ⟨S1x16384, x3⟩, ⟨S1x16384, x4⟩,
      ⟨S1x16384, x5⟩] h (ix2 b l) = ![x0, x1, x2, x3, x4, x5] b (ix2 (0 : Fin 1) l) := by
  have hi : ∀ (j : S6x16384.Idx) (a : Fin S1x16384.rank), a.cast (rfl : S1x16384.rank = S6x16384.rank) ≠ (0 : Fin 2) →
      ((ix2 (0 : Fin 1) l : S1x16384.Idx) a).val = ((ix2 (j 0) l : S6x16384.Idx) (a.cast rfl)).val := fun j a ha => by
    match a with
    | ⟨0, _⟩ => exact absurd rfl ha
    | ⟨1, _⟩ => rfl
  match b with
  | ⟨0, hb⟩ =>
    refine concatenate_apply_piece (0 : Fin 2) _ h (ix2 ⟨0, hb⟩ l) 0 ?_ S1x16384 x0 ?_ rfl 0 ?_ (ix2 (0 : Fin 1) l) ?_ ?_
    · show (0 : ℕ) < 6; decide
    · rfl
    · rfl
    · exact hi (ix2 ⟨0, hb⟩ l)
    · rfl
  | ⟨1, hb⟩ =>
    refine concatenate_apply_piece (0 : Fin 2) _ h (ix2 ⟨1, hb⟩ l) 1 ?_ S1x16384 x1 ?_ rfl 1 ?_ (ix2 (0 : Fin 1) l) ?_ ?_
    · show (1 : ℕ) < 6; decide
    · rfl
    · rfl
    · exact hi (ix2 ⟨1, hb⟩ l)
    · rfl
  | ⟨2, hb⟩ =>
    refine concatenate_apply_piece (0 : Fin 2) _ h (ix2 ⟨2, hb⟩ l) 2 ?_ S1x16384 x2 ?_ rfl 2 ?_ (ix2 (0 : Fin 1) l) ?_ ?_
    · show (2 : ℕ) < 6; decide
    · rfl
    · rfl
    · exact hi (ix2 ⟨2, hb⟩ l)
    · rfl
  | ⟨3, hb⟩ =>
    refine concatenate_apply_piece (0 : Fin 2) _ h (ix2 ⟨3, hb⟩ l) 3 ?_ S1x16384 x3 ?_ rfl 3 ?_ (ix2 (0 : Fin 1) l) ?_ ?_
    · show (3 : ℕ) < 6; decide
    · rfl
    · rfl
    · exact hi (ix2 ⟨3, hb⟩ l)
    · rfl
  | ⟨4, hb⟩ =>
    refine concatenate_apply_piece (0 : Fin 2) _ h (ix2 ⟨4, hb⟩ l) 4 ?_ S1x16384 x4 ?_ rfl 4 ?_ (ix2 (0 : Fin 1) l) ?_ ?_
    · show (4 : ℕ) < 6; decide
    · rfl
    · rfl
    · exact hi (ix2 ⟨4, hb⟩ l)
    · rfl
  | ⟨5, hb⟩ =>
    refine concatenate_apply_piece (0 : Fin 2) _ h (ix2 ⟨5, hb⟩ l) 5 ?_ S1x16384 x5 ?_ rfl 5 ?_ (ix2 (0 : Fin 1) l) ?_ ?_
    · show (5 : ℕ) < 6; decide
    · rfl
    · rfl
    · exact hi (ix2 ⟨5, hb⟩ l)
    · rfl

end Concat

/-- The six abscissae the kernel stacks are the knots' abscissae built from lane l of the parameter rows. -/
theorem pay5_apply (P : FVec Ideal S10x16384 .f32) (e : Ideal .f32) (b : Fin 6) (l : Fin 16384) :
    k0_pay5 (F := Ideal) P e (ix2 b l) = Cert.Spline.knotX (lane P e l) b := by
  unfold k0_pay5
  rw [concat6_apply]
  have r0 := slice_rows 0 (k0_pay4 (F := Ideal) P e) slices_S10x16384_o0_0_S1x16384 (0 : Fin 1) l (by decide)
  have r1 := slice_rows 1 (k0_pay4 (F := Ideal) P e) slices_S10x16384_o1_0_S1x16384 (0 : Fin 1) l (by decide)
  have r2 := slice_rows 2 (k0_pay4 (F := Ideal) P e) slices_S10x16384_o2_0_S1x16384 (0 : Fin 1) l (by decide)
  have r3 := slice_rows 3 (k0_pay4 (F := Ideal) P e) slices_S10x16384_o3_0_S1x16384 (0 : Fin 1) l (by decide)
  match b with
  | ⟨0, _⟩ =>
    show subf _ _ (ix2 0 l) = _
    simp only [subf_apply, broadcast_apply, Ideal.ofBits_def]
    rw [r0, r1, Cert.Spline.zero_sub']
    rfl
  | ⟨1, _⟩ =>
    show subf _ _ (ix2 0 l) = _
    simp only [subf_apply, broadcast_apply, Ideal.ofBits_def]
    rw [r0, r1, Cert.Spline.zero_sub']
    rfl
  | ⟨2, _⟩ =>
    show subf _ _ (ix2 0 l) = _
    simp only [subf_apply, broadcast_apply, Ideal.ofBits_def]
    rw [r1, Cert.Spline.zero_sub']
    rfl
  | ⟨3, _⟩ =>
    exact r2
  | ⟨4, _⟩ =>
    show addf _ _ (ix2 0 l) = _
    simp only [addf_apply]
    rw [r2, r3]
    rfl
  | ⟨5, _⟩ =>
    show addf _ _ (ix2 0 l) = _
    simp only [addf_apply, broadcast_apply, Ideal.ofBits_def]
    rw [r2, r3]
    rfl

/-- The six ordinates the kernel stacks are the knots' ordinates built from lane l of the parameter rows. -/
theorem pay6_apply (P : FVec Ideal S10x16384 .f32) (e : Ideal .f32) (b : Fin 6) (l : Fin 16384) :
    k0_pay6 (F := Ideal) P e (ix2 b l) = Cert.Spline.knotY (lane P e l) b := by
  unfold k0_pay6
  rw [concat6_apply]
  have r4 := slice_rows 4 (k0_pay4 (F := Ideal) P e) slices_S10x16384_o4_0_S1x16384 (0 : Fin 1) l (by decide)
  have r5 := slice_rows 5 (k0_pay4 (F := Ideal) P e) slices_S10x16384_o5_0_S1x16384 (0 : Fin 1) l (by decide)
  have r6 := slice_rows 6 (k0_pay4 (F := Ideal) P e) slices_S10x16384_o6_0_S1x16384 (0 : Fin 1) l (by decide)
  have r7 := slice_rows 7 (k0_pay4 (F := Ideal) P e) slices_S10x16384_o7_0_S1x16384 (0 : Fin 1) l (by decide)
  have r8 := slice_rows 8 (k0_pay4 (F := Ideal) P e) slices_S10x16384_o8_0_S1x16384 (0 : Fin 1) l (by decide)
  have r9 := slice_rows 9 (k0_pay4 (F := Ideal) P e) slices_S10x16384_o9_0_S1x16384 (0 : Fin 1) l (by decide)
  match b with
  | ⟨0, _⟩ =>
    show subf _ _ (ix2 0 l) = _
    simp only [subf_apply, mulf_apply, broadcast_apply, Ideal.ofBits_def]
    rw [r4, r5, r8, Cert.Spline.zero_sub']
    rfl
  | ⟨1, _⟩ =>
    show subf _ _ (ix2 0 l) = _
    simp only [subf_apply, broadcast_apply, Ideal.ofBits_def]
    rw [r4, r5, Cert.Spline.zero_sub']
    rfl
  | ⟨2, _⟩ =>
    show subf _ _ (ix2 0 l) = _
    simp only [subf_apply, broadcast_apply, Ideal.ofBits_def]
    rw [r5, Cert.Spline.zero_sub']
    rfl
  | ⟨3, _⟩ =>
    exact r6
  | ⟨4, _⟩ =>
    show addf _ _ (ix2 0 l) = _
    simp only [addf_apply]
    rw [r6, r7]
    rfl
  | ⟨5, _⟩ =>
    show addf _ _ (ix2 0 l) = _
    simp only [addf_apply, mulf_apply, broadcast_apply, Ideal.ofBits_def]
    rw [r6, r7, r9]
    rfl

/-- Rows 0 to 4 of the stacked abscissae: each bin's left knot. -/
theorem pay7_apply (P : FVec Ideal S10x16384 .f32) (e : Ideal .f32) (b : Fin 5) (l : Fin 16384) :
    k0_pay7 (F := Ideal) P e (ix2 b l) = Cert.Spline.knotX (lane P e l) b.castSucc := by
  unfold k0_pay7
  rw [slice_rows 0 (k0_pay5 (F := Ideal) P e) _ b l (by omega), pay5_apply]
  exact congrArg _ (Fin.ext (Nat.zero_add _))

/-- Rows 1 to 5 of the stacked abscissae: each bin's right knot. -/
theorem pay8_apply (P : FVec Ideal S10x16384 .f32) (e : Ideal .f32) (b : Fin 5) (l : Fin 16384) :
    k0_pay8 (F := Ideal) P e (ix2 b l) = Cert.Spline.knotX (lane P e l) b.succ := by
  unfold k0_pay8
  rw [slice_rows 1 (k0_pay5 (F := Ideal) P e) _ b l (by omega), pay5_apply]
  exact congrArg _ (Fin.ext (Nat.add_comm _ _))

/-- Rows 0 to 4 of the stacked ordinates: each bin's left ordinate. -/
theorem pay9_apply (P : FVec Ideal S10x16384 .f32) (e : Ideal .f32) (b : Fin 5) (l : Fin 16384) :
    k0_pay9 (F := Ideal) P e (ix2 b l) = Cert.Spline.knotY (lane P e l) b.castSucc := by
  unfold k0_pay9
  rw [slice_rows 0 (k0_pay6 (F := Ideal) P e) _ b l (by omega), pay6_apply]
  exact congrArg _ (Fin.ext (Nat.zero_add _))

/-- Rows 1 to 5 of the stacked ordinates: each bin's right ordinate. -/
theorem pay10_apply (P : FVec Ideal S10x16384 .f32) (e : Ideal .f32) (b : Fin 5) (l : Fin 16384) :
    k0_pay10 (F := Ideal) P e (ix2 b l) = Cert.Spline.knotY (lane P e l) b.succ := by
  unfold k0_pay10
  rw [slice_rows 1 (k0_pay6 (F := Ideal) P e) _ b l (by omega), pay6_apply]
  exact congrArg _ (Fin.ext (Nat.add_comm _ _))

/-- The query row is the third channel. -/
theorem pay11_apply (v0 : Vec Ideal S3x16384 .f32) (l : Fin 16384) :
    k0_pay11 (F := Ideal) (k0_pay2 v0) (ix2 (0 : Fin 1) l) = v0 (ix2 2 l) := by
  unfold k0_pay11 k0_pay2
  rw [shapeCast_self, slice_rows 2 v0 _ (0 : Fin 1) l (by decide)]
  rfl

/-- The lower clamp bound: the first abscissa pulled in by the shrink factor. -/
theorem pay12_apply (P : FVec Ideal S10x16384 .f32) (e : Ideal .f32) (l : Fin 16384) :
    k0_pay12 (F := Ideal) P e (ix2 (0 : Fin 1) l) = Cert.Spline.knotX (lane P e l) 0 * Cert.Spline.shrink := by
  unfold k0_pay12
  rw [mulf_apply, slice_rows 0 (k0_pay7 (F := Ideal) P e) _ (0 : Fin 1) l (by decide), pay7_apply]
  rfl

/-- The last abscissa, before it is pulled in. -/
theorem pay13_apply (P : FVec Ideal S10x16384 .f32) (e : Ideal .f32) (l : Fin 16384) :
    k0_pay13 (F := Ideal) P e (ix2 (0 : Fin 1) l) = Cert.Spline.knotX (lane P e l) 5 := by
  unfold k0_pay13
  rw [slice_rows 4 (k0_pay8 (F := Ideal) P e) _ (0 : Fin 1) l (by decide), pay8_apply]
  rfl

section Rows
variable {α : Type}

/-- A single row broadcast down m rows reads, at (b, l), the row at lane l. -/
theorem bcast_rows_apply {m : Nat} (v : S1x16384.Idx → α) (h : S1x16384.Broadcasts ⟨2, ![m, 16384]⟩) (b : Fin m)
    (l : Fin 16384) : broadcastTo ⟨2, ![m, 16384]⟩ v h (ix2 b l) = v (ix2 (0 : Fin 1) l) := by
  refine broadcastTo_apply v h _ _ fun a => ?_
  match a with
  | ⟨0, _⟩ => rfl
  | ⟨1, _⟩ => rfl

/-- A length-n vector cut at offset o reads, at i, the vector at o + i. -/
theorem slice_vec {n m : Nat} (o : Nat) (x : (⟨1, ![n]⟩ : Shape).Idx → α) (h : (⟨1, ![n]⟩ : Shape).Slices ![o] ⟨1, ![m]⟩)
    (i : Fin m) (hi : o + i.val < n) : extractStridedSlice ⟨1, ![m]⟩ ![o] x h (ix1 i) = x (ix1 ⟨o + i.val, hi⟩) := by
  refine extractStridedSlice_apply _ x h _ _ fun a => ?_
  match a with
  | ⟨0, _⟩ => rfl

end Rows

/-- A pointwise conjunction of two one-bit vectors reads the conjunction of the bits. -/
theorem andi_apply {s : Shape} {w : Nat} (x y : IVec s w) (i : s.Idx) : andi x y i = IntOp.andi (x i) (y i) := rfl

/-- The sum over the five rows of a [5, 16384] array, recast as a single row, reads at lane l the sum of the column. -/
theorem sum_rows_apply (v : FVec Ideal S5x16384 .f32) (acc : BitVec (FTy.bits .f32)) (h : S5x16384.Reduces [0] S16384)
    (hφ : FKind.Formats .f32) (hacc : acc = FKind.add.neutral .f32 hφ) (h2 : S16384.ShapeCasts S1x16384) (l : Fin 16384) :
    shapeCast S1x16384 (multiReduction .add [0] S16384 v acc h hφ hacc) h2 (ix2 (0 : Fin 1) l) = ∑ b : Fin 5, v (ix2 b l) := by
  refine (shapeCast_apply _ h2 (ix2 (0 : Fin 1) l) (ix1 l) ?_).trans ?_
  · rw [Shape.rowMajor_val_one, Shape.rowMajor_val_two]
    show l.val = 0 * 16384 + l.val
    omega
  · refine (Ideal.multiReduction_add_single v acc h hφ hacc (ix1 l)).trans ?_
    show ∑ k : Fin 5, v (h.lift (ix1 l) k) = ∑ b : Fin 5, v (ix2 b l)
    refine Finset.sum_congr rfl fun b _ => congrArg v ?_
    funext a
    match a with
    | ⟨0, _⟩ => rfl
    | ⟨1, _⟩ => rfl

/-- The two conditioning channels times their mask entries. -/
theorem mask_apply (v1 : FVec Ideal S3x16384 .f32) (v4 : Vec Ideal S3 .f32) (h1 : S3x16384.Slices ![0, 0] S2x16384)
    (h2 : S3.Slices ![0] S2) (h3 : S2.ShapeCasts S2x1) (h4 : S2x1.Broadcasts S2x16384) (c : Fin 2) (l : Fin 16384) :
    mulf (extractStridedSlice S2x16384 ![0, 0] v1 h1)
        (broadcastTo S2x16384 (shapeCast S2x1 (extractStridedSlice S2 ![0] v4 h2 : FVec Ideal S2 .f32) h3) h4) (ix2 c l)
      = v1 (ix2 c.castSucc l) * v4 (ix1 c.castSucc) := by
  rw [mulf_apply, slice_rows 0 v1 h1 c l (by omega), Keepdims.broadcastTo_a1_ab_apply, Keepdims.shapeCast_a_a1_apply,
    slice_vec 0 v4 h2 c (by omega)]
  have e : (⟨0 + c.val, by omega⟩ : Fin 3) = c.castSucc := Fin.ext (Nat.zero_add _)
  rw [e]

/-- The stored block at (c, l) over any inputs whose lane l reads the knots X, Y and the query q: the masked channel for
    c < 2, the interpolation at the clamped query for c = 2. -/
theorem pay1_apply_of (v1 : FVec Ideal S3x16384 .f32) (v4 : Vec Ideal S3 .f32) (v82 v83 v84 v85 : FVec Ideal S5x16384 .f32)
    (v86 v89 v90 : FVec Ideal S1x16384 .f32) (l : Fin 16384) (X Y : Fin 6 → EReal) (q : EReal)
    (h82 : ∀ b : Fin 5, v82 (ix2 b l) = X b.castSucc) (h83 : ∀ b : Fin 5, v83 (ix2 b l) = X b.succ)
    (h84 : ∀ b : Fin 5, v84 (ix2 b l) = Y b.castSucc) (h85 : ∀ b : Fin 5, v85 (ix2 b l) = Y b.succ)
    (h86 : v86 (ix2 (0 : Fin 1) l) = q) (h89 : v89 (ix2 (0 : Fin 1) l) = X 0 * Cert.Spline.shrink)
    (h90 : v90 (ix2 (0 : Fin 1) l) = X 5) (c : Fin 3) :
    k0_pay1 (F := Ideal) v1 v4 v82 v83 v84 v85 v86 v89 v90 (ix2 c l)
      = if c.val < 2 then v1 (ix2 c l) * v4 (ix1 c)
        else Cert.Spline.interp X Y (Cert.Spline.clampQ X q) := by
  unfold k0_pay1
  by_cases hc : c.val < 2
  · rw [if_pos hc]
    refine Eq.trans (concatenate_pair_apply_left (t := S3x16384) (s₁ := S2x16384) (s₂ := S1x16384) (0 : Fin 2) _ _ _ (ix2 c l) rfl (ix2 (⟨c.val, hc⟩ : Fin 2) l) ?_) ?_
    · intro b
      match b with
      | ⟨0, _⟩ => rfl
      | ⟨1, _⟩ => rfl
    · exact mask_apply v1 v4 _ _ _ _ ⟨c.val, hc⟩ l
  · rw [if_neg hc]
    refine Eq.trans (concatenate_pair_apply_right (t := S3x16384) (s₁ := S2x16384) (s₂ := S1x16384) (0 : Fin 2) _ _ _ (ix2 c l) rfl rfl (ix2 (0 : Fin 1) l) ?_ ?_) ?_
    · intro b hb
      match b with
      | ⟨0, _⟩ => exact absurd rfl hb
      | ⟨1, _⟩ => rfl
    · show 0 + 2 = c.val
      omega
    · refine (sum_rows_apply _ _ _ _ _ _ l).trans ?_
      unfold Cert.Spline.interp
      rw [show Cert.Spline.zero = (0 : EReal) from Ideal.ofBits_zero_f32, zero_add]
      refine Finset.sum_congr rfl fun b _ => ?_
      simp only [select_apply, andi_apply, cmpf_apply, addf_apply, mulf_apply, divf_apply, subf_apply, broadcast_apply,
        bcast_rows_apply, shapeCast_self, minimumf_apply, maximumf_apply, Ideal.cmpf_def, Ideal.ofBits_def]
      rw [h82, h83, h84, h85, h86, h89, h90]
      rfl

/-- The stored block at (c, l), for any parameter block P and added constant e. -/
theorem out_apply_of (v0 : Vec Ideal S3x16384 .f32) (v4 : Vec Ideal S3 .f32) (P : FVec Ideal S10x16384 .f32) (e : Ideal .f32)
    (c : Fin 3) (l : Fin 16384) :
    k0_pay1 (F := Ideal) (k0_pay2 v0) v4 (k0_pay7 P e) (k0_pay8 P e) (k0_pay9 P e) (k0_pay10 P e) (k0_pay11 (k0_pay2 v0))
        (k0_pay12 P e) (k0_pay13 P e) (ix2 c l)
      = if c.val < 2 then v0 (ix2 c l) * v4 (ix1 c)
        else Cert.Spline.interp (Cert.Spline.knotX (lane P e l)) (Cert.Spline.knotY (lane P e l))
          (Cert.Spline.clampQ (Cert.Spline.knotX (lane P e l)) (v0 (ix2 2 l))) := by
  refine (pay1_apply_of (k0_pay2 v0) v4 _ _ _ _ _ _ _ l (Cert.Spline.knotX (lane P e l)) (Cert.Spline.knotY (lane P e l))
    (v0 (ix2 2 l)) (fun b => pay7_apply P e b l) (fun b => pay8_apply P e b l) (fun b => pay9_apply P e b l)
    (fun b => pay10_apply P e b l) (pay11_apply v0 l) (pay12_apply P e l) (pay13_apply P e l) c).trans ?_
  unfold k0_pay2
  rw [shapeCast_self]

end Cert.KernelIdeal.Row

end
-- ==== Proof.KernelRow.lean ====
/-
  The block the kernel body stores, at one entry: row c, lane l of the stored block is the row map's output c of lane l
  of the data blocks, with the weights read transposed as the kernel holds them.

  The body loads its seven whole input blocks, computes, and stores one whole block: so the stored block is the body's
  arithmetic applied to the blocks themselves. That arithmetic splits at the ten parameter rows: below them the
  perceptron (the parameters of lane l are the row map's parameters of lane l), above them the spline over any
  parameter rows.
-/
import proofs.«130953_j79164837200472_1_alg».proof.Proof.Gen.KernelIdeal.Frame
import proofs.«130953_j79164837200472_1_alg».proof.Proof.KernelMlp
import proofs.«130953_j79164837200472_1_alg».proof.Proof.KernelSpline

noncomputable section

open scoped BigOperators
open Idealize.ShloMosaic Idealize.ShloMosaic.ValueIdx Cert.KernelIdeal Cert.KernelIdeal.Gen

namespace Cert.KernelIdeal.Row

/-- The zero offsets of a rank-2 rectangle, as a constant function. -/
theorem zero_offsets₂ : (![0, 0] : Fin 2 → Nat) = fun _ => 0 := by
  funext a; match a with | ⟨0, _⟩ => rfl | ⟨1, _⟩ => rfl

/-- The zero offset of a rank-1 rectangle, as a constant function. -/
theorem zero_offsets₁ : (![0] : Fin 1 → Nat) = fun _ => 0 := by
  funext a; match a with | ⟨0, _⟩ => rfl

/-- What the body leaves in the output window's buffer, read at (c, l). -/
theorem out_apply (x0 : Vec Ideal S3x16384 .f32) (x1 : Vec Ideal S16x16384 .f32) (x2 : Vec Ideal S3 .f32)
    (x3 : Vec Ideal S64x18 .f32) (x4 : Vec Ideal S64 .f32) (x5 : Vec Ideal S10x64 .f32) (x6 : Vec Ideal S10 .f32)
    (c : Fin 3) (l : Fin 16384) :
    out0_7 (F := Ideal) x0 x1 x2 x3 x4 x5 x6 (ix2 c l)
      = Cert.Spline.rowOut (fun c' => x0 (ix2 c' l)) (fun k => x1 (ix2 k l)) (fun c' => x2 (ix1 c'))
          (fun k j => x3 (ix2 j k)) (fun j => x4 (ix1 j)) (fun j r => x5 (ix2 r j)) (fun r => x6 (ix1 r)) c := by
  unfold out0_7
  rw [View.canon_unit_zero (S := S3x16384) zero_offsets₂]
  simp only [View.ld_unit_zero (S := S3x16384) zero_offsets₂, View.ld_unit_zero (S := S16x16384) zero_offsets₂,
    View.ld_unit_zero (S := S3) zero_offsets₁, View.ld_unit_zero (S := S64x18) zero_offsets₂,
    View.ld_unit_zero (S := S64) zero_offsets₁, View.ld_unit_zero (S := S10x64) zero_offsets₂,
    View.ld_unit_zero (S := S10) zero_offsets₁]
  rw [out_apply_of]
  have hp : lane (k0_pay3 x0 x1 x3 x4 x5 x6) (Scalar.ofBits .f32 0x38D1B717#32) l
      = Cert.Spline.param (fun c' => x0 (ix2 c' l)) (fun k => x1 (ix2 k l)) (fun k j => x3 (ix2 j k)) (fun j => x4 (ix1 j))
          (fun j r => x5 (ix2 r j)) (fun r => x6 (ix1 r)) :=
    funext fun i => param_apply x0 x1 x3 x4 x5 x6 i l
  rw [hp]
  rfl

end Cert.KernelIdeal.Row

end
-- ==== Proof.KernelValue.lean ====
/-
  The idealized kernel's whole run with its result named: after the transposes, the pipelined region and the final
  transpose, the result array is the row map applied to every row of the arguments.
-/
import proofs.«130953_j79164837200472_1_alg».proof.Proof.Gen.KernelIdeal.Frame
import proofs.«130953_j79164837200472_1_alg».proof.Proof.KernelRow
import Idealize.ShloMosaic.Lib.Pipeline.Value
import Idealize.ShloMosaic.Lib.StableHlo.Run

noncomputable section

open scoped BigOperators
open Idealize.ShloMosaic Idealize.ShloMosaic.TcCoe Idealize.ShloMosaic.ValueIdx Idealize.SL.Sem Cert.KernelIdeal Cert.KernelIdeal.Gen

namespace Cert.KernelIdeal.Whole

variable (m : (ℓ : Loc nD τ sig) → Buf (Elt Ideal) ℓ) (ρ : Dev nD → PrngReg)

/-- The block index of every window at every point of the grid: the two per-row inputs and the output move along the
    long axis with the point, block t at point t; the mask and the weights are one block. -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = t.val :=
  (by decide +kernel : ∀ t : Fin grid0.N, _)

/-- The first argument transposed, as the region finds it: entry (c', n) is row n, channel c' of the argument. -/
theorem V_v0_apply (c : Dev nD) (c' : Fin 3) (n : Fin 2097152) :
    (V m c main_v0 : S3x2097152.Idx → EReal) (ix2 c' n)
      = (m ((c.tc : Thread nD τ).loc main_arg0) : S2097152x3.Idx → EReal) (ix2 n c') := by
  have e : (V m c main_v0 : S3x2097152.Idx → EReal)
      = transpose S3x2097152 [1, 0] (m ((c.tc : Thread nD τ).loc main_arg0) : S2097152x3.Idx → EReal) transposes_S2097152x3_S3x2097152_1_0 := by
    show StableHlo.after hostOps0 (fun b => m (c, b)) (Proc.devRef .tc main_v0) = _
    after_results
  rw [e]
  refine transpose_apply _ _ _ _ _ (fun b => ?_)
  match b with
  | ⟨0, _⟩ => rfl
  | ⟨1, _⟩ => rfl

/-- The second argument transposed: entry (k, n) is row n, feature k of the argument. -/
theorem V_v1_apply (c : Dev nD) (k : Fin 16) (n : Fin 2097152) :
    (V m c main_v1 : S16x2097152.Idx → EReal) (ix2 k n)
      = (m ((c.tc : Thread nD τ).loc main_arg1) : S2097152x16.Idx → EReal) (ix2 n k) := by
  have e : (V m c main_v1 : S16x2097152.Idx → EReal)
      = transpose S16x2097152 [1, 0] (m ((c.tc : Thread nD τ).loc main_arg1) : S2097152x16.Idx → EReal) transposes_S2097152x16_S16x2097152_1_0 := by
    show StableHlo.after hostOps0 (fun b => m (c, b)) (Proc.devRef .tc main_v1) = _
    after_results
  rw [e]
  refine transpose_apply _ _ _ _ _ (fun b => ?_)
  match b with
  | ⟨0, _⟩ => rfl
  | ⟨1, _⟩ => rfl

/-- The first weight matrix transposed: entry (j, k) is entry (k, j) of the argument. -/
theorem V_v2_apply (c : Dev nD) (j : Fin 64) (k : Fin 18) :
    (V m c main_v2 : S64x18.Idx → EReal) (ix2 j k)
      = (m ((c.tc : Thread nD τ).loc main_arg3) : S18x64.Idx → EReal) (ix2 k j) := by
  have e : (V m c main_v2 : S64x18.Idx → EReal)
      = transpose S64x18 [1, 0] (m ((c.tc : Thread nD τ).loc main_arg3) : S18x64.Idx → EReal) transposes_S18x64_S64x18_1_0 := by
    show StableHlo.after hostOps0 (fun b => m (c, b)) (Proc.devRef .tc main_v2) = _
    after_results
  rw [e]
  refine transpose_apply _ _ _ _ _ (fun b => ?_)
  match b with
  | ⟨0, _⟩ => rfl
  | ⟨1, _⟩ => rfl

/-- The second weight matrix transposed: entry (r, j) is entry (j, r) of the argument. -/
theorem V_v3_apply (c : Dev nD) (r : Fin 10) (j : Fin 64) :
    (V m c main_v3 : S10x64.Idx → EReal) (ix2 r j)
      = (m ((c.tc : Thread nD τ).loc main_arg5) : S64x10.Idx → EReal) (ix2 j r) := by
  have e : (V m c main_v3 : S10x64.Idx → EReal)
      = transpose S10x64 [1, 0] (m ((c.tc : Thread nD τ).loc main_arg5) : S64x10.Idx → EReal) transposes_S64x10_S10x64_1_0 := by
    show StableHlo.after hostOps0 (fun b => m (c, b)) (Proc.devRef .tc main_v3) = _
    after_results
  rw [e]
  refine transpose_apply _ _ _ _ _ (fun b => ?_)
  match b with
  | ⟨0, _⟩ => rfl
  | ⟨1, _⟩ => rfl

/-- Window 0's block at point t, read at (c', l): row t·16384 + l of the first argument, channel c'. -/
theorem iblk0_apply (c : Dev nD) (t : Fin cfg0.N) (c' : Fin 3) (l : Fin 16384) (n : Fin 2097152)
    (hn : n.val = t.val * 16384 + l.val) :
    (iblk m c 0 t : Vec Ideal S3x16384 .f32) (ix2 c' l)
      = (m ((c.tc : Thread nD τ).loc main_arg0) : S2097152x3.Idx → EReal) (ix2 n c') := by
  obtain ⟨e0, e1, -⟩ := idx_facts t
  refine Eq.trans ?_ (V_v0_apply m c c' n)
  unfold iblk
  rw [View.read_apply]
  show V m c main_v0 _ = V m c main_v0 _
  congr 1
  funext a
  apply Fin.ext
  match a with
  | ⟨0, _⟩ => show win0_0.index t (0 : Fin 2) * 3 + 1 * c'.val = c'.val; rw [e0]; omega
  | ⟨1, _⟩ => show win0_0.index t (1 : Fin 2) * 16384 + 1 * l.val = n.val; rw [e1, hn]; omega

/-- Window 1's block at point t, read at (k, l): row t·16384 + l of the second argument, feature k. -/
theorem iblk1_apply (c : Dev nD) (t : Fin cfg0.N) (k : Fin 16) (l : Fin 16384) (n : Fin 2097152)
    (hn : n.val = t.val * 16384 + l.val) :
    (iblk m c 1 t : Vec Ideal S16x16384 .f32) (ix2 k l)
      = (m ((c.tc : Thread nD τ).loc main_arg1) : S2097152x16.Idx → EReal) (ix2 n k) := by
  obtain ⟨-, -, e0, e1, -⟩ := idx_facts t
  refine Eq.trans ?_ (V_v1_apply m c k n)
  unfold iblk
  rw [View.read_apply]
  show V m c main_v1 _ = V m c main_v1 _
  congr 1
  funext a
  apply Fin.ext
  match a with
  | ⟨0, _⟩ => show win0_1.index t (0 : Fin 2) * 16 + 1 * k.val = k.val; rw [e0]; omega
  | ⟨1, _⟩ => show win0_1.index t (1 : Fin 2) * 16384 + 1 * l.val = n.val; rw [e1, hn]; omega

/-- Window 2 is the whole mask. -/
theorem iblk2_apply (c : Dev nD) (t : Fin cfg0.N) (c' : Fin 3) :
    (iblk m c 2 t : Vec Ideal S3 .f32) (ix1 c')
      = (m ((c.tc : Thread nD τ).loc main_arg2) : S3.Idx → EReal) (ix1 c') := by
  obtain ⟨-, -, -, -, e0, -⟩ := idx_facts t
  refine Eq.trans ?_ (congrFun (V_main_arg2 m c) (ix1 c'))
  unfold iblk
  rw [View.read_apply]
  show V m c main_arg2 _ = V m c main_arg2 _
  congr 1
  funext a
  apply Fin.ext
  match a with
  | ⟨0, _⟩ => show win0_2.index t (0 : Fin 1) * 3 + 1 * c'.val = c'.val; rw [e0]; omega

/-- Window 3 is the whole first weight matrix, held transposed. -/
theorem iblk3_apply (c : Dev nD) (t : Fin cfg0.N) (j : Fin 64) (k : Fin 18) :
    (iblk m c 3 t : Vec Ideal S64x18 .f32) (ix2 j k)
      = (m ((c.tc : Thread nD τ).loc main_arg3) : S18x64.Idx → EReal) (ix2 k j) := by
  obtain ⟨-, -, -, -, -, e0, e1, -⟩ := idx_facts t
  refine Eq.trans ?_ (V_v2_apply m c j k)
  unfold iblk
  rw [View.read_apply]
  show V m c main_v2 _ = V m c main_v2 _
  congr 1
  funext a
  apply Fin.ext
  match a with
  | ⟨0, _⟩ => show win0_3.index t (0 : Fin 2) * 64 + 1 * j.val = j.val; rw [e0]; omega
  | ⟨1, _⟩ => show win0_3.index t (1 : Fin 2) * 18 + 1 * k.val = k.val; rw [e1]; omega

/-- Window 4 is the whole first bias. -/
theorem iblk4_apply (c : Dev nD) (t : Fin cfg0.N) (j : Fin 64) :
    (iblk m c 4 t : Vec Ideal S64 .f32) (ix1 j)
      = (m ((c.tc : Thread nD τ).loc main_arg4) : S64.Idx → EReal) (ix1 j) := by
  obtain ⟨-, -, -, -, -, -, -, e0, -⟩ := idx_facts t
  refine Eq.trans ?_ (congrFun (V_main_arg4 m c) (ix1 j))
  unfold iblk
  rw [View.read_apply]
  show V m c main_arg4 _ = V m c main_arg4 _
  congr 1
  funext a
  apply Fin.ext
  match a with
  | ⟨0, _⟩ => show win0_4.index t (0 : Fin 1) * 64 + 1 * j.val = j.val; rw [e0]; omega

/-- Window 5 is the whole second weight matrix, held transposed. -/
theorem iblk5_apply (c : Dev nD) (t : Fin cfg0.N) (r : Fin 10) (j : Fin 64) :
    (iblk m c 5 t : Vec Ideal S10x64 .f32) (ix2 r j)
      = (m ((c.tc : Thread nD τ).loc main_arg5) : S64x10.Idx → EReal) (ix2 j r) := by
  obtain ⟨-, -, -, -, -, -, -, -, e0, e1, -⟩ := idx_facts t
  refine Eq.trans ?_ (V_v3_apply m c r j)
  unfold iblk
  rw [View.read_apply]
  show V m c main_v3 _ = V m c main_v3 _
  congr 1
  funext a
  apply Fin.ext
  match a with
  | ⟨0, _⟩ => show win0_5.index t (0 : Fin 2) * 10 + 1 * r.val = r.val; rw [e0]; omega
  | ⟨1, _⟩ => show win0_5.index t (1 : Fin 2) * 64 + 1 * j.val = j.val; rw [e1]; omega

/-- Window 6 is the whole second bias. -/
theorem iblk6_apply (c : Dev nD) (t : Fin cfg0.N) (r : Fin 10) :
    (iblk m c 6 t : Vec Ideal S10 .f32) (ix1 r)
      = (m ((c.tc : Thread nD τ).loc main_arg6) : S10.Idx → EReal) (ix1 r) := by
  obtain ⟨-, -, -, -, -, -, -, -, -, -, e0, -⟩ := idx_facts t
  refine Eq.trans ?_ (congrFun (V_main_arg6 m c) (ix1 r))
  unfold iblk
  rw [View.read_apply]
  show V m c main_arg6 _ = V m c main_arg6 _
  congr 1
  funext a
  apply Fin.ext
  match a with
  | ⟨0, _⟩ => show win0_6.index t (0 : Fin 1) * 10 + 1 * r.val = r.val; rw [e0]; omega

/-- The result array before the last transpose: channel c of row n is the row map's output c on row n of the arguments. -/
def Gt (c : Dev nD) : S3x2097152.Idx → EReal := fun i =>
  Cert.Spline.rowOut
    (fun c' => (m ((c.tc : Thread nD τ).loc main_arg0) : S2097152x3.Idx → EReal) (ix2 (i 1) c'))
    (fun k => (m ((c.tc : Thread nD τ).loc main_arg1) : S2097152x16.Idx → EReal) (ix2 (i 1) k))
    (fun c' => (m ((c.tc : Thread nD τ).loc main_arg2) : S3.Idx → EReal) (ix1 c'))
    (fun k j => (m ((c.tc : Thread nD τ).loc main_arg3) : S18x64.Idx → EReal) (ix2 k j))
    (fun j => (m ((c.tc : Thread nD τ).loc main_arg4) : S64.Idx → EReal) (ix1 j))
    (fun j r => (m ((c.tc : Thread nD τ).loc main_arg5) : S64x10.Idx → EReal) (ix2 j r))
    (fun r => (m ((c.tc : Thread nD τ).loc main_arg6) : S10.Idx → EReal) (ix1 r)) (i 0)

/-- What the body leaves at point t, read at (cc, l), is the transposed result at (cc, t·16384 + l). -/
theorem out_blk_apply (c : Dev nD) (t : Fin cfg0.N) (cc : Fin 3) (l : Fin 16384) (n : Fin 2097152)
    (hn : n.val = t.val * 16384 + l.val) :
    out0_7 (F := Ideal) (iblk m c 0 t) (iblk m c 1 t) (iblk m c 2 t) (iblk m c 3 t) (iblk m c 4 t) (iblk m c 5 t) (iblk m c 6 t) (ix2 cc l)
      = Gt m c (ix2 cc n) := by
  refine (Cert.KernelIdeal.Row.out_apply (iblk m c 0 t) (iblk m c 1 t) (iblk m c 2 t) (iblk m c 3 t) (iblk m c 4 t) (iblk m c 5 t) (iblk m c 6 t) cc l).trans ?_
  have h0 : (fun c' => (iblk m c 0 t : Vec Ideal S3x16384 .f32) (ix2 c' l))
      = fun c' => (m ((c.tc : Thread nD τ).loc main_arg0) : S2097152x3.Idx → EReal) (ix2 n c') :=
    funext fun c' => iblk0_apply m c t c' l n hn
  have h1 : (fun k => (iblk m c 1 t : Vec Ideal S16x16384 .f32) (ix2 k l))
      = fun k => (m ((c.tc : Thread nD τ).loc main_arg1) : S2097152x16.Idx → EReal) (ix2 n k) :=
    funext fun k => iblk1_apply m c t k l n hn
  have h2 : (fun c' => (iblk m c 2 t : Vec Ideal S3 .f32) (ix1 c'))
      = fun c' => (m ((c.tc : Thread nD τ).loc main_arg2) : S3.Idx → EReal) (ix1 c') :=
    funext fun c' => iblk2_apply m c t c'
  have h3 : (fun k j => (iblk m c 3 t : Vec Ideal S64x18 .f32) (ix2 j k))
      = fun k j => (m ((c.tc : Thread nD τ).loc main_arg3) : S18x64.Idx → EReal) (ix2 k j) :=
    funext fun k => funext fun j => iblk3_apply m c t j k
  have h4 : (fun j => (iblk m c 4 t : Vec Ideal S64 .f32) (ix1 j))
      = fun j => (m ((c.tc : Thread nD τ).loc main_arg4) : S64.Idx → EReal) (ix1 j) :=
    funext fun j => iblk4_apply m c t j
  have h5 : (fun j r => (iblk m c 5 t : Vec Ideal S10x64 .f32) (ix2 r j))
      = fun j r => (m ((c.tc : Thread nD τ).loc main_arg5) : S64x10.Idx → EReal) (ix2 j r) :=
    funext fun j => funext fun r => iblk5_apply m c t r j
  have h6 : (fun r => (iblk m c 6 t : Vec Ideal S10 .f32) (ix1 r))
      = fun r => (m ((c.tc : Thread nD τ).loc main_arg6) : S10.Idx → EReal) (ix1 r) :=
    funext fun r => iblk6_apply m c t r
  rw [h0, h1, h2, h3, h4, h5, h6]
  rfl

/-- What point t writes back is block t of the transposed result. -/
theorem flushed_eq (c : Dev nD) (t : Fin cfg0.N) :
    (dats m 0 c).flushed 7 t = ((cfg0.win 7).blk t).view.read (Elt Ideal) (Gt m c) := by
  show (cfg0.win 7).cut (grid0.coords t) ((dats m 0 c).after 7 t) = _
  rw [after0_7]
  obtain ⟨-, -, -, -, -, -, -, -, -, -, -, e0, e1⟩ := idx_facts t
  funext j
  have hj0 : (j 0).val < 3 := (j 0).isLt
  have hj1 : (j 1).val < 16384 := (j 1).isLt
  have ht : t.val < 128 := t.isLt
  have hx : (cfg0.win 7).xinj (grid0.coords t) j = (ix2 ⟨(j 0).val, hj0⟩ ⟨(j 1).val, hj1⟩ : S3x16384.Idx) :=
    funext fun a => by
      match a with
      | ⟨0, _⟩ => rfl
      | ⟨1, _⟩ => rfl
  refine ((congrArg (out0_7 (F := Ideal) (iblk m c 0 t) (iblk m c 1 t) (iblk m c 2 t) (iblk m c 3 t) (iblk m c 4 t) (iblk m c 5 t) (iblk m c 6 t)) hx).trans
    (out_blk_apply m c t ⟨(j 0).val, hj0⟩ ⟨(j 1).val, hj1⟩ ⟨t.val * 16384 + (j 1).val, by omega⟩ rfl)).trans ?_
  rw [View.read_apply]
  show Gt m c _ = Gt m c _
  congr 1
  funext a
  apply Fin.ext
  match a with
  | ⟨0, _⟩ => show (j 0).val = win0_7.index t (0 : Fin 2) * 3 + 1 * (j 0).val; rw [e0]; omega
  | ⟨1, _⟩ => show t.val * 16384 + (j 1).val = win0_7.index t (1 : Fin 2) * 16384 + 1 * (j 1).val; rw [e1]; omega

/-- An index of the array is in point t's block iff each coordinate is in the block's range on its axis. -/
theorem mem_blk (t : Fin cfg0.N) (i : S3x2097152.Idx) :
    i ∈ ((cfg0.win 7).blk t).view.set ↔ ∀ a : Fin 2, win0_7.index t a * S3x16384.size a ≤ (i a).val ∧ (i a).val < win0_7.index t a * S3x16384.size a + S3x16384.size a := by
  show i ∈ ((View.whole main_v4).slice (win0_7.rect t)).set ↔ _
  rw [View.set_slice_whole, Rect.mem_set_unit]
  exact Iff.rfl

/-- Every index lies in the block of the point its column falls in. -/
theorem cover (i : S3x2097152.Idx) :
    ∃ t : Fin cfg0.N, (cfg0.win 7).flush t = true ∧ i ∈ ((cfg0.win 7).blk t).view.set := by
  have hi0 : (i 0).val < 3 := (i 0).isLt
  have hi1 : (i 1).val < 2097152 := (i 1).isLt
  have hN : cfg0.N = 128 := N_0
  let t : Fin cfg0.N := ⟨(i 1).val / 16384, by rw [hN]; omega⟩
  refine ⟨t, flush0_7 t, ?_⟩
  rw [mem_blk]
  obtain ⟨-, -, -, -, -, -, -, -, -, -, -, e0, e1⟩ := idx_facts t
  have ht : t.val = (i 1).val / 16384 := rfl
  intro a
  match a with
  | ⟨0, _⟩ => show win0_7.index t (0 : Fin 2) * 3 ≤ (i 0).val ∧ (i 0).val < win0_7.index t (0 : Fin 2) * 3 + 3; rw [e0]; omega
  | ⟨1, _⟩ => show win0_7.index t (1 : Fin 2) * 16384 ≤ (i 1).val ∧ (i 1).val < win0_7.index t (1 : Fin 2) * 16384 + 16384; rw [e1, ht]; omega

/-- The region's output array after the run is the transposed result. -/
theorem final (c : Dev nD) : (dats m 0 c).arrAt 7 cfg0.N = Gt m c :=
  (dats m 0 c).arrAt_eq_of_cover 7 (Gt m c) (fun t _ => flushed_eq m c t) cover

/-- The result array after the last transpose is the row map on every row. -/
theorem result_eq (c : Dev nD) :
    Pipeline.afterTail₀ cfgs (dats m) 0 (V0 m) [hostOps1] c main_v5
      = Cert.Spline.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  unfold Pipeline.afterTail₀
  show StableHlo.after hostOps1 _ (Proc.devRef .tc main_v5) = _
  after_results
  have e4 : Pipeline.withArrays (cfgs 0).spec c (V0 m c) (fun w => (dats m 0 c).arrAt w (cfgs 0).N) (Proc.devRef .tc main_v4) = Gt m c :=
    (Pipeline.withArrays_arr spec0 launch0.win.arr_inj c _ _ 7).trans (final m c)
  rw [e4]
  funext i
  refine (transpose_apply [1, 0] (Gt m c) transposes_S3x2097152_S2097152x3_1_0 i (ix2 (i 1) (i 0)) (fun b => ?_)).trans ?_
  · match b with
    | ⟨0, _⟩ => rfl
    | ⟨1, _⟩ => rfl
  · rfl

/-- Every weakly fair execution of the idealized kernel's @main terminates with the result array at the row map of the
    arguments' rows and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v5) = Cert.Spline.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v5 (Pipeline.mem_restRefs_of main_v5 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).1 4).trans (((dats m 0 c).arrAt_in 4 rfl _).trans ((A_eq m c 4).trans (V_main_arg4 m c))),
      ((h c).2 main_arg5 (Pipeline.mem_restRefs_of main_arg5 (by decide) (by decide))).trans (W_main_arg5 m (dats m) c),
      ((h c).1 6).trans (((dats m 0 c).arrAt_in 6 rfl _).trans ((A_eq m c 6).trans (V_main_arg6 m c)))⟩)
    (run_main m ρ)

end Cert.KernelIdeal.Whole

end
-- ==== Proof.RefRun.lean ====
/-
  The reference's run over named stages: every execution of its @main ends with the result buffer at the last stage of
  the arguments and the arguments unchanged.

  @main is a straight line of 136 tensor operations, and what its buffers hold after the line is the fold of the
  operations' results over the launch contents. The line is cut into six stretches, with a cut in front of every
  concatenation of computed operands. At each cut a predicate lists the buffers that later stretches still read, each
  holding its stage as a function of the arguments. Each stretch carries the predicate in front of it to the one behind
  it: a buffer the stretch writes holds its operation applied to the stages it reads, and a buffer it does not write
  keeps its contents. The six steps in a row give the result buffer, and no stretch writes an argument.
-/
import proofs.«130953_j79164837200472_1_alg».proof.Proof.RefOps
import proofs.«130953_j79164837200472_1_alg».proof.Proof.RefRead
import Idealize.ShloMosaic.Lib.StableHlo.Run

noncomputable section

open Idealize.ShloMosaic Idealize.ShloMosaic.TcCoe Idealize.SL.Sem Idealize.ShloMosaic.StableHlo Cert.ReferenceIdeal Cert.ReferenceIdeal.Gen

namespace Cert.ReferenceIdeal.HostRun

variable {F : FTy → Type} [FloatOps F]

open Cert.ReferenceIdeal.RefOps Cert.ReferenceIdeal.RefRead

section Stages

/-! ## The six stretches -/

/-- Stages %0 … %4: the input scaled column by column, and the hyperbolic tangent of the input's first two columns. -/
abbrev opsA : List (HloOp τ sig (Elt F)) :=
  [ unary main_arg2 main_v0 (broadcastInDim S1x3 ![1] bcast_S3_S1x3_1 : (⟨S3, .f32⟩ : BufTy).Contents (Elt F) → (⟨S1x3, .f32⟩ : BufTy).Contents (Elt F)),
    unary main_v0 main_v1 (broadcastInDim S2097152x3 ![0, 1] bcast_S1x3_S2097152x3_0_1 : (⟨S1x3, .f32⟩ : BufTy).Contents (Elt F) → (⟨S2097152x3, .f32⟩ : BufTy).Contents (Elt F)),
    binary main_arg0 main_v1 main_v2 (mulf : (⟨S2097152x3, .f32⟩ : BufTy).Contents (Elt F) → (⟨S2097152x3, .f32⟩ : BufTy).Contents (Elt F) → (⟨S2097152x3, .f32⟩ : BufTy).Contents (Elt F)),
    unary main_arg0 main_v3 ((extractStridedSlice S2097152x2 ![0, 0] · slices_S2097152x3_S2097152x2_0_0) : (⟨S2097152x3, .f32⟩ : BufTy).Contents (Elt F) → (⟨S2097152x2, .f32⟩ : BufTy).Contents (Elt F)),
    unary main_v3 main_v4 (Host.tanh : (⟨S2097152x2, .f32⟩ : BufTy).Contents (Elt F) → (⟨S2097152x2, .f32⟩ : BufTy).Contents (Elt F)) ]

/-- Stages %5 … %17: the joined feature row through the two affine layers, the rectifier and the soft-plus, up to the parameter row. -/
abbrev opsB : List (HloOp τ sig (Elt F)) :=
  [ binary main_v4 main_arg1 main_v5 ((fun a b => concatenate S2097152x18 1 [⟨S2097152x2, a⟩, ⟨S2097152x16, b⟩] concatenates_S2097152x2_S2097152x16_S2097152x18_d1) : (⟨S2097152x2, .f32⟩ : BufTy).Contents (Elt F) → (⟨S2097152x16, .f32⟩ : BufTy).Contents (Elt F) → (⟨S2097152x18, .f32⟩ : BufTy).Contents (Elt F)),
    binary main_v5 main_arg3 main_v6 ((fun l r => Host.dotGeneral dot_S2097152x18_S18x64_S2097152x64_1_0_0_1_n_n none l r) : (⟨S2097152x18, .f32⟩ : BufTy).Contents (Elt F) → (⟨S18x64, .f32⟩ : BufTy).Contents (Elt F) → (⟨S2097152x64, .f32⟩ : BufTy).Contents (Elt F)),
    unary main_arg4 main_v7 (broadcastInDim S1x64 ![1] bcast_S64_S1x64_1 : (⟨S64, .f32⟩ : BufTy).Contents (Elt F) → (⟨S1x64, .f32⟩ : BufTy).Contents (Elt F)),
    unary main_v7 main_v8 (broadcastInDim S2097152x64 ![0, 1] bcast_S1x64_S2097152x64_0_1 : (⟨S1x64, .f32⟩ : BufTy).Contents (Elt F) → (⟨S2097152x64, .f32⟩ : BufTy).Contents (Elt F)),
    binary main_v6 main_v8 main_v9 (addf : (⟨S2097152x64, .f32⟩ : BufTy).Contents (Elt F) → (⟨S2097152x64, .f32⟩ : BufTy).Contents (Elt F) → (⟨S2097152x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S2097152x64, .f32⟩) main_call0_v0) (broadcastInDim S2097152x64 ![] bcast_S_S2097152x64),
    TRef.binary (TRef.of (T := ⟨S2097152x64, .f32⟩) main_v9) (TRef.of (T := ⟨S2097152x64, .f32⟩) main_call0_v0) (TRef.of (T := ⟨S2097152x64, .f32⟩) main_v10) maximumf,
    binary main_v10 main_arg5 main_v11 ((fun l r => Host.dotGeneral dot_S2097152x64_S64x10_S2097152x10_1_0_0_1_n_n none l r) : (⟨S2097152x64, .f32⟩ : BufTy).Contents (Elt F) → (⟨S64x10, .f32⟩ : BufTy).Contents (Elt F) → (⟨S2097152x10, .f32⟩ : BufTy).Contents (Elt F)),
    unary main_arg6 main_v12 (broadcastInDim S1x10 ![1] bcast_S10_S1x10_1 : (⟨S10, .f32⟩ : BufTy).Contents (Elt F) → (⟨S1x10, .f32⟩ : BufTy).Contents (Elt F)),
    unary main_v12 main_v13 (broadcastInDim S2097152x10 ![0, 1] bcast_S1x10_S2097152x10_0_1 : (⟨S1x10, .f32⟩ : BufTy).Contents (Elt F) → (⟨S2097152x10, .f32⟩ : BufTy).Contents (Elt F)),
    binary main_v11 main_v13 main_v14 (addf : (⟨S2097152x10, .f32⟩ : BufTy).Contents (Elt F) → (⟨S2097152x10, .f32⟩ : BufTy).Contents (Elt F) → (⟨S2097152x10, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S2097152x10, .f32⟩) main_call1_v0) (broadcastInDim S2097152x10 ![] bcast_S_S2097152x10),
    TRef.binary (TRef.of (T := ⟨S2097152x10, .f32⟩) main_v14) (TRef.of (T := ⟨S2097152x10, .f32⟩) main_call1_v0) (TRef.of (T := ⟨S2097152x10, .f32⟩) main_call1_v1) maximumf,
    TRef.unary (TRef.of (T := ⟨S_, .f32⟩) main_call1_cst) (TRef.of (T := ⟨S2097152x10, .f32⟩) main_call1_v2) (broadcastInDim S2097152x10 ![] bcast_S_S2097152x10),
    TRef.binary (TRef.of (T := ⟨S2097152x10, .f32⟩) main_v14) (TRef.of (T := ⟨S2097152x10, .f32⟩) main_call1_v2) (TRef.of (T := ⟨S2097152x10, .f32⟩) main_call1_v3) subf,
    TRef.binary (TRef.of (T := ⟨S2097152x10, .f32⟩) main_call1_v3) (TRef.of (T := ⟨S2097152x10, .f32⟩) main_call1_v3) (TRef.of (T := ⟨S2097152x10, .i1⟩) main_call1_v4) (cmpf .une),
    TRef.unary (TRef.of (T := ⟨S_, .f32⟩) main_call1_cst) (TRef.of (T := ⟨S2097152x10, .f32⟩) main_call1_v5) (broadcastInDim S2097152x10 ![] bcast_S_S2097152x10),
    TRef.binary (TRef.of (T := ⟨S2097152x10, .f32⟩) main_v14) (TRef.of (T := ⟨S2097152x10, .f32⟩) main_call1_v5) (TRef.of (T := ⟨S2097152x10, .f32⟩) main_call1_v6) addf,
    TRef.unary (TRef.of (T := ⟨S2097152x10, .f32⟩) main_call1_v3) (TRef.of (T := ⟨S2097152x10, .f32⟩) main_call1_v7) Host.absf,
    TRef.unary (TRef.of (T := ⟨S2097152x10, .f32⟩) main_call1_v7) (TRef.of (T := ⟨S2097152x10, .f32⟩) main_call1_v8) Host.negf,
    TRef.unary (TRef.of (T := ⟨S2097152x10, .f32⟩) main_call1_v8) (TRef.of (T := ⟨S2097152x10, .f32⟩) main_call1_v9) Host.exp,
    TRef.unary (TRef.of (T := ⟨S2097152x10, .f32⟩) main_call1_v9) (TRef.of (T := ⟨S2097152x10, .f32⟩) main_call1_v10) Host.log1p,
    TRef.binary (TRef.of (T := ⟨S2097152x10, .f32⟩) main_call1_v1) (TRef.of (T := ⟨S2097152x10, .f32⟩) main_call1_v10) (TRef.of (T := ⟨S2097152x10, .f32⟩) main_call1_v11) addf,
    TRef.ternary (TRef.of (T := ⟨S2097152x10, .i1⟩) main_call1_v4) (TRef.of (T := ⟨S2097152x10, .f32⟩) main_call1_v6) (TRef.of (T := ⟨S2097152x10, .f32⟩) main_call1_v11) (TRef.of (T := ⟨S2097152x10, .f32⟩) main_v15) select,
    nullary main_cst (constant S_ .f32 0x38D1B717#32),
    unary main_cst main_v16 (broadcastInDim S2097152x10 ![] bcast_S_S2097152x10 : (⟨S_, .f32⟩ : BufTy).Contents (Elt F) → (⟨S2097152x10, .f32⟩ : BufTy).Contents (Elt F)),
    binary main_v15 main_v16 main_v17 (addf : (⟨S2097152x10, .f32⟩ : BufTy).Contents (Elt F) → (⟨S2097152x10, .f32⟩ : BufTy).Contents (Elt F) → (⟨S2097152x10, .f32⟩ : BufTy).Contents (Elt F)) ]

/-- Stages %18 … %65: the ten parameter columns, the six knot abscissae and the six knot ordinates made from them, and the abscissae as columns. -/
abbrev opsC : List (HloOp τ sig (Elt F)) :=
  [ unary main_v17 main_v18 ((extractStridedSlice S2097152x1 ![0, 0] · slices_S2097152x10_S2097152x1_0_0) : (⟨S2097152x10, .f32⟩ : BufTy).Contents (Elt F) → (⟨S2097152x1, .f32⟩ : BufTy).Contents (Elt F)),
    reshape main_v18 main_v19 rfl shapeCasts_S2097152x1_S2097152,
    unary main_v17 main_v20 ((extractStridedSlice S2097152x1 ![0, 1] · slices_S2097152x10_S2097152x1_0_1) : (⟨S2097152x10, .f32⟩ : BufTy).Contents (Elt F) → (⟨S2097152x1, .f32⟩ : BufTy).Contents (Elt F)),
    reshape main_v20 main_v21 rfl shapeCasts_S2097152x1_S2097152,
    unary main_v17 main_v22 ((extractStridedSlice S2097152x1 ![0, 2] · slices_S2097152x10_S2097152x1_0_2) : (⟨S2097152x10, .f32⟩ : BufTy).Contents (Elt F) → (⟨S2097152x1, .f32⟩ : BufTy).Contents (Elt F)),
    reshape main_v22 main_v23 rfl shapeCasts_S2097152x1_S2097152,
    unary main_v17 main_v24 ((extractStridedSlice S2097152x1 ![0, 3] · slices_S2097152x10_S2097152x1_0_3) : (⟨S2097152x10, .f32⟩ : BufTy).Contents (Elt F) → (⟨S2097152x1, .f32⟩ : BufTy).Contents (Elt F)),
    reshape main_v24 main_v25 rfl shapeCasts_S2097152x1_S2097152,
    unary main_v17 main_v26 ((extractStridedSlice S2097152x1 ![0, 4] · slices_S2097152x10_S2097152x1_0_4) : (⟨S2097152x10, .f32⟩ : BufTy).Contents (Elt F) → (⟨S2097152x1, .f32⟩ : BufTy).Contents (Elt F)),
    reshape main_v26 main_v27 rfl shapeCasts_S2097152x1_S2097152,
    unary main_v17 main_v28 ((extractStridedSlice S2097152x1 ![0, 5] · slices_S2097152x10_S2097152x1_0_5) : (⟨S2097152x10, .f32⟩ : BufTy).Contents (Elt F) → (⟨S2097152x1, .f32⟩ : BufTy).Contents (Elt F)),
    reshape main_v28 main_v29 rfl shapeCasts_S2097152x1_S2097152,
    unary main_v17 main_v30 ((extractStridedSlice S2097152x1 ![0, 6] · slices_S2097152x10_S2097152x1_0_6) : (⟨S2097152x10, .f32⟩ : BufTy).Contents (Elt F) → (⟨S2097152x1, .f32⟩ : BufTy).Contents (Elt F)),
    reshape main_v30 main_v31 rfl shapeCasts_S2097152x1_S2097152,
    unary main_v17 main_v32 ((extractStridedSlice S2097152x1 ![0, 7] · slices_S2097152x10_S2097152x1_0_7) : (⟨S2097152x10, .f32⟩ : BufTy).Contents (Elt F) → (⟨S2097152x1, .f32⟩ : BufTy).Contents (Elt F)),
    reshape main_v32 main_v33 rfl shapeCasts_S2097152x1_S2097152,
    unary main_v17 main_v34 ((extractStridedSlice S2097152x1 ![0, 8] · slices_S2097152x10_S2097152x1_0_8) : (⟨S2097152x10, .f32⟩ : BufTy).Contents (Elt F) → (⟨S2097152x1, .f32⟩ : BufTy).Contents (Elt F)),
    reshape main_v34 main_v35 rfl shapeCasts_S2097152x1_S2097152,
    nullary main_cst_0 (constant S_ .f32 0x40000000#32),
    unary main_cst_0 main_v36 (broadcastInDim S2097152 ![] bcast_S_S2097152 : (⟨S_, .f32⟩ : BufTy).Contents (Elt F) → (⟨S2097152, .f32⟩ : BufTy).Contents (Elt F)),
    binary main_v35 main_v36 main_v37 (mulf : (⟨S2097152, .f32⟩ : BufTy).Contents (Elt F) → (⟨S2097152, .f32⟩ : BufTy).Contents (Elt F) → (⟨S2097152, .f32⟩ : BufTy).Contents (Elt F)),
    unary main_v17 main_v38 ((extractStridedSlice S2097152x1 ![0, 9] · slices_S2097152x10_S2097152x1_0_9) : (⟨S2097152x10, .f32⟩ : BufTy).Contents (Elt F) → (⟨S2097152x1, .f32⟩ : BufTy).Contents (Elt F)),
    reshape main_v38 main_v39 rfl shapeCasts_S2097152x1_S2097152,
    nullary main_cst_1 (constant S_ .f32 0x40000000#32),
    unary main_cst_1 main_v40 (broadcastInDim S2097152 ![] bcast_S_S2097152 : (⟨S_, .f32⟩ : BufTy).Contents (Elt F) → (⟨S2097152, .f32⟩ : BufTy).Contents (Elt F)),
    binary main_v39 main_v40 main_v41 (mulf : (⟨S2097152, .f32⟩ : BufTy).Contents (Elt F) → (⟨S2097152, .f32⟩ : BufTy).Contents (Elt F) → (⟨S2097152, .f32⟩ : BufTy).Contents (Elt F)),
    unary main_v21 main_v42 (Host.negf : (⟨S2097152, .f32⟩ : BufTy).Contents (Elt F) → (⟨S2097152, .f32⟩ : BufTy).Contents (Elt F)),
    unary main_v29 main_v43 (Host.negf : (⟨S2097152, .f32⟩ : BufTy).Contents (Elt F) → (⟨S2097152, .f32⟩ : BufTy).Contents (Elt F)),
    unary main_v21 main_v44 (Host.negf : (⟨S2097152, .f32⟩ : BufTy).Contents (Elt F) → (⟨S2097152, .f32⟩ : BufTy).Contents (Elt F)),
    binary main_v44 main_v19 main_v45 (subf : (⟨S2097152, .f32⟩ : BufTy).Contents (Elt F) → (⟨S2097152, .f32⟩ : BufTy).Contents (Elt F) → (⟨S2097152, .f32⟩ : BufTy).Contents (Elt F)),
    unary main_v29 main_v46 (Host.negf : (⟨S2097152, .f32⟩ : BufTy).Contents (Elt F) → (⟨S2097152, .f32⟩ : BufTy).Contents (Elt F)),
    binary main_v46 main_v27 main_v47 (subf : (⟨S2097152, .f32⟩ : BufTy).Contents (Elt F) → (⟨S2097152, .f32⟩ : BufTy).Contents (Elt F) → (⟨S2097152, .f32⟩ : BufTy).Contents (Elt F)),
    binary main_v23 main_v25 main_v48 (addf : (⟨S2097152, .f32⟩ : BufTy).Contents (Elt F) → (⟨S2097152, .f32⟩ : BufTy).Contents (Elt F) → (⟨S2097152, .f32⟩ : BufTy).Contents (Elt F)),
    binary main_v31 main_v33 main_v49 (addf : (⟨S2097152, .f32⟩ : BufTy).Contents (Elt F) → (⟨S2097152, .f32⟩ : BufTy).Contents (Elt F) → (⟨S2097152, .f32⟩ : BufTy).Contents (Elt F)),
    nullary main_cst_2 (constant S_ .f32 0x461C4000#32),
    unary main_cst_2 main_v50 (broadcastInDim S2097152 ![] bcast_S_S2097152 : (⟨S_, .f32⟩ : BufTy).Contents (Elt F) → (⟨S2097152, .f32⟩ : BufTy).Contents (Elt F)),
    binary main_v48 main_v50 main_v51 (addf : (⟨S2097152, .f32⟩ : BufTy).Contents (Elt F) → (⟨S2097152, .f32⟩ : BufTy).Contents (Elt F) → (⟨S2097152, .f32⟩ : BufTy).Contents (Elt F)),
    nullary main_cst_3 (constant S_ .f32 0x461C4000#32),
    unary main_cst_3 main_v52 (broadcastInDim S2097152 ![] bcast_S_S2097152 : (⟨S_, .f32⟩ : BufTy).Contents (Elt F) → (⟨S2097152, .f32⟩ : BufTy).Contents (Elt F)),
    binary main_v41 main_v52 main_v53 (mulf : (⟨S2097152, .f32⟩ : BufTy).Contents (Elt F) → (⟨S2097152, .f32⟩ : BufTy).Contents (Elt F) → (⟨S2097152, .f32⟩ : BufTy).Contents (Elt F)),
    binary main_v49 main_v53 main_v54 (addf : (⟨S2097152, .f32⟩ : BufTy).Contents (Elt F) → (⟨S2097152, .f32⟩ : BufTy).Contents (Elt F) → (⟨S2097152, .f32⟩ : BufTy).Contents (Elt F)),
    nullary main_cst_4 (constant S_ .f32 0x461C4000#32),
    unary main_cst_4 main_v55 (broadcastInDim S2097152 ![] bcast_S_S2097152 : (⟨S_, .f32⟩ : BufTy).Contents (Elt F) → (⟨S2097152, .f32⟩ : BufTy).Contents (Elt F)),
    binary main_v45 main_v55 main_v56 (subf : (⟨S2097152, .f32⟩ : BufTy).Contents (Elt F) → (⟨S2097152, .f32⟩ : BufTy).Contents (Elt F) → (⟨S2097152, .f32⟩ : BufTy).Contents (Elt F)),
    nullary main_cst_5 (constant S_ .f32 0x461C4000#32),
    unary main_cst_5 main_v57 (broadcastInDim S2097152 ![] bcast_S_S2097152 : (⟨S_, .f32⟩ : BufTy).Contents (Elt F) → (⟨S2097152, .f32⟩ : BufTy).Contents (Elt F)),
    binary main_v37 main_v57 main_v58 (mulf : (⟨S2097152, .f32⟩ : BufTy).Contents (Elt F) → (⟨S2097152, .f32⟩ : BufTy).Contents (Elt F) → (⟨S2097152, .f32⟩ : BufTy).Contents (Elt F)),
    binary main_v47 main_v58 main_v59 (subf : (⟨S2097152, .f32⟩ : BufTy).Contents (Elt F) → (⟨S2097152, .f32⟩ : BufTy).Contents (Elt F) → (⟨S2097152, .f32⟩ : BufTy).Contents (Elt F)),
    unary main_v56 main_v60 (broadcastInDim S2097152x1 ![0] bcast_S2097152_S2097152x1_0 : (⟨S2097152, .f32⟩ : BufTy).Contents (Elt F) → (⟨S2097152x1, .f32⟩ : BufTy).Contents (Elt F)),
    unary main_v45 main_v61 (broadcastInDim S2097152x1 ![0] bcast_S2097152_S2097152x1_0 : (⟨S2097152, .f32⟩ : BufTy).Contents (Elt F) → (⟨S2097152x1, .f32⟩ : BufTy).Contents (Elt F)),
    unary main_v42 main_v62 (broadcastInDim S2097152x1 ![0] bcast_S2097152_S2097152x1_0 : (⟨S2097152, .f32⟩ : BufTy).Contents (Elt F) → (⟨S2097152x1, .f32⟩ : BufTy).Contents (Elt F)),
    unary main_v23 main_v63 (broadcastInDim S2097152x1 ![0] bcast_S2097152_S2097152x1_0 : (⟨S2097152, .f32⟩ : BufTy).Contents (Elt F) → (⟨S2097152x1, .f32⟩ : BufTy).Contents (Elt F)),
    unary main_v48 main_v64 (broadcastInDim S2097152x1 ![0] bcast_S2097152_S2097152x1_0 : (⟨S2097152, .f32⟩ : BufTy).Contents (Elt F) → (⟨S2097152x1, .f32⟩ : BufTy).Contents (Elt F)),
    unary main_v51 main_v65 (broadcastInDim S2097152x1 ![0] bcast_S2097152_S2097152x1_0 : (⟨S2097152, .f32⟩ : BufTy).Contents (Elt F) → (⟨S2097152x1, .f32⟩ : BufTy).Contents (Elt F)) ]

/-- Stages %66 … %72: the knot abscissae joined into one array, and the columns of the knot ordinates. -/
abbrev opsD : List (HloOp τ sig (Elt F)) :=
  [ nary ![main_v60, main_v61, main_v62, main_v63, main_v64, main_v65] main_v66 (fun u => concatenate S2097152x6 1 [⟨S2097152x1, u 0⟩, ⟨S2097152x1, u 1⟩, ⟨S2097152x1, u 2⟩, ⟨S2097152x1, u 3⟩, ⟨S2097152x1, u 4⟩, ⟨S2097152x1, u 5⟩] concatenates_S2097152x1_S2097152x1_S2097152x1_S2097152x1_S2097152x1_S2097152x1_S2097152x6_d1),
    unary main_v59 main_v67 (broadcastInDim S2097152x1 ![0] bcast_S2097152_S2097152x1_0 : (⟨S2097152, .f32⟩ : BufTy).Contents (Elt F) → (⟨S2097152x1, .f32⟩ : BufTy).Contents (Elt F)),
    unary main_v47 main_v68 (broadcastInDim S2097152x1 ![0] bcast_S2097152_S2097152x1_0 : (⟨S2097152, .f32⟩ : BufTy).Contents (Elt F) → (⟨S2097152x1, .f32⟩ : BufTy).Contents (Elt F)),
    unary main_v43 main_v69 (broadcastInDim S2097152x1 ![0] bcast_S2097152_S2097152x1_0 : (⟨S2097152, .f32⟩ : BufTy).Contents (Elt F) → (⟨S2097152x1, .f32⟩ : BufTy).Contents (Elt F)),
    unary main_v31 main_v70 (broadcastInDim S2097152x1 ![0] bcast_S2097152_S2097152x1_0 : (⟨S2097152, .f32⟩ : BufTy).Contents (Elt F) → (⟨S2097152x1, .f32⟩ : BufTy).Contents (Elt F)),
    unary main_v49 main_v71 (broadcastInDim S2097152x1 ![0] bcast_S2097152_S2097152x1_0 : (⟨S2097152, .f32⟩ : BufTy).Contents (Elt F) → (⟨S2097152x1, .f32⟩ : BufTy).Contents (Elt F)),
    unary main_v54 main_v72 (broadcastInDim S2097152x1 ![0] bcast_S2097152_S2097152x1_0 : (⟨S2097152, .f32⟩ : BufTy).Contents (Elt F) → (⟨S2097152x1, .f32⟩ : BufTy).Contents (Elt F)) ]

/-- Stages %73 … %105: the knot ordinates joined, the clamped query, the bin test, the interpolation on each bin, its sum over the bins as a column, and the first two columns of the scaled input. -/
abbrev opsE : List (HloOp τ sig (Elt F)) :=
  [ nary ![main_v67, main_v68, main_v69, main_v70, main_v71, main_v72] main_v73 (fun u => concatenate S2097152x6 1 [⟨S2097152x1, u 0⟩, ⟨S2097152x1, u 1⟩, ⟨S2097152x1, u 2⟩, ⟨S2097152x1, u 3⟩, ⟨S2097152x1, u 4⟩, ⟨S2097152x1, u 5⟩] concatenates_S2097152x1_S2097152x1_S2097152x1_S2097152x1_S2097152x1_S2097152x1_S2097152x6_d1),
    unary main_arg0 main_v74 ((extractStridedSlice S2097152x1 ![0, 2] · slices_S2097152x3_S2097152x1_0_2) : (⟨S2097152x3, .f32⟩ : BufTy).Contents (Elt F) → (⟨S2097152x1, .f32⟩ : BufTy).Contents (Elt F)),
    reshape main_v74 main_v75 rfl shapeCasts_S2097152x1_S2097152,
    unary main_v66 main_v76 ((extractStridedSlice S2097152x5 ![0, 0] · slices_S2097152x6_S2097152x5_0_0) : (⟨S2097152x6, .f32⟩ : BufTy).Contents (Elt F) → (⟨S2097152x5, .f32⟩ : BufTy).Contents (Elt F)),
    unary main_v66 main_v77 ((extractStridedSlice S2097152x5 ![0, 1] · slices_S2097152x6_S2097152x5_0_1) : (⟨S2097152x6, .f32⟩ : BufTy).Contents (Elt F) → (⟨S2097152x5, .f32⟩ : BufTy).Contents (Elt F)),
    unary main_v73 main_v78 ((extractStridedSlice S2097152x5 ![0, 0] · slices_S2097152x6_S2097152x5_0_0) : (⟨S2097152x6, .f32⟩ : BufTy).Contents (Elt F) → (⟨S2097152x5, .f32⟩ : BufTy).Contents (Elt F)),
    unary main_v73 main_v79 ((extractStridedSlice S2097152x5 ![0, 1] · slices_S2097152x6_S2097152x5_0_1) : (⟨S2097152x6, .f32⟩ : BufTy).Contents (Elt F) → (⟨S2097152x5, .f32⟩ : BufTy).Contents (Elt F)),
    unary main_v76 main_v80 ((extractStridedSlice S2097152x1 ![0, 0] · slices_S2097152x5_S2097152x1_0_0) : (⟨S2097152x5, .f32⟩ : BufTy).Contents (Elt F) → (⟨S2097152x1, .f32⟩ : BufTy).Contents (Elt F)),
    reshape main_v80 main_v81 rfl shapeCasts_S2097152x1_S2097152,
    nullary main_cst_6 (constant S_ .f32 0x3F7D70A4#32),
    unary main_cst_6 main_v82 (broadcastInDim S2097152 ![] bcast_S_S2097152 : (⟨S_, .f32⟩ : BufTy).Contents (Elt F) → (⟨S2097152, .f32⟩ : BufTy).Contents (Elt F)),
    binary main_v81 main_v82 main_v83 (mulf : (⟨S2097152, .f32⟩ : BufTy).Contents (Elt F) → (⟨S2097152, .f32⟩ : BufTy).Contents (Elt F) → (⟨S2097152, .f32⟩ : BufTy).Contents (Elt F)),
    unary main_v77 main_v84 ((extractStridedSlice S2097152x1 ![0, 4] · slices_S2097152x5_S2097152x1_0_4) : (⟨S2097152x5, .f32⟩ : BufTy).Contents (Elt F) → (⟨S2097152x1, .f32⟩ : BufTy).Contents (Elt F)),
    reshape main_v84 main_v85 rfl shapeCasts_S2097152x1_S2097152,
    nullary main_cst_7 (constant S_ .f32 0x3F7D70A4#32),
    unary main_cst_7 main_v86 (broadcastInDim S2097152 ![] bcast_S_S2097152 : (⟨S_, .f32⟩ : BufTy).Contents (Elt F) → (⟨S2097152, .f32⟩ : BufTy).Contents (Elt F)),
    binary main_v85 main_v86 main_v87 (mulf : (⟨S2097152, .f32⟩ : BufTy).Contents (Elt F) → (⟨S2097152, .f32⟩ : BufTy).Contents (Elt F) → (⟨S2097152, .f32⟩ : BufTy).Contents (Elt F)),
    TRef.binary (TRef.of (T := ⟨S2097152, .f32⟩) main_v83) (TRef.of (T := ⟨S2097152, .f32⟩) main_v75) (TRef.of (T := ⟨S2097152, .f32⟩) main_call2_v0) maximumf,
    TRef.binary (TRef.of (T := ⟨S2097152, .f32⟩) main_v87) (TRef.of (T := ⟨S2097152, .f32⟩) main_call2_v0) (TRef.of (T := ⟨S2097152, .f32⟩) main_v88) minimumf,
    unary main_v88 main_v89 (broadcastInDim S2097152x1 ![0] bcast_S2097152_S2097152x1_0 : (⟨S2097152, .f32⟩ : BufTy).Contents (Elt F) → (⟨S2097152x1, .f32⟩ : BufTy).Contents (Elt F)),
    unary main_v89 main_v90 (broadcastInDim S2097152x5 ![0, 1] bcast_S2097152x1_S2097152x5_0_1 : (⟨S2097152x1, .f32⟩ : BufTy).Contents (Elt F) → (⟨S2097152x5, .f32⟩ : BufTy).Contents (Elt F)),
    binary main_v90 main_v76 main_v91 (cmpf .oge : (⟨S2097152x5, .f32⟩ : BufTy).Contents (Elt F) → (⟨S2097152x5, .f32⟩ : BufTy).Contents (Elt F) → (⟨S2097152x5, .i1⟩ : BufTy).Contents (Elt F)),
    unary main_v89 main_v92 (broadcastInDim S2097152x5 ![0, 1] bcast_S2097152x1_S2097152x5_0_1 : (⟨S2097152x1, .f32⟩ : BufTy).Contents (Elt F) → (⟨S2097152x5, .f32⟩ : BufTy).Contents (Elt F)),
    binary main_v92 main_v77 main_v93 (cmpf .olt : (⟨S2097152x5, .f32⟩ : BufTy).Contents (Elt F) → (⟨S2097152x5, .f32⟩ : BufTy).Contents (Elt F) → (⟨S2097152x5, .i1⟩ : BufTy).Contents (Elt F)),
    binary main_v91 main_v93 main_v94 (andi : (⟨S2097152x5, .i1⟩ : BufTy).Contents (Elt F) → (⟨S2097152x5, .i1⟩ : BufTy).Contents (Elt F) → (⟨S2097152x5, .i1⟩ : BufTy).Contents (Elt F)),
    binary main_v79 main_v78 main_v95 (subf : (⟨S2097152x5, .f32⟩ : BufTy).Contents (Elt F) → (⟨S2097152x5, .f32⟩ : BufTy).Contents (Elt F) → (⟨S2097152x5, .f32⟩ : BufTy).Contents (Elt F)),
    binary main_v77 main_v76 main_v96 (subf : (⟨S2097152x5, .f32⟩ : BufTy).Contents (Elt F) → (⟨S2097152x5, .f32⟩ : BufTy).Contents (Elt F) → (⟨S2097152x5, .f32⟩ : BufTy).Contents (Elt F)),
    binary main_v95 main_v96 main_v97 (Host.divf : (⟨S2097152x5, .f32⟩ : BufTy).Contents (Elt F) → (⟨S2097152x5, .f32⟩ : BufTy).Contents (Elt F) → (⟨S2097152x5, .f32⟩ : BufTy).Contents (Elt F)),
    unary main_v89 main_v98 (broadcastInDim S2097152x5 ![0, 1] bcast_S2097152x1_S2097152x5_0_1 : (⟨S2097152x1, .f32⟩ : BufTy).Contents (Elt F) → (⟨S2097152x5, .f32⟩ : BufTy).Contents (Elt F)),
    binary main_v98 main_v76 main_v99 (subf : (⟨S2097152x5, .f32⟩ : BufTy).Contents (Elt F) → (⟨S2097152x5, .f32⟩ : BufTy).Contents (Elt F) → (⟨S2097152x5, .f32⟩ : BufTy).Contents (Elt F)),
    binary main_v97 main_v99 main_v100 (mulf : (⟨S2097152x5, .f32⟩ : BufTy).Contents (Elt F) → (⟨S2097152x5, .f32⟩ : BufTy).Contents (Elt F) → (⟨S2097152x5, .f32⟩ : BufTy).Contents (Elt F)),
    binary main_v100 main_v78 main_v101 (addf : (⟨S2097152x5, .f32⟩ : BufTy).Contents (Elt F) → (⟨S2097152x5, .f32⟩ : BufTy).Contents (Elt F) → (⟨S2097152x5, .f32⟩ : BufTy).Contents (Elt F)),
    nullary main_cst_8 (constant S_ .f32 0x00000000#32),
    TRef.unary (TRef.of (T := ⟨S_, .f32⟩) main_cst_8) (TRef.of (T := ⟨S_, .f32⟩) main_call3_v0) id,
    TRef.unary (TRef.of (T := ⟨S_, .f32⟩) main_call3_v0) (TRef.of (T := ⟨S2097152x5, .f32⟩) main_call3_v1) (broadcastInDim S2097152x5 ![] bcast_S_S2097152x5),
    TRef.ternary (TRef.of (T := ⟨S2097152x5, .i1⟩) main_v94) (TRef.of (T := ⟨S2097152x5, .f32⟩) main_v101) (TRef.of (T := ⟨S2097152x5, .f32⟩) main_call3_v1) (TRef.of (T := ⟨S2097152x5, .f32⟩) main_v102) select,
    nullary main_cst_9 (constant S_ .f32 0x00000000#32),
    binary main_v102 main_cst_9 main_v103 ((fun x v => Host.reduceAdd x v reducesTo_S2097152x5_S2097152_d1 h_S_) : (⟨S2097152x5, .f32⟩ : BufTy).Contents (Elt F) → (⟨S_, .f32⟩ : BufTy).Contents (Elt F) → (⟨S2097152, .f32⟩ : BufTy).Contents (Elt F)),
    unary main_v2 main_v104 ((extractStridedSlice S2097152x2 ![0, 0] · slices_S2097152x3_S2097152x2_0_0) : (⟨S2097152x3, .f32⟩ : BufTy).Contents (Elt F) → (⟨S2097152x2, .f32⟩ : BufTy).Contents (Elt F)),
    unary main_v103 main_v105 (broadcastInDim S2097152x1 ![0] bcast_S2097152_S2097152x1_0 : (⟨S2097152, .f32⟩ : BufTy).Contents (Elt F) → (⟨S2097152x1, .f32⟩ : BufTy).Contents (Elt F)) ]

/-- Stage %106: the first two scaled columns joined with the spline column. -/
abbrev opsF : List (HloOp τ sig (Elt F)) :=
  [ binary main_v104 main_v105 main_v106 ((fun a b => concatenate S2097152x3 1 [⟨S2097152x2, a⟩, ⟨S2097152x1, b⟩] concatenates_S2097152x2_S2097152x1_S2097152x3_d1) : (⟨S2097152x2, .f32⟩ : BufTy).Contents (Elt F) → (⟨S2097152x1, .f32⟩ : BufTy).Contents (Elt F) → (⟨S2097152x3, .f32⟩ : BufTy).Contents (Elt F)) ]

/-- The operations of @main are the six stretches in a row. -/
theorem ops_cut : (ops : List (HloOp τ sig (Elt F))) = opsA ++ (opsB ++ (opsC ++ (opsD ++ (opsE ++ opsF)))) := rfl

/-! ## What a stretch leaves alone -/

/-- An operation whose one written buffer is in a list writes inside the list's buffers. -/
theorem writes_sub {op : HloOp τ sig (Elt F)} {y : Ref sig .tc} {L : List (Ref sig .tc)}
    (h : op.writes = {Proc.devRef .tc y}) (hy : y ∈ L) : op.writes ⊆ (L.map (Proc.devRef (τ := τ) .tc)).toFinset := by
  rw [h, Finset.singleton_subset_iff, List.mem_toFinset]; exact List.mem_map_of_mem hy

variable (W : Valuation τ sig (Elt F))
  (x0 : (⟨S2097152x3, .f32⟩ : BufTy).Contents (Elt F)) (x1 : (⟨S2097152x16, .f32⟩ : BufTy).Contents (Elt F))
  (x2 : (⟨S3, .f32⟩ : BufTy).Contents (Elt F)) (x3 : (⟨S18x64, .f32⟩ : BufTy).Contents (Elt F))
  (x4 : (⟨S64, .f32⟩ : BufTy).Contents (Elt F)) (x5 : (⟨S64x10, .f32⟩ : BufTy).Contents (Elt F))
  (x6 : (⟨S10, .f32⟩ : BufTy).Contents (Elt F))

/-- The buffers stretch A writes. -/
abbrev wrA : List (Ref sig .tc) := [main_v0, main_v1, main_v2, main_v3, main_v4]
set_option maxRecDepth 8192 in
theorem opsA_writes : (opsA : List (HloOp τ sig (Elt F))).Forall fun op => op.writes ⊆ (wrA.map (Proc.devRef (τ := τ) .tc)).toFinset :=
  ⟨writes_sub rfl (by decide), writes_sub rfl (by decide), writes_sub rfl (by decide), writes_sub rfl (by decide), writes_sub rfl (by decide)⟩
/-- A buffer stretch A does not write keeps its contents through it. -/
theorem keepA (r : Ref sig .tc) (h : r ∉ wrA) : after (opsA (F := F)) W (Proc.devRef .tc r) = W (Proc.devRef .tc r) :=
  after_of_writes_sub opsA W opsA_writes h

/-- The buffers stretch B writes. -/
abbrev wrB : List (Ref sig .tc) := [main_v5, main_v6, main_v7, main_v8, main_v9, main_call0_cst, main_call0_v0, main_v10, main_v11, main_v12, main_v13, main_v14, main_call1_cst, main_call1_v0, main_call1_v1, main_call1_v2, main_call1_v3, main_call1_v4, main_call1_v5, main_call1_v6, main_call1_v7, main_call1_v8, main_call1_v9, main_call1_v10, main_call1_v11, main_v15, main_cst, main_v16, main_v17]
set_option maxRecDepth 8192 in
theorem opsB_writes : (opsB : List (HloOp τ sig (Elt F))).Forall fun op => op.writes ⊆ (wrB.map (Proc.devRef (τ := τ) .tc)).toFinset :=
  ⟨writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide)⟩
/-- A buffer stretch B does not write keeps its contents through it. -/
theorem keepB (r : Ref sig .tc) (h : r ∉ wrB) : after (opsB (F := F)) W (Proc.devRef .tc r) = W (Proc.devRef .tc r) :=
  after_of_writes_sub opsB W opsB_writes h

/-- The buffers stretch C writes. -/
abbrev wrC : List (Ref sig .tc) := [main_v18, main_v19, main_v20, main_v21, main_v22, main_v23, main_v24, main_v25, main_v26, main_v27, main_v28, main_v29, main_v30, main_v31, main_v32, main_v33, main_v34, main_v35, main_cst_0, main_v36, main_v37, main_v38, main_v39, main_cst_1, main_v40, main_v41, main_v42, main_v43, main_v44, main_v45, main_v46, main_v47, main_v48, main_v49, main_cst_2, main_v50, main_v51, main_cst_3, main_v52, main_v53, main_v54, main_cst_4, main_v55, main_v56, main_cst_5, main_v57, main_v58, main_v59, main_v60, main_v61, main_v62, main_v63, main_v64, main_v65]
set_option maxRecDepth 8192 in
theorem opsC_writes : (opsC : List (HloOp τ sig (Elt F))).Forall fun op => op.writes ⊆ (wrC.map (Proc.devRef (τ := τ) .tc)).toFinset :=
  ⟨writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide)⟩
/-- A buffer stretch C does not write keeps its contents through it. -/
theorem keepC (r : Ref sig .tc) (h : r ∉ wrC) : after (opsC (F := F)) W (Proc.devRef .tc r) = W (Proc.devRef .tc r) :=
  after_of_writes_sub opsC W opsC_writes h

/-- The buffers stretch D writes. -/
abbrev wrD : List (Ref sig .tc) := [main_v66, main_v67, main_v68, main_v69, main_v70, main_v71, main_v72]
set_option maxRecDepth 8192 in
theorem opsD_writes : (opsD : List (HloOp τ sig (Elt F))).Forall fun op => op.writes ⊆ (wrD.map (Proc.devRef (τ := τ) .tc)).toFinset :=
  ⟨writes_sub rfl (by decide), writes_sub rfl (by decide), writes_sub rfl (by decide), writes_sub rfl (by decide), writes_sub rfl (by decide), writes_sub rfl (by decide), writes_sub rfl (by decide)⟩
/-- A buffer stretch D does not write keeps its contents through it. -/
theorem keepD (r : Ref sig .tc) (h : r ∉ wrD) : after (opsD (F := F)) W (Proc.devRef .tc r) = W (Proc.devRef .tc r) :=
  after_of_writes_sub opsD W opsD_writes h

/-- The buffers stretch E writes. -/
abbrev wrE : List (Ref sig .tc) := [main_v73, main_v74, main_v75, main_v76, main_v77, main_v78, main_v79, main_v80, main_v81, main_cst_6, main_v82, main_v83, main_v84, main_v85, main_cst_7, main_v86, main_v87, main_call2_v0, main_v88, main_v89, main_v90, main_v91, main_v92, main_v93, main_v94, main_v95, main_v96, main_v97, main_v98, main_v99, main_v100, main_v101, main_cst_8, main_call3_v0, main_call3_v1, main_v102, main_cst_9, main_v103, main_v104, main_v105]
set_option maxRecDepth 8192 in
theorem opsE_writes : (opsE : List (HloOp τ sig (Elt F))).Forall fun op => op.writes ⊆ (wrE.map (Proc.devRef (τ := τ) .tc)).toFinset :=
  ⟨writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide)⟩
/-- A buffer stretch E does not write keeps its contents through it. -/
theorem keepE (r : Ref sig .tc) (h : r ∉ wrE) : after (opsE (F := F)) W (Proc.devRef .tc r) = W (Proc.devRef .tc r) :=
  after_of_writes_sub opsE W opsE_writes h

/-- The buffers stretch F writes. -/
abbrev wrF : List (Ref sig .tc) := [main_v106]
set_option maxRecDepth 8192 in
theorem opsF_writes : (opsF : List (HloOp τ sig (Elt F))).Forall fun op => op.writes ⊆ (wrF.map (Proc.devRef (τ := τ) .tc)).toFinset :=
  writes_sub rfl (by decide)
/-- A buffer stretch F does not write keeps its contents through it. -/
theorem keepF (r : Ref sig .tc) (h : r ∉ wrF) : after (opsF (F := F)) W (Proc.devRef .tc r) = W (Proc.devRef .tc r) :=
  after_of_writes_sub opsF W opsF_writes h

/-! ## The live stages at each cut

`W` is what the buffers hold at the cut, `x0 … x6` the seven arguments. Each conjunct says that one buffer a later
stretch reads holds its stage of the arguments. -/

/-- At launch: the seven arguments. -/
abbrev At0 : Prop :=
  W (Proc.devRef .tc main_arg0) = x0
  ∧ W (Proc.devRef .tc main_arg1) = x1
  ∧ W (Proc.devRef .tc main_arg2) = x2
  ∧ W (Proc.devRef .tc main_arg3) = x3
  ∧ W (Proc.devRef .tc main_arg4) = x4
  ∧ W (Proc.devRef .tc main_arg5) = x5
  ∧ W (Proc.devRef .tc main_arg6) = x6

/-- In front of stage %5: the hyperbolic tangent columns, the scaled input, and the arguments still to be read. -/
abbrev At5 : Prop :=
  W (Proc.devRef .tc main_v4) = val_main_v4 (F := F) x0
  ∧ W (Proc.devRef .tc main_v2) = val_main_v2 (F := F) x0 x2
  ∧ W (Proc.devRef .tc main_arg0) = x0
  ∧ W (Proc.devRef .tc main_arg1) = x1
  ∧ W (Proc.devRef .tc main_arg3) = x3
  ∧ W (Proc.devRef .tc main_arg4) = x4
  ∧ W (Proc.devRef .tc main_arg5) = x5
  ∧ W (Proc.devRef .tc main_arg6) = x6

/-- In front of stage %18: the parameter row, the scaled input, the input. -/
abbrev At34 : Prop :=
  W (Proc.devRef .tc main_v17) = val_main_v17 (F := F) x0 x1 x3 x4 x5 x6
  ∧ W (Proc.devRef .tc main_v2) = val_main_v2 (F := F) x0 x2
  ∧ W (Proc.devRef .tc main_arg0) = x0

/-- In front of stage %66: the six knot abscissae as columns, the six knot ordinates, the scaled input, the input. -/
abbrev At88 : Prop :=
  W (Proc.devRef .tc main_v60) = val_main_v60 (F := F) x0 x1 x3 x4 x5 x6
  ∧ W (Proc.devRef .tc main_v61) = val_main_v61 (F := F) x0 x1 x3 x4 x5 x6
  ∧ W (Proc.devRef .tc main_v62) = val_main_v62 (F := F) x0 x1 x3 x4 x5 x6
  ∧ W (Proc.devRef .tc main_v63) = val_main_v63 (F := F) x0 x1 x3 x4 x5 x6
  ∧ W (Proc.devRef .tc main_v64) = val_main_v64 (F := F) x0 x1 x3 x4 x5 x6
  ∧ W (Proc.devRef .tc main_v65) = val_main_v65 (F := F) x0 x1 x3 x4 x5 x6
  ∧ W (Proc.devRef .tc main_v59) = val_main_v59 (F := F) x0 x1 x3 x4 x5 x6
  ∧ W (Proc.devRef .tc main_v47) = val_main_v47 (F := F) x0 x1 x3 x4 x5 x6
  ∧ W (Proc.devRef .tc main_v43) = val_main_v43 (F := F) x0 x1 x3 x4 x5 x6
  ∧ W (Proc.devRef .tc main_v31) = val_main_v31 (F := F) x0 x1 x3 x4 x5 x6
  ∧ W (Proc.devRef .tc main_v49) = val_main_v49 (F := F) x0 x1 x3 x4 x5 x6
  ∧ W (Proc.devRef .tc main_v54) = val_main_v54 (F := F) x0 x1 x3 x4 x5 x6
  ∧ W (Proc.devRef .tc main_v2) = val_main_v2 (F := F) x0 x2
  ∧ W (Proc.devRef .tc main_arg0) = x0

/-- In front of stage %73: the joined knot abscissae, the six knot ordinates as columns, the scaled input, the input. -/
abbrev At95 : Prop :=
  W (Proc.devRef .tc main_v66) = val_main_v66 (F := F) x0 x1 x3 x4 x5 x6
  ∧ W (Proc.devRef .tc main_v67) = val_main_v67 (F := F) x0 x1 x3 x4 x5 x6
  ∧ W (Proc.devRef .tc main_v68) = val_main_v68 (F := F) x0 x1 x3 x4 x5 x6
  ∧ W (Proc.devRef .tc main_v69) = val_main_v69 (F := F) x0 x1 x3 x4 x5 x6
  ∧ W (Proc.devRef .tc main_v70) = val_main_v70 (F := F) x0 x1 x3 x4 x5 x6
  ∧ W (Proc.devRef .tc main_v71) = val_main_v71 (F := F) x0 x1 x3 x4 x5 x6
  ∧ W (Proc.devRef .tc main_v72) = val_main_v72 (F := F) x0 x1 x3 x4 x5 x6
  ∧ W (Proc.devRef .tc main_v2) = val_main_v2 (F := F) x0 x2
  ∧ W (Proc.devRef .tc main_arg0) = x0

/-- In front of stage %106: the first two scaled columns and the spline column. -/
abbrev At135 : Prop :=
  W (Proc.devRef .tc main_v104) = val_main_v104 (F := F) x0 x2
  ∧ W (Proc.devRef .tc main_v105) = val_main_v105 (F := F) x0 x1 x3 x4 x5 x6

/-! ## Each stretch carries the cut in front of it to the cut behind it -/

theorem stepA (h : At0 W x0 x1 x2 x3 x4 x5 x6) : At5 (after (opsA (F := F)) W) x0 x1 x2 x3 x4 x5 x6 := by
  obtain ⟨a0, a1, a2, a3, a4, a5, a6⟩ := h
  refine ⟨?_, ?_, (keepA W main_arg0 (by decide)).trans a0, (keepA W main_arg1 (by decide)).trans a1,
    (keepA W main_arg3 (by decide)).trans a3, (keepA W main_arg4 (by decide)).trans a4,
    (keepA W main_arg5 (by decide)).trans a5, (keepA W main_arg6 (by decide)).trans a6⟩
  · after_results_simp; rw [a0]; rfl
  · after_results_simp; rw [a0, a2]; rfl

set_option maxHeartbeats 2000000 in
theorem stepB (h : At5 W x0 x1 x2 x3 x4 x5 x6) : At34 (after (opsB (F := F)) W) x0 x1 x2 x3 x4 x5 x6 := by
  obtain ⟨h4, h2, a0, a1, a3, a4, a5, a6⟩ := h
  refine ⟨?_, (keepB W main_v2 (by decide)).trans h2, (keepB W main_arg0 (by decide)).trans a0⟩
  after_results_simp
  rw [h4, a1, a3, a4, a5, a6]
  rfl

set_option maxHeartbeats 8000000 in
theorem stepC (h : At34 W x0 x1 x2 x3 x4 x5 x6) : At88 (after (opsC (F := F)) W) x0 x1 x2 x3 x4 x5 x6 := by
  obtain ⟨h17, h2, a0⟩ := h
  refine ⟨?_, ?_, ?_, ?_, ?_, ?_, ?_, ?_, ?_, ?_, ?_, ?_, (keepC W main_v2 (by decide)).trans h2, (keepC W main_arg0 (by decide)).trans a0⟩
  all_goals (after_results_simp; rw [h17]; rfl)

-- the concatenation reads its six operands through the family of their references at the literal positions 0 … 5:
-- the facts about the operands are restated at those positions (the same buffers)
set_option maxHeartbeats 2000000 in
theorem stepD (h : At88 W x0 x1 x2 x3 x4 x5 x6) : At95 (after (opsD (F := F)) W) x0 x1 x2 x3 x4 x5 x6 := by
  obtain ⟨h60, h61, h62, h63, h64, h65, h59, h47, h43, h31, h49, h54, h2, a0⟩ := h
  have e0 : W (Proc.devRef .tc ((![main_v60, main_v61, main_v62, main_v63, main_v64, main_v65] : Fin 6 → Ref sig .tc) 0)) = val_main_v60 (F := F) x0 x1 x3 x4 x5 x6 := h60
  have e1 : W (Proc.devRef .tc ((![main_v60, main_v61, main_v62, main_v63, main_v64, main_v65] : Fin 6 → Ref sig .tc) 1)) = val_main_v61 (F := F) x0 x1 x3 x4 x5 x6 := h61
  have e2 : W (Proc.devRef .tc ((![main_v60, main_v61, main_v62, main_v63, main_v64, main_v65] : Fin 6 → Ref sig .tc) 2)) = val_main_v62 (F := F) x0 x1 x3 x4 x5 x6 := h62
  have e3 : W (Proc.devRef .tc ((![main_v60, main_v61, main_v62, main_v63, main_v64, main_v65] : Fin 6 → Ref sig .tc) 3)) = val_main_v63 (F := F) x0 x1 x3 x4 x5 x6 := h63
  have e4 : W (Proc.devRef .tc ((![main_v60, main_v61, main_v62, main_v63, main_v64, main_v65] : Fin 6 → Ref sig .tc) 4)) = val_main_v64 (F := F) x0 x1 x3 x4 x5 x6 := h64
  have e5 : W (Proc.devRef .tc ((![main_v60, main_v61, main_v62, main_v63, main_v64, main_v65] : Fin 6 → Ref sig .tc) 5)) = val_main_v65 (F := F) x0 x1 x3 x4 x5 x6 := h65
  refine ⟨?_, ?_, ?_, ?_, ?_, ?_, ?_, (keepD W main_v2 (by decide)).trans h2, (keepD W main_arg0 (by decide)).trans a0⟩
  · after_results_simp; rw [e0, e1, e2, e3, e4, e5]; rfl
  · after_results_simp; rw [h59]; rfl
  · after_results_simp; rw [h47]; rfl
  · after_results_simp; rw [h43]; rfl
  · after_results_simp; rw [h31]; rfl
  · after_results_simp; rw [h49]; rfl
  · after_results_simp; rw [h54]; rfl

-- as in `stepD`, for the concatenation of the knot ordinates
set_option maxHeartbeats 4000000 in
theorem stepE (h : At95 W x0 x1 x2 x3 x4 x5 x6) : At135 (after (opsE (F := F)) W) x0 x1 x2 x3 x4 x5 x6 := by
  obtain ⟨h66, h67, h68, h69, h70, h71, h72, h2, a0⟩ := h
  have e0 : W (Proc.devRef .tc ((![main_v67, main_v68, main_v69, main_v70, main_v71, main_v72] : Fin 6 → Ref sig .tc) 0)) = val_main_v67 (F := F) x0 x1 x3 x4 x5 x6 := h67
  have e1 : W (Proc.devRef .tc ((![main_v67, main_v68, main_v69, main_v70, main_v71, main_v72] : Fin 6 → Ref sig .tc) 1)) = val_main_v68 (F := F) x0 x1 x3 x4 x5 x6 := h68
  have e2 : W (Proc.devRef .tc ((![main_v67, main_v68, main_v69, main_v70, main_v71, main_v72] : Fin 6 → Ref sig .tc) 2)) = val_main_v69 (F := F) x0 x1 x3 x4 x5 x6 := h69
  have e3 : W (Proc.devRef .tc ((![main_v67, main_v68, main_v69, main_v70, main_v71, main_v72] : Fin 6 → Ref sig .tc) 3)) = val_main_v70 (F := F) x0 x1 x3 x4 x5 x6 := h70
  have e4 : W (Proc.devRef .tc ((![main_v67, main_v68, main_v69, main_v70, main_v71, main_v72] : Fin 6 → Ref sig .tc) 4)) = val_main_v71 (F := F) x0 x1 x3 x4 x5 x6 := h71
  have e5 : W (Proc.devRef .tc ((![main_v67, main_v68, main_v69, main_v70, main_v71, main_v72] : Fin 6 → Ref sig .tc) 5)) = val_main_v72 (F := F) x0 x1 x3 x4 x5 x6 := h72
  refine ⟨?_, ?_⟩
  · after_results_simp; rw [h2]; rfl
  · after_results_simp
    rw [e0, e1, e2, e3, e4, e5, h66, a0]
    rfl

theorem stepF (h : At135 W x0 x1 x2 x3 x4 x5 x6) :
    after (opsF (F := F)) W (Proc.devRef .tc main_v106) = val_main_v106 (F := F) x0 x1 x2 x3 x4 x5 x6 := by
  obtain ⟨h104, h105⟩ := h
  after_results_simp
  rw [h104, h105]
  rfl

/-! ## The whole line -/

/-- The result buffer after all of @main's operations, from any contents that hold the arguments: the last stage. -/
theorem value (h : At0 W x0 x1 x2 x3 x4 x5 x6) :
    after (ops (F := F)) W (Proc.devRef .tc main_v106) = val_main_v106 (F := F) x0 x1 x2 x3 x4 x5 x6 := by
  rw [ops_cut, after_append, after_append, after_append, after_append, after_append]
  exact stepF _ x0 x1 x2 x3 x4 x5 x6 (stepE _ x0 x1 x2 x3 x4 x5 x6 (stepD _ x0 x1 x2 x3 x4 x5 x6 (stepC _ x0 x1 x2 x3 x4 x5 x6 (stepB _ x0 x1 x2 x3 x4 x5 x6 (stepA _ x0 x1 x2 x3 x4 x5 x6 h)))))

/-- A buffer none of the six stretches writes keeps its contents through all of @main's operations. -/
theorem keep (r : Ref sig .tc) (hA : r ∉ wrA) (hB : r ∉ wrB) (hC : r ∉ wrC) (hD : r ∉ wrD) (hE : r ∉ wrE) (hF : r ∉ wrF) :
    after (ops (F := F)) W (Proc.devRef .tc r) = W (Proc.devRef .tc r) := by
  rw [ops_cut, after_append, after_append, after_append, after_append, after_append,
    keepF _ r hF, keepE _ r hE, keepD _ r hD, keepC _ r hC, keepB _ r hB, keepA _ r hA]

end Stages

/-- Every weakly fair execution of the reference's @main terminates with the result at the last stage of the argument
    arrays and the arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v106) = Cert.ReferenceIdeal.RefRead.val_main_v106 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  exact (θ_run defs _ _).mono (fun _ h c =>
      ⟨(h c main_v106).trans (value _ _ _ _ _ _ _ _ ⟨rfl, rfl, rfl, rfl, rfl, rfl, rfl⟩),
        (h c main_arg0).trans (keep _ main_arg0 (by decide) (by decide) (by decide) (by decide) (by decide) (by decide)),
        (h c main_arg1).trans (keep _ main_arg1 (by decide) (by decide) (by decide) (by decide) (by decide) (by decide)),
        (h c main_arg2).trans (keep _ main_arg2 (by decide) (by decide) (by decide) (by decide) (by decide) (by decide)),
        (h c main_arg3).trans (keep _ main_arg3 (by decide) (by decide) (by decide) (by decide) (by decide) (by decide)),
        (h c main_arg4).trans (keep _ main_arg4 (by decide) (by decide) (by decide) (by decide) (by decide) (by decide)),
        (h c main_arg5).trans (keep _ main_arg5 (by decide) (by decide) (by decide) (by decide) (by decide) (by decide)),
        (h c main_arg6).trans (keep _ main_arg6 (by decide) (by decide) (by decide) (by decide) (by decide) (by decide))⟩)
    (run_seq scopedRefs_eq scopedSems_eq defs main (fun _ => ops) main_eq (fun _ => ops_sub) m ρ)

end Cert.ReferenceIdeal.HostRun

end
-- ==== Proof.RefMlp.lean ====
/-
  The reference's perceptron at one row: entry (n, i) of its array of parameters depends only on row n of the two
  per-row arguments and on the weights, and is the row map's parameter i.
-/
import proofs.«130953_j79164837200472_1_alg».proof.Proof.RefRead
import proofs.«130953_j79164837200472_1_alg».proof.Proof.Spline
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.ValueIdx Cert.ReferenceIdeal Cert.ReferenceIdeal.RefRead

namespace Cert.ReferenceIdeal.Row

/-- Entry (n, c) of the tanh of the two sliced conditioning channels is the tanh of entry (n, c) of the three-column
    array. -/
theorem tanh_apply (x0 : (⟨S2097152x3, .f32⟩ : BufTy).Contents (Elt Ideal)) (n : Fin 2097152) (c : Fin 2) :
    val_main_v4 (F := Ideal) x0 (ix2 n c) = Ideal.tanh (x0 (ix2 n ⟨c.val, by omega⟩)) := by
  rw [val_main_v4_apply, val_main_v3_apply, Ideal.hostUnary_tanh_def]
  refine congrArg (fun j => Ideal.tanh (x0 j)) ?_
  exact funext fun a => Fin.ext (by match a with | ⟨0, _⟩ => rfl | ⟨1, _⟩ => rfl)

/-- Entry (n, k) of the joined array of eighteen inputs is the row map's input k. -/
theorem feat_apply (x0 : (⟨S2097152x3, .f32⟩ : BufTy).Contents (Elt Ideal)) (x1 : (⟨S2097152x16, .f32⟩ : BufTy).Contents (Elt Ideal))
    (n : Fin 2097152) (k : Fin 18) :
    val_main_v5 (F := Ideal) x0 x1 (ix2 n k)
      = Cert.Spline.feat (fun c => x0 (ix2 n c)) (fun k => x1 (ix2 n k)) k := by
  unfold val_main_v5 Cert.Spline.feat
  by_cases h : k.val < 2
  · rw [dif_pos h]
    refine (concatenate_pair_apply_left (1 : Fin S2097152x18.rank) (val_main_v4 (F := Ideal) x0) x1
      _ (ix2 n k) rfl (ix2 n ⟨k.val, h⟩)
      (fun b => by match b with | ⟨0, _⟩ => rfl | ⟨1, _⟩ => rfl)).trans ?_
    exact tanh_apply x0 n ⟨k.val, h⟩
  · rw [dif_neg h]
    exact concatenate_pair_apply_right (1 : Fin S2097152x18.rank) (val_main_v4 (F := Ideal) x0) x1
      _ (ix2 n k) rfl rfl (ix2 n ⟨k.val - 2, by omega⟩)
      (fun b hb => by match b with | ⟨0, _⟩ => rfl | ⟨1, _⟩ => exact absurd rfl hb)
      (by show (k.val - 2) + 2 = k.val; omega)

/-- Entry (n, j) of the rectified first layer is the row map's hidden unit j. -/
theorem hidden_apply (x0 : (⟨S2097152x3, .f32⟩ : BufTy).Contents (Elt Ideal)) (x1 : (⟨S2097152x16, .f32⟩ : BufTy).Contents (Elt Ideal))
    (x3 : (⟨S18x64, .f32⟩ : BufTy).Contents (Elt Ideal)) (x4 : (⟨S64, .f32⟩ : BufTy).Contents (Elt Ideal))
    (n : Fin 2097152) (j : Fin 64) :
    val_main_v10 (F := Ideal) x0 x1 x3 x4 (ix2 n j)
      = Cert.Spline.hidden (fun c => x0 (ix2 n c)) (fun k => x1 (ix2 n k)) (fun k j => x3 (ix2 k j)) (fun j => x4 (ix1 j)) j := by
  rw [val_main_v10_apply, val_main_v9_apply, val_main_v6_apply, val_main_v8_apply, val_main_v7_apply,
    val_main_call0_v0_apply, val_main_call0_cst_apply]
  rw [Ideal.maximumf_def, Ideal.addf_def, Ideal.ofBits_def]
  unfold Cert.Spline.hidden
  have e7 : idx_main_v7 (idx_main_v8 (ix2 n j)) = ix1 j :=
    funext fun a => Fin.ext (by match a with | ⟨0, _⟩ => rfl)
  rw [e7]
  refine congrArg (fun s => max (s + x4 (ix1 j)) Cert.Spline.zero) ?_
  refine Finset.sum_congr rfl fun k _ => ?_
  have el : lidx_main_v6 (ix2 n j) k = ix2 n k :=
    funext fun a => Fin.ext (by match a with | ⟨0, _⟩ => rfl | ⟨1, _⟩ => rfl)
  have er : ridx_main_v6 (ix2 n j) k = ix2 k j :=
    funext fun a => Fin.ext (by match a with | ⟨0, _⟩ => rfl | ⟨1, _⟩ => rfl)
  rw [el, er, feat_apply]

/-- Entry (n, i) of the second layer before its softplus is the row map's pre-activation i. -/
theorem pre_apply (x0 : (⟨S2097152x3, .f32⟩ : BufTy).Contents (Elt Ideal)) (x1 : (⟨S2097152x16, .f32⟩ : BufTy).Contents (Elt Ideal))
    (x3 : (⟨S18x64, .f32⟩ : BufTy).Contents (Elt Ideal)) (x4 : (⟨S64, .f32⟩ : BufTy).Contents (Elt Ideal))
    (x5 : (⟨S64x10, .f32⟩ : BufTy).Contents (Elt Ideal)) (x6 : (⟨S10, .f32⟩ : BufTy).Contents (Elt Ideal))
    (n : Fin 2097152) (i : Fin 10) :
    val_main_v14 (F := Ideal) x0 x1 x3 x4 x5 x6 (ix2 n i)
      = Cert.Spline.pre (fun c => x0 (ix2 n c)) (fun k => x1 (ix2 n k)) (fun k j => x3 (ix2 k j)) (fun j => x4 (ix1 j))
          (fun j r => x5 (ix2 j r)) (fun r => x6 (ix1 r)) i := by
  rw [val_main_v14_apply, val_main_v11_apply, val_main_v13_apply, val_main_v12_apply]
  rw [Ideal.addf_def]
  unfold Cert.Spline.pre
  have e12 : idx_main_v12 (idx_main_v13 (ix2 n i)) = ix1 i :=
    funext fun a => Fin.ext (by match a with | ⟨0, _⟩ => rfl)
  rw [e12]
  refine congrArg (fun s => s + x6 (ix1 i)) ?_
  refine Finset.sum_congr rfl fun j _ => ?_
  have el : lidx_main_v11 (ix2 n i) j = ix2 n j :=
    funext fun a => Fin.ext (by match a with | ⟨0, _⟩ => rfl | ⟨1, _⟩ => rfl)
  have er : ridx_main_v11 (ix2 n i) j = ix2 j i :=
    funext fun a => Fin.ext (by match a with | ⟨0, _⟩ => rfl | ⟨1, _⟩ => rfl)
  rw [el, er, hidden_apply]

/-- The softplus stage at one entry, as a function of the second layer's entry alone: the test for an undefined
    difference fails on the extended reals, so the select keeps its second branch. -/
theorem softplus_apply (x0 : (⟨S2097152x3, .f32⟩ : BufTy).Contents (Elt Ideal)) (x1 : (⟨S2097152x16, .f32⟩ : BufTy).Contents (Elt Ideal))
    (x3 : (⟨S18x64, .f32⟩ : BufTy).Contents (Elt Ideal)) (x4 : (⟨S64, .f32⟩ : BufTy).Contents (Elt Ideal))
    (x5 : (⟨S64x10, .f32⟩ : BufTy).Contents (Elt Ideal)) (x6 : (⟨S10, .f32⟩ : BufTy).Contents (Elt Ideal))
    (n : Fin 2097152) (i : Fin 10) :
    val_main_v15 (F := Ideal) x0 x1 x3 x4 x5 x6 (ix2 n i)
      = Cert.Spline.softplus (val_main_v14 (F := Ideal) x0 x1 x3 x4 x5 x6 (ix2 n i)) := by
  rw [val_main_v15_apply, val_main_call1_v4_apply, Ideal.cmpf_def, Cert.Spline.cmp_une_self, select_zero]
  rw [val_main_call1_v11_apply, val_main_call1_v1_apply, val_main_call1_v10_apply, val_main_call1_v9_apply,
    val_main_call1_v8_apply, val_main_call1_v7_apply, val_main_call1_v3_apply, val_main_call1_v0_apply,
    val_main_call1_v2_apply, val_main_call1_cst_apply]
  rw [Ideal.hostUnary_log1p_def, Ideal.hostUnary_exp_def, Ideal.hostNegf_def, Ideal.hostAbsf_def, Ideal.absf_def,
    Ideal.negf_def, Ideal.subf_def, Ideal.maximumf_def, Ideal.addf_def, Ideal.ofBits_def]
  rfl

/-- Entry (n, i) of the reference's parameter array (the second layer's softplus plus the small constant) is the row
    map's parameter i of row n. -/
theorem param_apply (x0 : (⟨S2097152x3, .f32⟩ : BufTy).Contents (Elt Ideal)) (x1 : (⟨S2097152x16, .f32⟩ : BufTy).Contents (Elt Ideal)) (x3 : (⟨S18x64, .f32⟩ : BufTy).Contents (Elt Ideal)) (x4 : (⟨S64, .f32⟩ : BufTy).Contents (Elt Ideal)) (x5 : (⟨S64x10, .f32⟩ : BufTy).Contents (Elt Ideal)) (x6 : (⟨S10, .f32⟩ : BufTy).Contents (Elt Ideal))
    (n : Fin 2097152) (i : Fin 10) :
    val_main_v17 (F := Ideal) x0 x1 x3 x4 x5 x6 (ix2 n i)
      = Cert.Spline.param (fun c => x0 (ix2 n c)) (fun k => x1 (ix2 n k)) (fun k j => x3 (ix2 k j)) (fun j => x4 (ix1 j))
          (fun j r => x5 (ix2 j r)) (fun r => x6 (ix1 r)) i := by
  rw [val_main_v17_apply, val_main_v16_apply, val_main_cst_apply, softplus_apply, pre_apply]
  rw [Ideal.addf_def, Ideal.ofBits_def]
  rfl

end Cert.ReferenceIdeal.Row

end
-- ==== Proof.RefSpline.lean ====
/-
  The reference's spline at one row, over its array of parameters left unopened: entry (n, c) of the result is the
  masked channel for c < 2 and, for c = 2, the interpolation over the six knots built from row n of the parameters.
-/
import proofs.«130953_j79164837200472_1_alg».proof.Proof.RefRead
import proofs.«130953_j79164837200472_1_alg».proof.Proof.Spline
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.ValueIdx Cert.ReferenceIdeal Cert.ReferenceIdeal.RefRead

namespace Cert.ReferenceIdeal.Row

/-- Row n of the reference's parameter array. -/
abbrev prow (x0 : (⟨S2097152x3, .f32⟩ : BufTy).Contents (Elt Ideal)) (x1 : (⟨S2097152x16, .f32⟩ : BufTy).Contents (Elt Ideal)) (x3 : (⟨S18x64, .f32⟩ : BufTy).Contents (Elt Ideal)) (x4 : (⟨S64, .f32⟩ : BufTy).Contents (Elt Ideal)) (x5 : (⟨S64x10, .f32⟩ : BufTy).Contents (Elt Ideal)) (x6 : (⟨S10, .f32⟩ : BufTy).Contents (Elt Ideal))
    (n : Fin 2097152) : Fin 10 → EReal :=
  fun i => val_main_v17 (F := Ideal) x0 x1 x3 x4 x5 x6 (ix2 n i)

variable (x0 : (⟨S2097152x3, .f32⟩ : BufTy).Contents (Elt Ideal)) (x1 : (⟨S2097152x16, .f32⟩ : BufTy).Contents (Elt Ideal)) (x2 : (⟨S3, .f32⟩ : BufTy).Contents (Elt Ideal)) (x3 : (⟨S18x64, .f32⟩ : BufTy).Contents (Elt Ideal)) (x4 : (⟨S64, .f32⟩ : BufTy).Contents (Elt Ideal)) (x5 : (⟨S64x10, .f32⟩ : BufTy).Contents (Elt Ideal)) (x6 : (⟨S10, .f32⟩ : BufTy).Contents (Elt Ideal))

/-! ### The ten parameter columns: column k of the parameter array, sliced and recast as a vector, read at row n. -/

theorem spl_col0 (n : Fin 2097152) :
    val_main_v19 (F := Ideal) x0 x1 x3 x4 x5 x6 (ix1 n) = prow x0 x1 x3 x4 x5 x6 n 0 := by
  rw [val_main_v19_apply, val_main_v18_apply]
  exact congrArg _ (funext fun a => Fin.ext (by match a with | ⟨0, _⟩ => exact Nat.div_one _ | ⟨1, _⟩ => rfl))

theorem spl_col1 (n : Fin 2097152) :
    val_main_v21 (F := Ideal) x0 x1 x3 x4 x5 x6 (ix1 n) = prow x0 x1 x3 x4 x5 x6 n 1 := by
  rw [val_main_v21_apply, val_main_v20_apply]
  exact congrArg _ (funext fun a => Fin.ext (by match a with | ⟨0, _⟩ => exact Nat.div_one _ | ⟨1, _⟩ => rfl))

theorem spl_col2 (n : Fin 2097152) :
    val_main_v23 (F := Ideal) x0 x1 x3 x4 x5 x6 (ix1 n) = prow x0 x1 x3 x4 x5 x6 n 2 := by
  rw [val_main_v23_apply, val_main_v22_apply]
  exact congrArg _ (funext fun a => Fin.ext (by match a with | ⟨0, _⟩ => exact Nat.div_one _ | ⟨1, _⟩ => rfl))

theorem spl_col3 (n : Fin 2097152) :
    val_main_v25 (F := Ideal) x0 x1 x3 x4 x5 x6 (ix1 n) = prow x0 x1 x3 x4 x5 x6 n 3 := by
  rw [val_main_v25_apply, val_main_v24_apply]
  exact congrArg _ (funext fun a => Fin.ext (by match a with | ⟨0, _⟩ => exact Nat.div_one _ | ⟨1, _⟩ => rfl))

theorem spl_col4 (n : Fin 2097152) :
    val_main_v27 (F := Ideal) x0 x1 x3 x4 x5 x6 (ix1 n) = prow x0 x1 x3 x4 x5 x6 n 4 := by
  rw [val_main_v27_apply, val_main_v26_apply]
  exact congrArg _ (funext fun a => Fin.ext (by match a with | ⟨0, _⟩ => exact Nat.div_one _ | ⟨1, _⟩ => rfl))

theorem spl_col5 (n : Fin 2097152) :
    val_main_v29 (F := Ideal) x0 x1 x3 x4 x5 x6 (ix1 n) = prow x0 x1 x3 x4 x5 x6 n 5 := by
  rw [val_main_v29_apply, val_main_v28_apply]
  exact congrArg _ (funext fun a => Fin.ext (by match a with | ⟨0, _⟩ => exact Nat.div_one _ | ⟨1, _⟩ => rfl))

theorem spl_col6 (n : Fin 2097152) :
    val_main_v31 (F := Ideal) x0 x1 x3 x4 x5 x6 (ix1 n) = prow x0 x1 x3 x4 x5 x6 n 6 := by
  rw [val_main_v31_apply, val_main_v30_apply]
  exact congrArg _ (funext fun a => Fin.ext (by match a with | ⟨0, _⟩ => exact Nat.div_one _ | ⟨1, _⟩ => rfl))

theorem spl_col7 (n : Fin 2097152) :
    val_main_v33 (F := Ideal) x0 x1 x3 x4 x5 x6 (ix1 n) = prow x0 x1 x3 x4 x5 x6 n 7 := by
  rw [val_main_v33_apply, val_main_v32_apply]
  exact congrArg _ (funext fun a => Fin.ext (by match a with | ⟨0, _⟩ => exact Nat.div_one _ | ⟨1, _⟩ => rfl))

theorem spl_col8 (n : Fin 2097152) :
    val_main_v35 (F := Ideal) x0 x1 x3 x4 x5 x6 (ix1 n) = prow x0 x1 x3 x4 x5 x6 n 8 := by
  rw [val_main_v35_apply, val_main_v34_apply]
  exact congrArg _ (funext fun a => Fin.ext (by match a with | ⟨0, _⟩ => exact Nat.div_one _ | ⟨1, _⟩ => rfl))

theorem spl_col9 (n : Fin 2097152) :
    val_main_v39 (F := Ideal) x0 x1 x3 x4 x5 x6 (ix1 n) = prow x0 x1 x3 x4 x5 x6 n 9 := by
  rw [val_main_v39_apply, val_main_v38_apply]
  exact congrArg _ (funext fun a => Fin.ext (by match a with | ⟨0, _⟩ => exact Nat.div_one _ | ⟨1, _⟩ => rfl))
/-! ### The broadcast literals read at row n. -/

theorem spl_v36 (n : Fin 2097152) : val_main_v36 (F := Ideal) (ix1 n) = Ideal.ofBits .f32 0x40000000#32 := by
  rw [val_main_v36_apply, val_main_cst_0_apply, Ideal.ofBits_def]

theorem spl_v40 (n : Fin 2097152) : val_main_v40 (F := Ideal) (ix1 n) = Ideal.ofBits .f32 0x40000000#32 := by
  rw [val_main_v40_apply, val_main_cst_1_apply, Ideal.ofBits_def]

theorem spl_v50 (n : Fin 2097152) : val_main_v50 (F := Ideal) (ix1 n) = Ideal.ofBits .f32 0x461C4000#32 := by
  rw [val_main_v50_apply, val_main_cst_2_apply, Ideal.ofBits_def]

theorem spl_v52 (n : Fin 2097152) : val_main_v52 (F := Ideal) (ix1 n) = Ideal.ofBits .f32 0x461C4000#32 := by
  rw [val_main_v52_apply, val_main_cst_3_apply, Ideal.ofBits_def]

theorem spl_v55 (n : Fin 2097152) : val_main_v55 (F := Ideal) (ix1 n) = Ideal.ofBits .f32 0x461C4000#32 := by
  rw [val_main_v55_apply, val_main_cst_4_apply, Ideal.ofBits_def]

theorem spl_v57 (n : Fin 2097152) : val_main_v57 (F := Ideal) (ix1 n) = Ideal.ofBits .f32 0x461C4000#32 := by
  rw [val_main_v57_apply, val_main_cst_5_apply, Ideal.ofBits_def]

/-! ### The knot arithmetic on the columns, read at row n. -/

theorem spl_v37 (n : Fin 2097152) :
    val_main_v37 (F := Ideal) x0 x1 x3 x4 x5 x6 (ix1 n) = prow x0 x1 x3 x4 x5 x6 n 8 * Cert.Spline.two := by
  rw [val_main_v37_apply, spl_col8, spl_v36, Ideal.mulf_def]

theorem spl_v41 (n : Fin 2097152) :
    val_main_v41 (F := Ideal) x0 x1 x3 x4 x5 x6 (ix1 n) = prow x0 x1 x3 x4 x5 x6 n 9 * Cert.Spline.two := by
  rw [val_main_v41_apply, spl_col9, spl_v40, Ideal.mulf_def]

theorem spl_v42 (n : Fin 2097152) :
    val_main_v42 (F := Ideal) x0 x1 x3 x4 x5 x6 (ix1 n) = -(prow x0 x1 x3 x4 x5 x6 n 1) := by
  rw [val_main_v42_apply, spl_col1, Ideal.hostNegf_def, Ideal.negf_def]

theorem spl_v43 (n : Fin 2097152) :
    val_main_v43 (F := Ideal) x0 x1 x3 x4 x5 x6 (ix1 n) = -(prow x0 x1 x3 x4 x5 x6 n 5) := by
  rw [val_main_v43_apply, spl_col5, Ideal.hostNegf_def, Ideal.negf_def]

theorem spl_v45 (n : Fin 2097152) :
    val_main_v45 (F := Ideal) x0 x1 x3 x4 x5 x6 (ix1 n) = -(prow x0 x1 x3 x4 x5 x6 n 1) - prow x0 x1 x3 x4 x5 x6 n 0 := by
  rw [val_main_v45_apply, val_main_v44_apply, spl_col1, spl_col0, Ideal.hostNegf_def, Ideal.negf_def, Ideal.subf_def]

theorem spl_v47 (n : Fin 2097152) :
    val_main_v47 (F := Ideal) x0 x1 x3 x4 x5 x6 (ix1 n) = -(prow x0 x1 x3 x4 x5 x6 n 5) - prow x0 x1 x3 x4 x5 x6 n 4 := by
  rw [val_main_v47_apply, val_main_v46_apply, spl_col5, spl_col4, Ideal.hostNegf_def, Ideal.negf_def, Ideal.subf_def]

theorem spl_v48 (n : Fin 2097152) :
    val_main_v48 (F := Ideal) x0 x1 x3 x4 x5 x6 (ix1 n) = prow x0 x1 x3 x4 x5 x6 n 2 + prow x0 x1 x3 x4 x5 x6 n 3 := by
  rw [val_main_v48_apply, spl_col2, spl_col3, Ideal.addf_def]

theorem spl_v49 (n : Fin 2097152) :
    val_main_v49 (F := Ideal) x0 x1 x3 x4 x5 x6 (ix1 n) = prow x0 x1 x3 x4 x5 x6 n 6 + prow x0 x1 x3 x4 x5 x6 n 7 := by
  rw [val_main_v49_apply, spl_col6, spl_col7, Ideal.addf_def]

theorem spl_v51 (n : Fin 2097152) :
    val_main_v51 (F := Ideal) x0 x1 x3 x4 x5 x6 (ix1 n) = (prow x0 x1 x3 x4 x5 x6 n 2 + prow x0 x1 x3 x4 x5 x6 n 3) + Cert.Spline.big := by
  rw [val_main_v51_apply, spl_v48, spl_v50, Ideal.addf_def]

theorem spl_v53 (n : Fin 2097152) :
    val_main_v53 (F := Ideal) x0 x1 x3 x4 x5 x6 (ix1 n) = (prow x0 x1 x3 x4 x5 x6 n 9 * Cert.Spline.two) * Cert.Spline.big := by
  rw [val_main_v53_apply, spl_v41, spl_v52, Ideal.mulf_def]

theorem spl_v54 (n : Fin 2097152) :
    val_main_v54 (F := Ideal) x0 x1 x3 x4 x5 x6 (ix1 n) = (prow x0 x1 x3 x4 x5 x6 n 6 + prow x0 x1 x3 x4 x5 x6 n 7) + (prow x0 x1 x3 x4 x5 x6 n 9 * Cert.Spline.two) * Cert.Spline.big := by
  rw [val_main_v54_apply, spl_v49, spl_v53, Ideal.addf_def]

theorem spl_v56 (n : Fin 2097152) :
    val_main_v56 (F := Ideal) x0 x1 x3 x4 x5 x6 (ix1 n) = (-(prow x0 x1 x3 x4 x5 x6 n 1) - prow x0 x1 x3 x4 x5 x6 n 0) - Cert.Spline.big := by
  rw [val_main_v56_apply, spl_v45, spl_v55, Ideal.subf_def]

theorem spl_v58 (n : Fin 2097152) :
    val_main_v58 (F := Ideal) x0 x1 x3 x4 x5 x6 (ix1 n) = (prow x0 x1 x3 x4 x5 x6 n 8 * Cert.Spline.two) * Cert.Spline.big := by
  rw [val_main_v58_apply, spl_v37, spl_v57, Ideal.mulf_def]

theorem spl_v59 (n : Fin 2097152) :
    val_main_v59 (F := Ideal) x0 x1 x3 x4 x5 x6 (ix1 n) = (-(prow x0 x1 x3 x4 x5 x6 n 5) - prow x0 x1 x3 x4 x5 x6 n 4) - (prow x0 x1 x3 x4 x5 x6 n 8 * Cert.Spline.two) * Cert.Spline.big := by
  rw [val_main_v59_apply, spl_v47, spl_v58, Ideal.subf_def]

/-! ### The two joined knot arrays: six one-column pieces side by side, so column b is piece b. -/

/-- The six abscissae: column b of the joined knot array at row n. -/
theorem spl_knotX (n : Fin 2097152) (b : Fin 6) :
    val_main_v66 (F := Ideal) x0 x1 x3 x4 x5 x6 (ix2 n b) = Cert.Spline.knotX (prow x0 x1 x3 x4 x5 x6 n) b := by
  unfold val_main_v66
  match b with
  | ⟨0, _⟩ =>
    refine Eq.trans (concatenate_apply_piece (t := S2097152x6) (1 : Fin 2) _ _ _ 0 ?_ S2097152x1
      (val_main_v60 (F := Ideal) x0 x1 x3 x4 x5 x6) ?_ rfl 0 ?_ (ix2 n (0 : Fin 1)) ?_ ?_) ?_
    · exact (by decide : (0 : Nat) < 6)
    · rfl
    · rfl
    · intro b hb; match b with | ⟨0, _⟩ => rfl | ⟨1, _⟩ => exact absurd rfl hb
    · rfl
    rw [val_main_v60_apply]
    exact (congrArg _ (funext fun a => Fin.ext (by match a with | ⟨0, _⟩ => rfl))).trans (spl_v56 x0 x1 x3 x4 x5 x6 n)
  | ⟨1, _⟩ =>
    refine Eq.trans (concatenate_apply_piece (t := S2097152x6) (1 : Fin 2) _ _ _ 1 ?_ S2097152x1
      (val_main_v61 (F := Ideal) x0 x1 x3 x4 x5 x6) ?_ rfl 1 ?_ (ix2 n (0 : Fin 1)) ?_ ?_) ?_
    · exact (by decide : (1 : Nat) < 6)
    · rfl
    · rfl
    · intro b hb; match b with | ⟨0, _⟩ => rfl | ⟨1, _⟩ => exact absurd rfl hb
    · rfl
    rw [val_main_v61_apply]
    exact (congrArg _ (funext fun a => Fin.ext (by match a with | ⟨0, _⟩ => rfl))).trans (spl_v45 x0 x1 x3 x4 x5 x6 n)
  | ⟨2, _⟩ =>
    refine Eq.trans (concatenate_apply_piece (t := S2097152x6) (1 : Fin 2) _ _ _ 2 ?_ S2097152x1
      (val_main_v62 (F := Ideal) x0 x1 x3 x4 x5 x6) ?_ rfl 2 ?_ (ix2 n (0 : Fin 1)) ?_ ?_) ?_
    · exact (by decide : (2 : Nat) < 6)
    · rfl
    · rfl
    · intro b hb; match b with | ⟨0, _⟩ => rfl | ⟨1, _⟩ => exact absurd rfl hb
    · rfl
    rw [val_main_v62_apply]
    exact (congrArg _ (funext fun a => Fin.ext (by match a with | ⟨0, _⟩ => rfl))).trans (spl_v42 x0 x1 x3 x4 x5 x6 n)
  | ⟨3, _⟩ =>
    refine Eq.trans (concatenate_apply_piece (t := S2097152x6) (1 : Fin 2) _ _ _ 3 ?_ S2097152x1
      (val_main_v63 (F := Ideal) x0 x1 x3 x4 x5 x6) ?_ rfl 3 ?_ (ix2 n (0 : Fin 1)) ?_ ?_) ?_
    · exact (by decide : (3 : Nat) < 6)
    · rfl
    · rfl
    · intro b hb; match b with | ⟨0, _⟩ => rfl | ⟨1, _⟩ => exact absurd rfl hb
    · rfl
    rw [val_main_v63_apply]
    exact (congrArg _ (funext fun a => Fin.ext (by match a with | ⟨0, _⟩ => rfl))).trans (spl_col2 x0 x1 x3 x4 x5 x6 n)
  | ⟨4, _⟩ =>
    refine Eq.trans (concatenate_apply_piece (t := S2097152x6) (1 : Fin 2) _ _ _ 4 ?_ S2097152x1
      (val_main_v64 (F := Ideal) x0 x1 x3 x4 x5 x6) ?_ rfl 4 ?_ (ix2 n (0 : Fin 1)) ?_ ?_) ?_
    · exact (by decide : (4 : Nat) < 6)
    · rfl
    · rfl
    · intro b hb; match b with | ⟨0, _⟩ => rfl | ⟨1, _⟩ => exact absurd rfl hb
    · rfl
    rw [val_main_v64_apply]
    exact (congrArg _ (funext fun a => Fin.ext (by match a with | ⟨0, _⟩ => rfl))).trans (spl_v48 x0 x1 x3 x4 x5 x6 n)
  | ⟨5, _⟩ =>
    refine Eq.trans (concatenate_apply_piece (t := S2097152x6) (1 : Fin 2) _ _ _ 5 ?_ S2097152x1
      (val_main_v65 (F := Ideal) x0 x1 x3 x4 x5 x6) ?_ rfl 5 ?_ (ix2 n (0 : Fin 1)) ?_ ?_) ?_
    · exact (by decide : (5 : Nat) < 6)
    · rfl
    · rfl
    · intro b hb; match b with | ⟨0, _⟩ => rfl | ⟨1, _⟩ => exact absurd rfl hb
    · rfl
    rw [val_main_v65_apply]
    exact (congrArg _ (funext fun a => Fin.ext (by match a with | ⟨0, _⟩ => rfl))).trans (spl_v51 x0 x1 x3 x4 x5 x6 n)

/-- The six ordinates: column b of the joined knot array at row n. -/
theorem spl_knotY (n : Fin 2097152) (b : Fin 6) :
    val_main_v73 (F := Ideal) x0 x1 x3 x4 x5 x6 (ix2 n b) = Cert.Spline.knotY (prow x0 x1 x3 x4 x5 x6 n) b := by
  unfold val_main_v73
  match b with
  | ⟨0, _⟩ =>
    refine Eq.trans (concatenate_apply_piece (t := S2097152x6) (1 : Fin 2) _ _ _ 0 ?_ S2097152x1
      (val_main_v67 (F := Ideal) x0 x1 x3 x4 x5 x6) ?_ rfl 0 ?_ (ix2 n (0 : Fin 1)) ?_ ?_) ?_
    · exact (by decide : (0 : Nat) < 6)
    · rfl
    · rfl
    · intro b hb; match b with | ⟨0, _⟩ => rfl | ⟨1, _⟩ => exact absurd rfl hb
    · rfl
    rw [val_main_v67_apply]
    exact (congrArg _ (funext fun a => Fin.ext (by match a with | ⟨0, _⟩ => rfl))).trans (spl_v59 x0 x1 x3 x4 x5 x6 n)
  | ⟨1, _⟩ =>
    refine Eq.trans (concatenate_apply_piece (t := S2097152x6) (1 : Fin 2) _ _ _ 1 ?_ S2097152x1
      (val_main_v68 (F := Ideal) x0 x1 x3 x4 x5 x6) ?_ rfl 1 ?_ (ix2 n (0 : Fin 1)) ?_ ?_) ?_
    · exact (by decide : (1 : Nat) < 6)
    · rfl
    · rfl
    · intro b hb; match b with | ⟨0, _⟩ => rfl | ⟨1, _⟩ => exact absurd rfl hb
    · rfl
    rw [val_main_v68_apply]
    exact (congrArg _ (funext fun a => Fin.ext (by match a with | ⟨0, _⟩ => rfl))).trans (spl_v47 x0 x1 x3 x4 x5 x6 n)
  | ⟨2, _⟩ =>
    refine Eq.trans (concatenate_apply_piece (t := S2097152x6) (1 : Fin 2) _ _ _ 2 ?_ S2097152x1
      (val_main_v69 (F := Ideal) x0 x1 x3 x4 x5 x6) ?_ rfl 2 ?_ (ix2 n (0 : Fin 1)) ?_ ?_) ?_
    · exact (by decide : (2 : Nat) < 6)
    · rfl
    · rfl
    · intro b hb; match b with | ⟨0, _⟩ => rfl | ⟨1, _⟩ => exact absurd rfl hb
    · rfl
    rw [val_main_v69_apply]
    exact (congrArg _ (funext fun a => Fin.ext (by match a with | ⟨0, _⟩ => rfl))).trans (spl_v43 x0 x1 x3 x4 x5 x6 n)
  | ⟨3, _⟩ =>
    refine Eq.trans (concatenate_apply_piece (t := S2097152x6) (1 : Fin 2) _ _ _ 3 ?_ S2097152x1
      (val_main_v70 (F := Ideal) x0 x1 x3 x4 x5 x6) ?_ rfl 3 ?_ (ix2 n (0 : Fin 1)) ?_ ?_) ?_
    · exact (by decide : (3 : Nat) < 6)
    · rfl
    · rfl
    · intro b hb; match b with | ⟨0, _⟩ => rfl | ⟨1, _⟩ => exact absurd rfl hb
    · rfl
    rw [val_main_v70_apply]
    exact (congrArg _ (funext fun a => Fin.ext (by match a with | ⟨0, _⟩ => rfl))).trans (spl_col6 x0 x1 x3 x4 x5 x6 n)
  | ⟨4, _⟩ =>
    refine Eq.trans (concatenate_apply_piece (t := S2097152x6) (1 : Fin 2) _ _ _ 4 ?_ S2097152x1
      (val_main_v71 (F := Ideal) x0 x1 x3 x4 x5 x6) ?_ rfl 4 ?_ (ix2 n (0 : Fin 1)) ?_ ?_) ?_
    · exact (by decide : (4 : Nat) < 6)
    · rfl
    · rfl
    · intro b hb; match b with | ⟨0, _⟩ => rfl | ⟨1, _⟩ => exact absurd rfl hb
    · rfl
    rw [val_main_v71_apply]
    exact (congrArg _ (funext fun a => Fin.ext (by match a with | ⟨0, _⟩ => rfl))).trans (spl_v49 x0 x1 x3 x4 x5 x6 n)
  | ⟨5, _⟩ =>
    refine Eq.trans (concatenate_apply_piece (t := S2097152x6) (1 : Fin 2) _ _ _ 5 ?_ S2097152x1
      (val_main_v72 (F := Ideal) x0 x1 x3 x4 x5 x6) ?_ rfl 5 ?_ (ix2 n (0 : Fin 1)) ?_ ?_) ?_
    · exact (by decide : (5 : Nat) < 6)
    · rfl
    · rfl
    · intro b hb; match b with | ⟨0, _⟩ => rfl | ⟨1, _⟩ => exact absurd rfl hb
    · rfl
    rw [val_main_v72_apply]
    exact (congrArg _ (funext fun a => Fin.ext (by match a with | ⟨0, _⟩ => rfl))).trans (spl_v54 x0 x1 x3 x4 x5 x6 n)

/-! ### Row n's knots and clamped query, named. -/

/-- The six abscissae of row n. -/
abbrev splX (x0 : (⟨S2097152x3, .f32⟩ : BufTy).Contents (Elt Ideal)) (x1 : (⟨S2097152x16, .f32⟩ : BufTy).Contents (Elt Ideal)) (x3 : (⟨S18x64, .f32⟩ : BufTy).Contents (Elt Ideal)) (x4 : (⟨S64, .f32⟩ : BufTy).Contents (Elt Ideal)) (x5 : (⟨S64x10, .f32⟩ : BufTy).Contents (Elt Ideal)) (x6 : (⟨S10, .f32⟩ : BufTy).Contents (Elt Ideal))
    (n : Fin 2097152) : Fin 6 → EReal := Cert.Spline.knotX (prow x0 x1 x3 x4 x5 x6 n)
/-- The six ordinates of row n. -/
abbrev splY (x0 : (⟨S2097152x3, .f32⟩ : BufTy).Contents (Elt Ideal)) (x1 : (⟨S2097152x16, .f32⟩ : BufTy).Contents (Elt Ideal)) (x3 : (⟨S18x64, .f32⟩ : BufTy).Contents (Elt Ideal)) (x4 : (⟨S64, .f32⟩ : BufTy).Contents (Elt Ideal)) (x5 : (⟨S64x10, .f32⟩ : BufTy).Contents (Elt Ideal)) (x6 : (⟨S10, .f32⟩ : BufTy).Contents (Elt Ideal))
    (n : Fin 2097152) : Fin 6 → EReal := Cert.Spline.knotY (prow x0 x1 x3 x4 x5 x6 n)
/-- Row n's query, clamped inside the outermost abscissae. -/
abbrev splQ (x0 : (⟨S2097152x3, .f32⟩ : BufTy).Contents (Elt Ideal)) (x1 : (⟨S2097152x16, .f32⟩ : BufTy).Contents (Elt Ideal)) (x3 : (⟨S18x64, .f32⟩ : BufTy).Contents (Elt Ideal)) (x4 : (⟨S64, .f32⟩ : BufTy).Contents (Elt Ideal)) (x5 : (⟨S64x10, .f32⟩ : BufTy).Contents (Elt Ideal)) (x6 : (⟨S10, .f32⟩ : BufTy).Contents (Elt Ideal))
    (n : Fin 2097152) : EReal := Cert.Spline.clampQ (splX x0 x1 x3 x4 x5 x6 n) (x0 (ix2 n 2))

/-! ### The query, and the knots of each bin's two ends. -/

/-- The third channel of row n. -/
theorem spl_q (n : Fin 2097152) : val_main_v75 (F := Ideal) x0 (ix1 n) = x0 (ix2 n 2) := by
  rw [val_main_v75_apply, val_main_v74_apply]
  exact congrArg _ (funext fun a => Fin.ext (by match a with | ⟨0, _⟩ => exact Nat.div_one _ | ⟨1, _⟩ => rfl))

/-- Bin b's left abscissa. -/
theorem spl_xlo (n : Fin 2097152) (b : Fin 5) :
    val_main_v76 (F := Ideal) x0 x1 x3 x4 x5 x6 (ix2 n b) = splX x0 x1 x3 x4 x5 x6 n b.castSucc := by
  rw [val_main_v76_apply]
  exact (congrArg _ (funext fun a => Fin.ext (by match a with | ⟨0, _⟩ => rfl | ⟨1, _⟩ => rfl))).trans
    (spl_knotX x0 x1 x3 x4 x5 x6 n b.castSucc)

/-- Bin b's right abscissa. -/
theorem spl_xhi (n : Fin 2097152) (b : Fin 5) :
    val_main_v77 (F := Ideal) x0 x1 x3 x4 x5 x6 (ix2 n b) = splX x0 x1 x3 x4 x5 x6 n b.succ := by
  rw [val_main_v77_apply]
  exact (congrArg _ (funext fun a => Fin.ext (by match a with | ⟨0, _⟩ => rfl | ⟨1, _⟩ => exact Nat.add_comm 1 _))).trans
    (spl_knotX x0 x1 x3 x4 x5 x6 n b.succ)

/-- Bin b's left ordinate. -/
theorem spl_ylo (n : Fin 2097152) (b : Fin 5) :
    val_main_v78 (F := Ideal) x0 x1 x3 x4 x5 x6 (ix2 n b) = splY x0 x1 x3 x4 x5 x6 n b.castSucc := by
  rw [val_main_v78_apply]
  exact (congrArg _ (funext fun a => Fin.ext (by match a with | ⟨0, _⟩ => rfl | ⟨1, _⟩ => rfl))).trans
    (spl_knotY x0 x1 x3 x4 x5 x6 n b.castSucc)

/-- Bin b's right ordinate. -/
theorem spl_yhi (n : Fin 2097152) (b : Fin 5) :
    val_main_v79 (F := Ideal) x0 x1 x3 x4 x5 x6 (ix2 n b) = splY x0 x1 x3 x4 x5 x6 n b.succ := by
  rw [val_main_v79_apply]
  exact (congrArg _ (funext fun a => Fin.ext (by match a with | ⟨0, _⟩ => rfl | ⟨1, _⟩ => exact Nat.add_comm 1 _))).trans
    (spl_knotY x0 x1 x3 x4 x5 x6 n b.succ)

/-! ### The clamp: the query held between the shrunken outermost abscissae. -/

/-- The lower bound: the first abscissa, shrunk. -/
theorem spl_v83 (n : Fin 2097152) :
    val_main_v83 (F := Ideal) x0 x1 x3 x4 x5 x6 (ix1 n) = splX x0 x1 x3 x4 x5 x6 n 0 * Cert.Spline.shrink := by
  have e : idx_main_v80 (idx_main_v81 (ix1 n)) = ix2 n (0 : Fin 5) :=
    funext fun a => Fin.ext (by match a with | ⟨0, _⟩ => exact Nat.div_one _ | ⟨1, _⟩ => rfl)
  rw [val_main_v83_apply, val_main_v81_apply, val_main_v80_apply, e, spl_xlo, val_main_v82_apply, val_main_cst_6_apply,
    Ideal.ofBits_def, Ideal.mulf_def]
  rfl

/-- The upper bound: the last abscissa, shrunk. -/
theorem spl_v87 (n : Fin 2097152) :
    val_main_v87 (F := Ideal) x0 x1 x3 x4 x5 x6 (ix1 n) = splX x0 x1 x3 x4 x5 x6 n 5 * Cert.Spline.shrink := by
  have e : idx_main_v84 (idx_main_v85 (ix1 n)) = ix2 n (4 : Fin 5) :=
    funext fun a => Fin.ext (by match a with | ⟨0, _⟩ => exact Nat.div_one _ | ⟨1, _⟩ => rfl)
  rw [val_main_v87_apply, val_main_v85_apply, val_main_v84_apply, e, spl_xhi, val_main_v86_apply, val_main_cst_7_apply,
    Ideal.ofBits_def, Ideal.mulf_def]
  rfl

/-- The clamped query of row n. -/
theorem spl_clamp (n : Fin 2097152) :
    val_main_v88 (F := Ideal) x0 x1 x3 x4 x5 x6 (ix1 n) = splQ x0 x1 x3 x4 x5 x6 n := by
  rw [val_main_v88_apply, val_main_call2_v0_apply, spl_v87, spl_v83, spl_q, Ideal.minimumf_def, Ideal.maximumf_def]
  rfl

/-- The clamped query spread over the five bins (three copies in the program, one value). -/
theorem spl_q90 (n : Fin 2097152) (b : Fin 5) :
    val_main_v90 (F := Ideal) x0 x1 x3 x4 x5 x6 (ix2 n b) = splQ x0 x1 x3 x4 x5 x6 n := by
  rw [val_main_v90_apply, val_main_v89_apply]
  exact (congrArg _ (funext fun a => Fin.ext (by match a with | ⟨0, _⟩ => rfl))).trans (spl_clamp x0 x1 x3 x4 x5 x6 n)
theorem spl_q92 (n : Fin 2097152) (b : Fin 5) :
    val_main_v92 (F := Ideal) x0 x1 x3 x4 x5 x6 (ix2 n b) = splQ x0 x1 x3 x4 x5 x6 n := by
  rw [val_main_v92_apply, val_main_v89_apply]
  exact (congrArg _ (funext fun a => Fin.ext (by match a with | ⟨0, _⟩ => rfl))).trans (spl_clamp x0 x1 x3 x4 x5 x6 n)
theorem spl_q98 (n : Fin 2097152) (b : Fin 5) :
    val_main_v98 (F := Ideal) x0 x1 x3 x4 x5 x6 (ix2 n b) = splQ x0 x1 x3 x4 x5 x6 n := by
  rw [val_main_v98_apply, val_main_v89_apply]
  exact (congrArg _ (funext fun a => Fin.ext (by match a with | ⟨0, _⟩ => rfl))).trans (spl_clamp x0 x1 x3 x4 x5 x6 n)

/-! ### One bin, the sum over the bins, and the joined result. -/

/-- The value a bin contributes when the query lies outside it: the zero word, spread over the bins. -/
theorem spl_zero (n : Fin 2097152) (b : Fin 5) :
    val_main_call3_v1 (F := Ideal) (ix2 n b) = Cert.Spline.zero := by
  rw [val_main_call3_v1_apply, val_main_call3_v0_apply, val_main_cst_8_apply, Ideal.ofBits_def]

/-- Bin b's contribution at row n: its chord at the clamped query where the query lies in the bin, else zero. -/
theorem spl_bin (n : Fin 2097152) (b : Fin 5) :
    val_main_v102 (F := Ideal) x0 x1 x3 x4 x5 x6 (ix2 n b)
      = Cert.Spline.bin (splX x0 x1 x3 x4 x5 x6 n) (splY x0 x1 x3 x4 x5 x6 n) (splQ x0 x1 x3 x4 x5 x6 n) b := by
  rw [val_main_v102_apply, val_main_v94_apply, val_main_v91_apply, val_main_v93_apply, val_main_v101_apply,
    val_main_v100_apply, val_main_v97_apply, val_main_v95_apply, val_main_v96_apply, val_main_v99_apply,
    spl_q90, spl_q92, spl_q98, spl_xlo, spl_xhi, spl_ylo, spl_yhi, spl_zero]
  simp only [Ideal.cmpf_def, Ideal.hostDivf_def, Ideal.subf_def, Ideal.mulf_def, Ideal.addf_def]
  rfl

/-- The spline of row n: zero plus the five bins' contributions. -/
theorem spl_interp (n : Fin 2097152) :
    val_main_v103 (F := Ideal) x0 x1 x3 x4 x5 x6 (ix1 n)
      = Cert.Spline.interp (splX x0 x1 x3 x4 x5 x6 n) (splY x0 x1 x3 x4 x5 x6 n) (splQ x0 x1 x3 x4 x5 x6 n) := by
  rw [val_main_v103_apply, val_main_cst_9_apply, Ideal.ofBits_def]
  unfold Cert.Spline.interp
  refine congrArg (Cert.Spline.zero + ·) (Finset.sum_congr rfl fun k _ => ?_)
  exact (congrArg _ (funext fun a => Fin.ext (by match a with | ⟨0, _⟩ => rfl | ⟨1, _⟩ => rfl))).trans
    (spl_bin x0 x1 x3 x4 x5 x6 n k)

/-- The two channels that pass through, each times its mask entry. -/
theorem spl_mask (n : Fin 2097152) (c : Fin 2) :
    val_main_v104 (F := Ideal) x0 x2 (ix2 n c) = x0 (ix2 n c.castSucc) * x2 (ix1 c.castSucc) := by
  have e1 : idx_main_v104 (ix2 n c) = ix2 n c.castSucc :=
    funext fun a => Fin.ext (by match a with | ⟨0, _⟩ => rfl | ⟨1, _⟩ => rfl)
  have e2 : idx_main_v0 (idx_main_v1 (ix2 n c.castSucc)) = ix1 c.castSucc :=
    funext fun a => Fin.ext (by match a with | ⟨0, _⟩ => rfl)
  rw [val_main_v104_apply, e1, val_main_v2_apply, val_main_v1_apply, val_main_v0_apply, e2, Ideal.mulf_def]

/-- The result array at (n, c). -/
theorem out_apply_of (x0 : (⟨S2097152x3, .f32⟩ : BufTy).Contents (Elt Ideal)) (x1 : (⟨S2097152x16, .f32⟩ : BufTy).Contents (Elt Ideal)) (x2 : (⟨S3, .f32⟩ : BufTy).Contents (Elt Ideal)) (x3 : (⟨S18x64, .f32⟩ : BufTy).Contents (Elt Ideal)) (x4 : (⟨S64, .f32⟩ : BufTy).Contents (Elt Ideal)) (x5 : (⟨S64x10, .f32⟩ : BufTy).Contents (Elt Ideal)) (x6 : (⟨S10, .f32⟩ : BufTy).Contents (Elt Ideal))
    (n : Fin 2097152) (c : Fin 3) :
    val_main_v106 (F := Ideal) x0 x1 x2 x3 x4 x5 x6 (ix2 n c)
      = if c.val < 2 then x0 (ix2 n c) * x2 (ix1 c)
        else Cert.Spline.interp (Cert.Spline.knotX (prow x0 x1 x3 x4 x5 x6 n)) (Cert.Spline.knotY (prow x0 x1 x3 x4 x5 x6 n))
          (Cert.Spline.clampQ (Cert.Spline.knotX (prow x0 x1 x3 x4 x5 x6 n)) (x0 (ix2 n 2))) := by
  unfold val_main_v106
  by_cases hc : c.val < 2
  · -- a column of the first piece: a masked channel
    rw [if_pos hc]
    refine Eq.trans (concatenate_pair_apply_left (t := S2097152x3) (s₁ := S2097152x2) (s₂ := S2097152x1) (1 : Fin 2) _ _ _ (ix2 n c) rfl
      (ix2 n (⟨c.val, hc⟩ : Fin 2)) ?_) ?_
    · intro b; match b with | ⟨0, _⟩ => rfl | ⟨1, _⟩ => rfl
    exact spl_mask x0 x2 n ⟨c.val, hc⟩
  · -- the last column: the second piece, the spline
    rw [if_neg hc]
    refine Eq.trans (concatenate_pair_apply_right (t := S2097152x3) (s₁ := S2097152x2) (s₂ := S2097152x1) (1 : Fin 2) _ _ _ (ix2 n c) rfl rfl
      (ix2 n (0 : Fin 1)) ?_ ?_) ?_
    · intro b hb; match b with | ⟨0, _⟩ => rfl | ⟨1, _⟩ => exact absurd rfl hb
    · have h3 : c.val < 3 := c.isLt
      show 0 + 2 = c.val
      omega
    rw [val_main_v105_apply]
    exact (congrArg _ (funext fun a => Fin.ext (by match a with | ⟨0, _⟩ => rfl))).trans (spl_interp x0 x1 x3 x4 x5 x6 n)

end Cert.ReferenceIdeal.Row

end
-- ==== Proof.RefRow.lean ====
/-
  The reference's result array is the row map applied to every row of the arguments: its entry (n, c) is the masked
  channel or the spline over the knots built from row n of its parameter array, and that row is the row map's
  parameters of row n.
-/
import proofs.«130953_j79164837200472_1_alg».proof.Proof.RefMlp
import proofs.«130953_j79164837200472_1_alg».proof.Proof.RefSpline

noncomputable section

open scoped BigOperators
open Idealize.ShloMosaic Idealize.ShloMosaic.ValueIdx Cert.ReferenceIdeal Cert.ReferenceIdeal.RefRead

namespace Cert.ReferenceIdeal.Row

/-- The reference's last stage, as a whole array, is the specification of the arguments. -/
theorem result_eq (x0 : (⟨S2097152x3, .f32⟩ : BufTy).Contents (Elt Ideal)) (x1 : (⟨S2097152x16, .f32⟩ : BufTy).Contents (Elt Ideal)) (x2 : (⟨S3, .f32⟩ : BufTy).Contents (Elt Ideal)) (x3 : (⟨S18x64, .f32⟩ : BufTy).Contents (Elt Ideal)) (x4 : (⟨S64, .f32⟩ : BufTy).Contents (Elt Ideal)) (x5 : (⟨S64x10, .f32⟩ : BufTy).Contents (Elt Ideal)) (x6 : (⟨S10, .f32⟩ : BufTy).Contents (Elt Ideal)) :
    val_main_v106 (F := Ideal) x0 x1 x2 x3 x4 x5 x6 = Cert.Spline.G x0 x1 x2 x3 x4 x5 x6 := by
  funext i
  obtain ⟨n, c, rfl⟩ : ∃ (n : Fin 2097152) (c : Fin 3), i = ix2 n c := ⟨i 0, i 1, eq_ix2 i⟩
  rw [out_apply_of]
  have hp : prow x0 x1 x3 x4 x5 x6 n
      = Cert.Spline.param (fun c' => x0 (ix2 n c')) (fun k => x1 (ix2 n k)) (fun k j => x3 (ix2 k j)) (fun j => x4 (ix1 j))
          (fun j r => x5 (ix2 j r)) (fun r => x6 (ix1 r)) :=
    funext fun r => param_apply x0 x1 x3 x4 x5 x6 n r
  rw [hp]
  rfl

end Cert.ReferenceIdeal.Row

end
-- ==== Proof.lean ====
/-
  The certificate of a conditioned monotone-spline map: a Pallas kernel that streams rows through VMEM in transposed,
  lane-dense blocks against a plain row-wise jnp reference.

  Both programs send each row (three channels, sixteen time features) to three outputs: the first two channels times
  their mask entries, and the third channel through a piecewise-linear spline whose six knots come from a two-layer
  perceptron of tanh of the first two channels and the time features (Proof/Spline.lean states that row map once, on the
  extended reals). The kernel holds every per-row array transposed, so that a block of 16384 rows is a block of 16384
  lanes, and computes lane by lane what the reference computes row by row: the same sums in the same order up to the
  order of the two factors of each product, the same softplus, knots, clamp and five-bin interpolation. On the extended
  reals the narrowing of the matrix products' operands is the identity and the two spellings of a negation (0 − x and
  −x) agree, so the two results are equal entry by entry, with no use of the inputs' finiteness.

  The three frames: the kernel's (at the bit-exact and at the ideal instance) are the generated frame certificates; the
  reference's is its run with the result dropped. The idealization rewrote nothing, so `preserves` is trivial. The
  value claim pairs the kernel's run with its result named (Proof/KernelValue.lean, over Proof/KernelRow.lean) with the
  reference's run over named stages (Proof/RefRun.lean) read at an entry (Proof/RefRow.lean).
-/
import proofs.«130953_j79164837200472_1_alg».proof.Defs
import proofs.«130953_j79164837200472_1_alg».proof.Proof.Gen.Kernel
import proofs.«130953_j79164837200472_1_alg».proof.Proof.Gen.Kernel.Skeleton
import proofs.«130953_j79164837200472_1_alg».proof.Proof.Gen.Kernel.Launch
import proofs.«130953_j79164837200472_1_alg».proof.Proof.Gen.Kernel.Points
import proofs.«130953_j79164837200472_1_alg».proof.Proof.Gen.Kernel.Frame
import proofs.«130953_j79164837200472_1_alg».proof.Proof.Gen.KernelIdeal
import proofs.«130953_j79164837200472_1_alg».proof.Proof.Gen.KernelIdeal.Skeleton
import proofs.«130953_j79164837200472_1_alg».proof.Proof.Gen.KernelIdeal.Launch
import proofs.«130953_j79164837200472_1_alg».proof.Proof.Gen.KernelIdeal.Points
import proofs.«130953_j79164837200472_1_alg».proof.Proof.Gen.KernelIdeal.Frame
import proofs.«130953_j79164837200472_1_alg».proof.Proof.Gen.ReferenceIdeal
import proofs.«130953_j79164837200472_1_alg».proof.Proof.Gen.Pre_finite_inputs
import proofs.«130953_j79164837200472_1_alg».proof.Proof.KernelValue
import proofs.«130953_j79164837200472_1_alg».proof.Proof.RefRun
import proofs.«130953_j79164837200472_1_alg».proof.Proof.RefRow
import Idealize.ShloMosaic.Adequacy
import Idealize.ShloMosaic.Init

noncomputable section

namespace Cert.Proof

open Idealize.ShloMosaic Idealize.SL.Sem

/-- The kernel as printed runs, faults nowhere and keeps its arguments: the generated frame. -/
theorem frame_kernel : Cert.frame_Kernel := fun m ρ _ => Cert.Kernel.Gen.frame m ρ

/-- The same of its reading on the extended reals. -/
theorem frame_kernelIdeal : Cert.frame_KernelIdeal := fun m ρ _ => Cert.KernelIdeal.Gen.frame m ρ

/-- The reference runs and keeps its arguments: its run over named stages, the result dropped. -/
theorem frame_referenceIdeal : Cert.frame_ReferenceIdeal := fun m ρ _ =>
  (θ_run Cert.ReferenceIdeal.defs _ _).mono (fun _ h c => (h c).2) (Cert.ReferenceIdeal.HostRun.run (F := Ideal) m ρ)

/-- From memories that agree on the seven arguments both programs end with the result array at the row map of the
    arguments' rows: the kernel by its run with the result named, the reference by its last stage read entry by entry. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.HostRun.run (F := Ideal) m' ρ')
  rw [Cert.ReferenceIdeal.Row.result_eq, (hagree c).1, (hagree c).2.1, (hagree c).2.2.1, (hagree c).2.2.2.1, (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
